-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500x128 : Shape := ⟨2, ![500, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg8 : IVec S500000 32) (main_v32 : IVec S_ 1) (main_c_12 : IVec S_ 32) : IVec S_ 1 :=
  let main_v33 : IVec S500000 32 := broadcastInDim S500000 ![] bcast_S_S500000 main_c_12
  let main_v34 : IVec S500000 1 := cmpi .slt main_arg8 main_v33
  let main_c_13 : IVec S_ 1 := constantI S_ 1 1#1
  let main_v35 : IVec S_ 1 := (fun x v => Host.reduce IntOp.andi x v reducesTo_S500000_S_d0 h_S_) main_v34 main_c_13
  let main_v36 : IVec S_ 1 := andi main_v32 main_v35
  main_v36

def fn_part1 {F : FTy → Type} [FloatOps F] (main_arg4 : FVec F S1x128 .f32) (main_arg5 : FVec F S1 .f32) (main_arg8 : IVec S500000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S500000 32 := broadcastInDim S500000 ![] bcast_S_S500000 main_c_10
  let main_v30 : IVec S500000 1 := cmpi .sge main_arg8 main_v29
  let main_c_11 : IVec S_ 1 := constantI S_ 1 1#1
  let main_v31 : IVec S_ 1 := (fun x v => Host.reduce IntOp.andi x v reducesTo_S500000_S_d0 h_S_) main_v30 main_c_11
  let main_v32 : IVec S_ 1 := andi main_v28 main_v31
  let main_c_12 : IVec S_ 32 := constantI S_ 32 500#32
  fn_part2 (F := F) main_arg8 main_v32 main_c_12

def fn {F : FTy → Type} [FloatOps F] (main_arg0 : FVec F S100000x128 .f32) (main_arg1 : FVec F S500x128 .f32) (main_arg2 : FVec F S128x384 .f32) (main_arg3 : FVec F S128 .f32) (main_arg4 : FVec F S1x128 .f32) (main_arg5 : FVec F S1 .f32) (main_arg6 : IVec S500000 32) (main_arg7 : IVec S500000 32) (main_arg8 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500x128 .f32 := Host.absf main_arg1
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128x384 .f32 := Host.absf main_arg2
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg8 main_v13 main_v16
-- ==== Kernel.lean ====
abbrev S100000x128 : Shape := ⟨2, ![100000, 128]⟩
abbrev S500x128 : Shape := ⟨2, ![500, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S500000 : Shape := ⟨1, ![500000]⟩
abbrev S_ : Shape := ⟨0, ![]⟩
abbrev S7904 : Shape := ⟨1, ![7904]⟩
abbrev S507904 : Shape := ⟨1, ![507904]⟩
abbrev S507904x1 : Shape := ⟨2, ![507904, 1]⟩
abbrev S507904x128 : Shape := ⟨2, ![507904, 128]⟩
abbrev S128x128 : Shape := ⟨2, ![128, 128]⟩
abbrev S512x128 : Shape := ⟨2, ![512, 128]⟩
abbrev S1x1 : Shape := ⟨2, ![1, 1]⟩
abbrev S2x512x128 : Shape := ⟨3, ![2, 512, 128]⟩
abbrev S4096x128 : Shape := ⟨2, ![4096, 128]⟩
abbrev S4096 : Shape := ⟨1, ![4096]⟩
abbrev S4096x1 : Shape := ⟨2, ![4096, 1]⟩
abbrev S1x512x128 : Shape := ⟨3, ![1, 512, 128]⟩
abbrev S512x4096 : Shape := ⟨2, ![512, 4096]⟩
abbrev S1x4096 : Shape := ⟨2, ![1, 4096]⟩
abbrev S500 : Shape := ⟨1, ![500]⟩
abbrev S500000x1 : Shape := ⟨2, ![500000, 1]⟩
abbrev S500x1 : Shape := ⟨2, ![500, 1]⟩
abbrev S100001x128 : Shape := ⟨2, ![100001, 128]⟩
abbrev S100001x1 : Shape := ⟨2, ![100001, 1]⟩
abbrev S100000x1 : Shape := ⟨2, ![100000, 1]⟩
abbrev S2000x128 : Shape := ⟨2, ![2000, 128]⟩
abbrev S2000x1 : Shape := ⟨2, ![2000, 1]⟩

abbrev nBuf : Space → Nat
  | .hbm => 102
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S500x128, .f32⟩
  | .hbm, ⟨2, _⟩ => ⟨S128x384, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S_, .i32⟩
  | .hbm, ⟨10, _⟩ => ⟨S7904, .i32⟩
  | .hbm, ⟨11, _⟩ => ⟨S507904, .i32⟩
  | .hbm, ⟨12, _⟩ => ⟨S507904, .i32⟩
  | .hbm, ⟨13, _⟩ => ⟨S_, .i32⟩
  | .hbm, ⟨14, _⟩ => ⟨S7904, .i32⟩
  | .hbm, ⟨15, _⟩ => ⟨S507904, .i32⟩
  | .hbm, ⟨16, _⟩ => ⟨S_, .i32⟩
  | .hbm, ⟨17, _⟩ => ⟨S7904, .i32⟩
  | .hbm, ⟨18, _⟩ => ⟨S507904, .i32⟩
  | .hbm, ⟨19, _⟩ => ⟨S100000x128, .bf16⟩
  | .hbm, ⟨20, _⟩ => ⟨S_, .i32⟩
  | .hbm, ⟨21, _⟩ => ⟨S507904, .i32⟩
  | .hbm, ⟨22, _⟩ => ⟨S507904, .i1⟩
  | .hbm, ⟨23, _⟩ => ⟨S_, .i32⟩
  | .hbm, ⟨24, _⟩ => ⟨S507904, .i32⟩
  | .hbm, ⟨25, _⟩ => ⟨S507904, .i32⟩
  | .hbm, ⟨26, _⟩ => ⟨S507904, .i32⟩
  | .hbm, ⟨27, _⟩ => ⟨S507904x1, .i32⟩
  | .hbm, ⟨28, _⟩ => ⟨S507904x128, .bf16⟩
  | .hbm, ⟨29, _⟩ => ⟨S_, .i32⟩
  | .hbm, ⟨30, _⟩ => ⟨S507904, .i32⟩
  | .hbm, ⟨31, _⟩ => ⟨S507904, .i1⟩
  | .hbm, ⟨32, _⟩ => ⟨S_, .i32⟩
  | .hbm, ⟨33, _⟩ => ⟨S507904, .i32⟩
  | .hbm, ⟨34, _⟩ => ⟨S507904, .i32⟩
  | .hbm, ⟨35, _⟩ => ⟨S507904, .i32⟩
  | .hbm, ⟨36, _⟩ => ⟨S507904x1, .i32⟩
  | .hbm, ⟨37, _⟩ => ⟨S507904x128, .bf16⟩
  | .hbm, ⟨38, _⟩ => ⟨S128x128, .f32⟩
  | .hbm, ⟨39, _⟩ => ⟨S128x128, .f32⟩
  | .hbm, ⟨40, _⟩ => ⟨S128x128, .bf16⟩
  | .hbm, ⟨41, _⟩ => ⟨S128x128, .f32⟩
  | .hbm, ⟨42, _⟩ => ⟨S128x128, .f32⟩
  | .hbm, ⟨43, _⟩ => ⟨S128x128, .bf16⟩
  | .hbm, ⟨44, _⟩ => ⟨S128x128, .f32⟩
  | .hbm, ⟨45, _⟩ => ⟨S128x128, .f32⟩
  | .hbm, ⟨46, _⟩ => ⟨S500x128, .f32⟩
  | .hbm, ⟨47, _⟩ => ⟨S_, .f32⟩
  | .hbm, ⟨48, _⟩ => ⟨S512x128, .f32⟩
  | .hbm, ⟨49, _⟩ => ⟨S_, .i32⟩
  | .hbm, ⟨50, _⟩ => ⟨S1, .i32⟩
  | .hbm, ⟨51, _⟩ => ⟨S512x128, .f32⟩
  | .hbm, ⟨52, _⟩ => ⟨S512x128, .bf16⟩
  | .hbm, ⟨53, _⟩ => ⟨S1x128, .f32⟩
  | .hbm, ⟨54, _⟩ => ⟨S1x1, .f32⟩
  | .hbm, ⟨55, _⟩ => ⟨S507904x128, .f32⟩
  | .hbm, ⟨56, _⟩ => ⟨S507904x1, .f32⟩
  | .hbm, ⟨57, _⟩ => ⟨S2x512x128, .f32⟩
  | .hbm, ⟨58, _⟩ => ⟨S1x512x128, .f32⟩
  | .hbm, ⟨59, _⟩ => ⟨S512x128, .f32⟩
  | .hbm, ⟨60, _⟩ => ⟨S1x512x128, .f32⟩
  | .hbm, ⟨61, _⟩ => ⟨S512x128, .f32⟩
  | .hbm, ⟨62, _⟩ => ⟨S512x128, .f32⟩
  | .hbm, ⟨63, _⟩ => ⟨S500x128, .f32⟩
  | .hbm, ⟨64, _⟩ => ⟨S_, .f32⟩
  | .hbm, ⟨65, _⟩ => ⟨S500000, .f32⟩
  | .hbm, ⟨66, _⟩ => ⟨S_, .f32⟩
  | .hbm, ⟨67, _⟩ => ⟨S500, .f32⟩
  | .hbm, ⟨68, _⟩ => ⟨S500000x1, .i32⟩
  | .hbm, ⟨69, _⟩ => ⟨S500, .f32⟩
  | .hbm, ⟨70, _⟩ => ⟨S_, .f32⟩
  | .hbm, ⟨71, _⟩ => ⟨S500, .f32⟩
  | .hbm, ⟨72, _⟩ => ⟨S500, .f32⟩
  | .hbm, ⟨73, _⟩ => ⟨S500x1, .f32⟩
  | .hbm, ⟨74, _⟩ => ⟨S500x128, .f32⟩
  | .hbm, ⟨75, _⟩ => ⟨S500x128, .f32⟩
  | .hbm, ⟨76, _⟩ => ⟨S_, .f32⟩
  | .hbm, ⟨77, _⟩ => ⟨S500x128, .f32⟩
  | .hbm, ⟨78, _⟩ => ⟨S500x128, .i1⟩
  | .hbm, ⟨79, _⟩ => ⟨S_, .f32⟩
  | .hbm, ⟨80, _⟩ => ⟨S500x128, .f32⟩
  | .hbm, ⟨81, _⟩ => ⟨S500x128, .i1⟩
  | .hbm, ⟨82, _⟩ => ⟨S_, .f32⟩
  | .hbm, ⟨83, _⟩ => ⟨S_, .f32⟩
  | .hbm, ⟨84, _⟩ => ⟨S500x128, .f32⟩
  | .hbm, ⟨85, _⟩ => ⟨S500x128, .f32⟩
  | .hbm, ⟨86, _⟩ => ⟨S500x128, .f32⟩
  | .hbm, ⟨87, _⟩ => ⟨S_, .f32⟩
  | .hbm, ⟨88, _⟩ => ⟨S500x128, .f32⟩
  | .hbm, ⟨89, _⟩ => ⟨S500x128, .f32⟩
  | .hbm, ⟨90, _⟩ => ⟨S500x128, .f32⟩
  | .hbm, ⟨91, _⟩ => ⟨S_, .f32⟩
  | .hbm, ⟨92, _⟩ => ⟨S100001x128, .f32⟩
  | .hbm, ⟨93, _⟩ => ⟨S507904x1, .i32⟩
  | .hbm, ⟨94, _⟩ => ⟨S100001x128, .f32⟩
  | .hbm, ⟨95, _⟩ => ⟨S100000x128, .f32⟩
  | .hbm, ⟨96, _⟩ => ⟨S_, .f32⟩
  | .hbm, ⟨97, _⟩ => ⟨S100001x1, .f32⟩
  | .hbm, ⟨98, _⟩ => ⟨S507904x1, .i32⟩
  | .hbm, ⟨99, _⟩ => ⟨S100001x1, .f32⟩
  | .hbm, ⟨100, _⟩ => ⟨S100000x1, .f32⟩
  | .hbm, ⟨101, _⟩ => ⟨S100000x128, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096, .i32⟩
  | .local _ .vmem, ⟨5, _⟩ => ⟨S4096, .i32⟩
  | .local _ .vmem, ⟨6, _⟩ => ⟨S128x128, .bf16⟩
  | .local _ .vmem, ⟨7, _⟩ => ⟨S128x128, .bf16⟩
  | .local _ .vmem, ⟨8, _⟩ => ⟨S512x128, .bf16⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S4096x128, .f32⟩
  | .local _ .vmem, ⟨13, _⟩ => ⟨S4096x128, .f32⟩
  | .local _ .vmem, ⟨14, _⟩ => ⟨S4096x1, .f32⟩
  | .local _ .vmem, ⟨15, _⟩ => ⟨S4096x1, .f32⟩
  | .local _ .vmem, ⟨16, _⟩ => ⟨S1x512x128, .f32⟩
  | .local _ .vmem, ⟨17, _⟩ => ⟨S1x512x128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S2000x128, .f32⟩
  | .local _ .vmem, ⟨23, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_cst_1 : Ref sig .tc := ⟨.hbm, 82, rfl⟩
abbrev main_call0_call0_v0 : Ref sig .tc := ⟨.hbm, 83, rfl⟩
abbrev main_call0_call0_v1 : Ref sig .tc := ⟨.hbm, 84, rfl⟩
abbrev main_call0_v4 : Ref sig .tc := ⟨.hbm, 85, rfl⟩
abbrev main_call0_v5 : Ref sig .tc := ⟨.hbm, 86, rfl⟩
abbrev main_call0_cst_2 : Ref sig .tc := ⟨.hbm, 87, rfl⟩
abbrev main_call0_v6 : Ref sig .tc := ⟨.hbm, 88, rfl⟩
abbrev main_call0_v7 : Ref sig .tc := ⟨.hbm, 89, rfl⟩
abbrev main_v53 : Ref sig .tc := ⟨.hbm, 90, rfl⟩
abbrev main_cst_10 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_11 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23

abbrev nD : Nat := 1
abbrev τ : Topo := Topo.v7x

variable {F : FTy → Type} [FloatOps F]

abbrev grid0 : Pipeline.Grid := ⟨2, ![2, 62], ![false, false]⟩

def cc0_transform_0 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 1 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  ![v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S7904 : S_.BroadcastsInDim S7904 (![] : Fin 0 → Fin S7904.rank)
  concatenates_S500000_S7904_S507904_d0 : Shape.Concatenates [S500000, S7904] S507904 0
  bitsLt_bf16_f32 : FTy.bits .bf16 < FTy.bits .f32
  bcast_S_S507904 : S_.BroadcastsInDim S507904 (![] : Fin 0 → Fin S507904.rank)
  bcast_S507904_S507904x1_0 : S507904.BroadcastsInDim S507904x1 (![0] : Fin 1 → Fin S507904x1.rank)
  slices_S128x384_S128x128_0_0 : S128x384.Slices ![0, 0] S128x128
  transposes_S128x128_S128x128_1_0 : S128x128.Transposes [1, 0] S128x128
  slices_S128x384_S128x128_0_128 : S128x384.Slices ![0, 128] S128x128
  slices_S128x384_S128x128_0_256 : S128x384.Slices ![0, 256] S128x128
  bcast_S_S512x128 : S_.BroadcastsInDim S512x128 (![] : Fin 0 → Fin S512x128.rank)
  bcast_S_S1 : S_.BroadcastsInDim S1 (![] : Fin 0 → Fin S1.rank)
  shapeCasts_S128_S1x128 : S128.ShapeCasts S1x128
  shapeCasts_S1_S1x1 : S1.ShapeCasts S1x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  iota_S512x4096_d0_w32 : S512x4096.Iotas .tc 32 [0]
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S512x4096 : S1x4096.Broadcasts S512x4096
  natLt_1_32 : 1 < 32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S4096x128_S4096 : S4096x128.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  broadcasts_S4096x1_S4096x128 : S4096x1.Broadcasts S4096x128
  inb_S4096x1_S4096x1_0_0 : ∀ a, (![0, 0] : Fin 2 → Nat) a + S4096x1.size a ≤ S4096x1.size a
  h_S4096x1 : 0 < S4096x1.numel
  slices_S2x512x128_S1x512x128_0_0_0 : S2x512x128.Slices ![0, 0, 0] S1x512x128
  slices_S2x512x128_S1x512x128_1_0_0 : S2x512x128.Slices ![1, 0, 0] S1x512x128
  slices_S512x128_S500x128_0_0 : S512x128.Slices ![0, 0] S500x128
  bcast_S_S500000 : S_.BroadcastsInDim S500000 (![] : Fin 0 → Fin S500000.rank)
  bcast_S_S500 : S_.BroadcastsInDim S500 (![] : Fin 0 → Fin S500.rank)
  bcast_S500000_S500000x1_0 : S500000.BroadcastsInDim S500000x1 (![0] : Fin 1 → Fin S500000x1.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  bcast_S_S500x128 : S_.BroadcastsInDim S500x128 (![] : Fin 0 → Fin S500x128.rank)
  bcast_S_S100001x128 : S_.BroadcastsInDim S100001x128 (![] : Fin 0 → Fin S100001x128.rank)
  slices_S100001x128_S100000x128_0_0 : S100001x128.Slices ![0, 0] S100000x128
  bcast_S_S100001x1 : S_.BroadcastsInDim S100001x1 (![] : Fin 0 → Fin S100001x1.rank)
  slices_S100001x1_S100000x1_0_0 : S100001x1.Slices ![0, 0] S100000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  gather_S100000x128_S507904x1_S507904x128_1_0_n_n_0_1_1128_wf : GatherDims.WF S100000x128 S507904x1 S507904x128 [1] [0] [] [0] [] 1 ![1, 128]
  dot_S500x128_S128x128_S500x128_1_0_0_1_n_n_wf : DotDims.WF S500x128 S128x128 S500x128 [1] [0] [0] [1] [] []
  scatter_S512x128_S1_S500x128_01_n_0_0_wf : ScatterDims.WF S512x128 S1 S500x128 [0, 1] [] [0] 0
  dot_S4096x128_S128x128_S4096x128_1_0_0_1_n_n_wf : DotDims.WF S4096x128 S128x128 S4096x128 [1] [0] [0] [1] [] []
  dot_S512x4096_S512x128_S4096x128_0_0_1_1_n_n_wf : DotDims.WF S512x4096 S512x128 S4096x128 [0] [0] [1] [1] [] []
  dot_S512x4096_S4096x128_S512x128_1_0_0_1_n_n_wf : DotDims.WF S512x4096 S4096x128 S512x128 [1] [0] [0] [1] [] []
  scatter_S500_S500000x1_S500000_n_0_0_1_wf : ScatterDims.WF S500 S500000x1 S500000 [] [0] [0] 1
  scatter_S100001x128_S507904x1_S507904x128_1_0_0_1_wf : ScatterDims.WF S100001x128 S507904x1 S507904x128 [1] [0] [0] 1
  scatter_S100001x1_S507904x1_S507904x1_1_0_0_1_wf : ScatterDims.WF S100001x1 S507904x1 S507904x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S507904x128.size a
  hwx0_0 : ∀ i : grid0.Coords, EltTy.bits .bf16 = 32 ∨ (Rect.block (s := S507904x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S507904x128.size a
  hwx0_1 : ∀ i : grid0.Coords, EltTy.bits .bf16 = 32 ∨ (Rect.block (s := S507904x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S507904.size a
  hwx0_2 : ∀ i : grid0.Coords, EltTy.bits .i32 = 32 ∨ (Rect.block (s := S507904) S4096.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .bf16 = 32 ∨ (Rect.block (s := S512x128) S512x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S507904x128.size a
  hwx0_9 : ∀ i : grid0.Coords, EltTy.bits .f32 = 32 ∨ (Rect.block (s := S507904x128) S4096x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x1.size a ≤ S507904x1.size a
  hwx0_10 : ∀ i : grid0.Coords, EltTy.bits .f32 = 32 ∨ (Rect.block (s := S507904x1) S4096x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x128.size a ≤ S2x512x128.size a
  hwx0_11 : ∀ i : grid0.Coords, EltTy.bits .f32 = 32 ∨ (Rect.block (s := S2x512x128) S1x512x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)

variable [Facts₀]

def gather_S100000x128_S507904x1_S507904x128_1_0_n_n_0_1_1128 : GatherDims S100000x128 S507904x1 S507904x128 where
  offsetDims := [1]
  collapsedSliceDims := [0]
  operandBatchingDims := []
  startIndicesBatchingDims := []
  startIndexMap := [0]
  indexVectorDim := 1
  sliceSizes := ![1, 128]
  wf := gather_S100000x128_S507904x1_S507904x128_1_0_n_n_0_1_1128_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def scatter_S512x128_S1_S500x128_01_n_0_0 : ScatterDims S512x128 S1 S500x128 where
  updateWindowDims := [0, 1]
  insertedWindowDims := []
  scatterDimsToOperandDims := [0]
  indexVectorDim := 0
  wf := scatter_S512x128_S1_S500x128_01_n_0_0_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S512x128_S4096x128_0_0_1_1_n_n : DotDims S512x4096 S512x128 S4096x128 where
  lhsContracting := [0]
  rhsContracting := [0]
  lhsNonContracting := [1]
  rhsNonContracting := [1]
  lhsBatch := []
  rhsBatch := []
  wf := dot_S512x4096_S512x128_S4096x128_0_0_1_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def scatter_S500_S500000x1_S500000_n_0_0_1 : ScatterDims S500 S500000x1 S500000 where
  updateWindowDims := []
  insertedWindowDims := [0]
  scatterDimsToOperandDims := [0]
  indexVectorDim := 1
  wf := scatter_S500_S500000x1_S500000_n_0_0_1_wf
def scatter_S100001x128_S507904x1_S507904x128_1_0_0_1 : ScatterDims S100001x128 S507904x1 S507904x128 where
  updateWindowDims := [1]
  insertedWindowDims := [0]
  scatterDimsToOperandDims := [0]
  indexVectorDim := 1
  wf := scatter_S100001x128_S507904x1_S507904x128_1_0_0_1_wf
def scatter_S100001x1_S507904x1_S507904x1_1_0_0_1 : ScatterDims S100001x1 S507904x1 S507904x1 where
  updateWindowDims := [1]
  insertedWindowDims := [0]
  scatterDimsToOperandDims := [0]
  indexVectorDim := 1
  wf := scatter_S100001x1_S507904x1_S507904x1_1_0_0_1_wf

abbrev win0_0 : Pipeline.Window sig grid0 :=
  Pipeline.Window.ofSpec (Memref.whole main_v14) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37_0) S4096x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v37_1) S4096x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v37_2) S1x512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v57) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S500x128 : Shape := ⟨2, ![500, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x384 : Shape := ⟨2, ![500000, 384]⟩
abbrev S384x128 : Shape := ⟨2, ![384, 128]⟩
abbrev S128x1 : Shape := ⟨2, ![128, 1]⟩
abbrev S1x1 : Shape := ⟨2, ![1, 1]⟩
abbrev S100000x1 : Shape := ⟨2, ![100000, 1]⟩
abbrev S500 : Shape := ⟨1, ![500]⟩
abbrev S500x1 : Shape := ⟨2, ![500, 1]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500x128, .f32⟩
  | .hbm, ⟨2, _⟩ => ⟨S128x384, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x128, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x128, .f32⟩
  | .hbm, ⟨36, _⟩ => ⟨S500000x384, .f32⟩
  | .hbm, ⟨37, _⟩ => ⟨S384x128, .f32⟩
  | .hbm, ⟨38, _⟩ => ⟨S500000x128, .f32⟩
  | .hbm, ⟨39, _⟩ => ⟨S1x128, .f32⟩
  | .hbm, ⟨40, _⟩ => ⟨S500000x128, .f32⟩
  | .hbm, ⟨41, _⟩ => ⟨S500000x128, .f32⟩
  | .hbm, ⟨42, _⟩ => ⟨S128x1, .f32⟩
  | .hbm, ⟨43, _⟩ => ⟨S500000x1, .f32⟩
  | .hbm, ⟨44, _⟩ => ⟨S1x1, .f32⟩
  | .hbm, ⟨45, _⟩ => ⟨S500000x1, .f32⟩
  | .hbm, ⟨46, _⟩ => ⟨S500000x1, .f32⟩
  | .hbm, ⟨47, _⟩ => ⟨S_, .f32⟩
  | .hbm, ⟨48, _⟩ => ⟨S_, .f32⟩
  | .hbm, ⟨49, _⟩ => ⟨S500000x1, .f32⟩
  | .hbm, ⟨50, _⟩ => ⟨S500000x1, .i1⟩
  | .hbm, ⟨51, _⟩ => ⟨S_, .f32⟩
  | .hbm, ⟨52, _⟩ => ⟨S500000x1, .f32⟩
  | .hbm, ⟨53, _⟩ => ⟨S500000x1, .f32⟩
  | .hbm, ⟨54, _⟩ => ⟨S500000x1, .f32⟩
  | .hbm, ⟨55, _⟩ => ⟨S500000x1, .f32⟩
  | .hbm, ⟨56, _⟩ => ⟨S500000x128, .f32⟩
  | .hbm, ⟨57, _⟩ => ⟨S500000x128, .f32⟩
  | .hbm, ⟨58, _⟩ => ⟨S_, .f32⟩
  | .hbm, ⟨59, _⟩ => ⟨S100000x1, .f32⟩
  | .hbm, ⟨60, _⟩ => ⟨S500000x1, .i32⟩
  | .hbm, ⟨61, _⟩ => ⟨S100000x1, .f32⟩
  | .hbm, ⟨62, _⟩ => ⟨S_, .f32⟩
  | .hbm, ⟨63, _⟩ => ⟨S100000x128, .f32⟩
  | .hbm, ⟨64, _⟩ => ⟨S500000x1, .i32⟩
  | .hbm, ⟨65, _⟩ => ⟨S100000x128, .f32⟩
  | .hbm, ⟨66, _⟩ => ⟨S_, .f32⟩
  | .hbm, ⟨67, _⟩ => ⟨S100000x1, .f32⟩
  | .hbm, ⟨68, _⟩ => ⟨S100000x1, .i1⟩
  | .hbm, ⟨69, _⟩ => ⟨S_, .f32⟩
  | .hbm, ⟨70, _⟩ => ⟨S100000x1, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S500x128, .f32⟩
  | .hbm, ⟨76, _⟩ => ⟨S500000x1, .i32⟩
  | .hbm, ⟨77, _⟩ => ⟨S500x128, .f32⟩
  | .hbm, ⟨78, _⟩ => ⟨S_, .f32⟩
  | .hbm, ⟨79, _⟩ => ⟨S500000, .f32⟩
  | .hbm, ⟨80, _⟩ => ⟨S_, .f32⟩
  | .hbm, ⟨81, _⟩ => ⟨S500, .f32⟩
  | .hbm, ⟨82, _⟩ => ⟨S500000x1, .i32⟩
  | .hbm, ⟨83, _⟩ => ⟨S500, .f32⟩
  | .hbm, ⟨84, _⟩ => ⟨S_, .f32⟩
  | .hbm, ⟨85, _⟩ => ⟨S500, .f32⟩
  | .hbm, ⟨86, _⟩ => ⟨S500, .f32⟩
  | .hbm, ⟨87, _⟩ => ⟨S500x1, .f32⟩
  | .hbm, ⟨88, _⟩ => ⟨S500x128, .f32⟩
  | .hbm, ⟨89, _⟩ => ⟨S500x128, .f32⟩
  | .hbm, ⟨90, _⟩ => ⟨S_, .f32⟩
  | .hbm, ⟨91, _⟩ => ⟨S100000x128, .f32⟩
  | .hbm, ⟨92, _⟩ => ⟨S100000x128, .i1⟩
  | .hbm, ⟨93, _⟩ => ⟨S_, .f32⟩
  | .hbm, ⟨94, _⟩ => ⟨S100000x128, .f32⟩
  | .hbm, ⟨95, _⟩ => ⟨S100000x128, .i1⟩
  | .hbm, ⟨96, _⟩ => ⟨S_, .f32⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S_, .f32⟩
  | .hbm, ⟨106, _⟩ => ⟨S500x128, .f32⟩
  | .hbm, ⟨107, _⟩ => ⟨S500x128, .i1⟩
  | .hbm, ⟨108, _⟩ => ⟨S_, .f32⟩
  | .hbm, ⟨109, _⟩ => ⟨S500x128, .f32⟩
  | .hbm, ⟨110, _⟩ => ⟨S500x128, .i1⟩
  | .hbm, ⟨111, _⟩ => ⟨S_, .f32⟩
  | .hbm, ⟨112, _⟩ => ⟨S_, .f32⟩
  | .hbm, ⟨113, _⟩ => ⟨S500x128, .f32⟩
  | .hbm, ⟨114, _⟩ => ⟨S500x128, .f32⟩
  | .hbm, ⟨115, _⟩ => ⟨S500x128, .f32⟩
  | .hbm, ⟨116, _⟩ => ⟨S_, .f32⟩
  | .hbm, ⟨117, _⟩ => ⟨S500x128, .f32⟩
  | .hbm, ⟨118, _⟩ => ⟨S500x128, .f32⟩
  | .hbm, ⟨119, _⟩ => ⟨S500x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_call1_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_cst_0 : Ref sig .tc := ⟨.hbm, 93, rfl⟩
abbrev main_call2_v2 : Ref sig .tc := ⟨.hbm, 94, rfl⟩
abbrev main_call2_v3 : Ref sig .tc := ⟨.hbm, 95, rfl⟩
abbrev main_call2_cst_1 : Ref sig .tc := ⟨.hbm, 96, rfl⟩
abbrev main_call2_call0_v0 : Ref sig .tc := ⟨.hbm, 97, rfl⟩
abbrev main_call2_call0_v1 : Ref sig .tc := ⟨.hbm, 98, rfl⟩
abbrev main_call2_v4 : Ref sig .tc := ⟨.hbm, 99, rfl⟩
abbrev main_call2_v5 : Ref sig .tc := ⟨.hbm, 100, rfl⟩
abbrev main_call2_cst_2 : Ref sig .tc := ⟨.hbm, 101, rfl⟩
abbrev main_call2_v6 : Ref sig .tc := ⟨.hbm, 102, rfl⟩
abbrev main_call2_v7 : Ref sig .tc := ⟨.hbm, 103, rfl⟩
abbrev main_v59 : Ref sig .tc := ⟨.hbm, 104, rfl⟩
abbrev main_call3_cst : Ref sig .tc := ⟨.hbm, 105, rfl⟩
abbrev main_call3_v0 : Ref sig .tc := ⟨.hbm, 106, rfl⟩
abbrev main_call3_v1 : Ref sig .tc := ⟨.hbm, 107, rfl⟩
abbrev main_call3_cst_0 : Ref sig .tc := ⟨.hbm, 108, rfl⟩
abbrev main_call3_v2 : Ref sig .tc := ⟨.hbm, 109, rfl⟩
abbrev main_call3_v3 : Ref sig .tc := ⟨.hbm, 110, rfl⟩
abbrev main_call3_cst_1 : Ref sig .tc := ⟨.hbm, 111, rfl⟩
abbrev main_call3_call0_v0 : Ref sig .tc := ⟨.hbm, 112, rfl⟩
abbrev main_call3_call0_v1 : Ref sig .tc := ⟨.hbm, 113, rfl⟩
abbrev main_call3_v4 : Ref sig .tc := ⟨.hbm, 114, rfl⟩
abbrev main_call3_v5 : Ref sig .tc := ⟨.hbm, 115, rfl⟩
abbrev main_call3_cst_2 : Ref sig .tc := ⟨.hbm, 116, rfl⟩
abbrev main_call3_v6 : Ref sig .tc := ⟨.hbm, 117, rfl⟩
abbrev main_call3_v7 : Ref sig .tc := ⟨.hbm, 118, rfl⟩
abbrev main_v60 : Ref sig .tc := ⟨.hbm, 119, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  transposes_S128x384_S384x128_1_0 : S128x384.Transposes [1, 0] S384x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S100000x1 : S_.BroadcastsInDim S100000x1 (![] : Fin 0 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S500x128 : S_.BroadcastsInDim S500x128 (![] : Fin 0 → Fin S500x128.rank)
  bcast_S_S500 : S_.BroadcastsInDim S500 (![] : Fin 0 → Fin S500.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  gather_S100000x128_S500000x1_S500000x128_1_0_n_n_0_1_1128_wf : GatherDims.WF S100000x128 S500000x1 S500000x128 [1] [0] [] [0] [] 1 ![1, 128]
  gather_S500x128_S500000x1_S500000x128_1_0_n_n_0_1_1128_wf : GatherDims.WF S500x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x1_S500000x1_1_0_0_1_n_n_wf : DotDims.WF S500000x128 S128x1 S500000x1 [1] [0] [0] [1] [] []
  scatter_S100000x1_S500000x1_S500000x1_1_0_0_1_wf : ScatterDims.WF S100000x1 S500000x1 S500000x1 [1] [0] [0] 1
  scatter_S100000x128_S500000x1_S500000x128_1_0_0_1_wf : ScatterDims.WF S100000x128 S500000x1 S500000x128 [1] [0] [0] 1
  scatter_S500x128_S500000x1_S500000x128_1_0_0_1_wf : ScatterDims.WF S500x128 S500000x1 S500000x128 [1] [0] [0] 1
  scatter_S500_S500000x1_S500000_n_0_0_1_wf : ScatterDims.WF S500 S500000x1 S500000 [] [0] [0] 1

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S500x128_S500000x1_S500000x128_1_0_n_n_0_1_1128 : GatherDims S500x128 S500000x1 S500000x128 where
  offsetDims := [1]
  collapsedSliceDims := [0]
  operandBatchingDims := []
  startIndicesBatchingDims := []
  startIndexMap := [0]
  indexVectorDim := 1
  sliceSizes := ![1, 128]
  wf := gather_S500x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S500x128_S500000x1_S500000x128_1_0_0_1 : ScatterDims S500x128 S500000x1 S500000x128 where
  updateWindowDims := [1]
  insertedWindowDims := [0]
  scatterDimsToOperandDims := [0]
  indexVectorDim := 1
  wf := scatter_S500x128_S500000x1_S500000x128_1_0_0_1_wf
def scatter_S500_S500000x1_S500000_n_0_0_1 : ScatterDims S500 S500000x1 S500000 where
  updateWindowDims := []
  insertedWindowDims := [0]
  scatterDimsToOperandDims := [0]
  indexVectorDim := 1
  wf := scatter_S500_S500000x1_S500000_n_0_0_1_wf

class Facts : Prop extends Facts₀ where

variable [Facts]
-- ==== Proof.Spec.lean ====
/-
  The mathematics both programs compute, stated once over extended reals, index by index.

  An edge `e` has a source row, a destination row and a relation row, read the way `x[i]` reads an axis of extent `n`:
  a negative index counts from the end, and the result is clamped into `[0, n - 1]` (`rowOf`). The edge's
  pre-activation `pre e o` is the affine map of the three concatenated rows; its attention weight `wgt e` is the
  exponential of the leaky-rectified score; its message `msg e o` is the weight times the pre-activation. A node
  aggregates the messages and the weights of the edges whose SOURCE INDEX, read as a signed integer and NOT wrapped or
  clamped, is that node (`inSeg`: an index outside the range lands nowhere); a relation aggregates the messages and the
  count of the edges whose relation index is that relation. The results are the exponential-linear unit of the two
  normalised aggregates.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Arr2 (n m : Nat) : Type := (⟨2, ![n, m]⟩ : Shape).Idx → EReal
/-- A rank-1 array of extended reals. -/
abbrev Arr1 (n : Nat) : Type := (⟨1, ![n]⟩ : Shape).Idx → EReal
/-- A rank-1 array of 32-bit index words. -/
abbrev Ids (n : Nat) : Type := (⟨1, ![n]⟩ : Shape).Idx → BitVec 32

/-- A negative index counts from the end of an axis of extent `n`. -/
def wrapI (n : Nat) (i : BitVec 32) : BitVec 32 := if i.toInt < 0 then i + BitVec.ofNat 32 n else i

/-- The row of an axis of extent `n` that `x[i]` reads: the wrapped index, read signed, clamped into `[0, n - 1]`. -/
def rowOf (n : Nat) (i : BitVec 32) : Nat := min (wrapI n i).toInt.toNat (n - 1)

theorem rowOf_lt {n : Nat} (hn : 0 < n) (i : BitVec 32) : rowOf n i < n := by unfold rowOf; omega

/-- An index already inside `[0, n)` reads its own row. -/
theorem rowOf_of_mem {n : Nat} (i : BitVec 32) (h0 : 0 ≤ i.toInt) (h1 : i.toInt < (n : ℤ)) : rowOf n i = i.toInt.toNat := by
  unfold rowOf wrapI
  rw [if_neg (by omega)]
  omega

/-- The leaky rectifier with the slope the two programs share (the f32 word nearest 1/100). -/
def leaky (x : EReal) : EReal :=
  Scalar.select (Ideal.cmp .oge x (Ideal.ofBits .f32 0x00000000#32)) x (Ideal.ofBits .f32 0x3C23D70A#32 * x)

/-- The exponential-linear unit: `x` where `x > 0`, `exp x - 1` elsewhere. -/
def elu (x : EReal) : EReal :=
  Scalar.select (Ideal.cmp .ogt x (Ideal.ofBits .f32 0x00000000#32)) x (Ideal.exp x - 1)

/-- A normaliser that is exactly zero is replaced by the f32 word nearest 1e-12. -/
def guardZero (s : EReal) : EReal :=
  Scalar.select (Ideal.cmp .oeq s (Ideal.ofBits .f32 0x00000000#32)) (Ideal.ofBits .f32 0x2B8CBCCC#32) s

section
variable (ent : Arr2 100000 128) (relE : Arr2 500 128) (aw : Arr2 128 384) (ab : Arr1 128) (a2w : Arr2 1 128) (a2b : Arr1 1)
  (src dst rel : Ids 500000)

/-- Entry `k` of the entity row that index `i` reads. -/
def entRow (i : BitVec 32) (k : Fin 128) : EReal := ent (ix2 ⟨rowOf 100000 i, rowOf_lt (by decide) i⟩ k)
/-- Entry `k` of the relation row that index `i` reads. -/
def relRow (i : BitVec 32) (k : Fin 128) : EReal := relE (ix2 ⟨rowOf 500 i, rowOf_lt (by decide) i⟩ k)

/-- Edge `e`'s pre-activation at output feature `o`: the three rows against the three column blocks of the weight,
    plus the bias. -/
def pre (e : Fin 500000) (o : Fin 128) : EReal :=
  (∑ k : Fin 128, entRow ent (src (ix1 e)) k * aw (ix2 o ⟨k.val, by have := k.isLt; omega⟩))
  + (∑ k : Fin 128, entRow ent (dst (ix1 e)) k * aw (ix2 o ⟨128 + k.val, by have := k.isLt; omega⟩))
  + (∑ k : Fin 128, relRow relE (rel (ix1 e)) k * aw (ix2 o ⟨256 + k.val, by have := k.isLt; omega⟩))
  + ab (ix1 o)

/-- Edge `e`'s attention score before the rectifier. -/
def score (e : Fin 500000) : EReal :=
  (∑ o : Fin 128, pre ent relE aw ab src dst rel e o * a2w (ix2 0 o)) + a2b (ix1 0)

/-- Edge `e`'s attention weight. -/
def wgt (e : Fin 500000) : EReal := Ideal.exp (leaky (score ent relE aw ab a2w a2b src dst rel e))

/-- Edge `e`'s message at feature `o`. -/
def msg (e : Fin 500000) (o : Fin 128) : EReal :=
  wgt ent relE aw ab a2w a2b src dst rel e * pre ent relE aw ab src dst rel e o

/-- The edges whose key, read as a signed integer, is `n`. -/
def inSeg (key : Ids 500000) (n : Nat) : Finset (Fin 500000) := Finset.univ.filter fun e => (key (ix1 e)).toInt = (n : ℤ)

/-- The messages aggregated at node `n`. -/
def nodeSum (n : Fin 100000) (o : Fin 128) : EReal := ∑ e ∈ inSeg src n.val, msg ent relE aw ab a2w a2b src dst rel e o
/-- The weights aggregated at node `n`. -/
def nodeWgt (n : Fin 100000) : EReal := ∑ e ∈ inSeg src n.val, wgt ent relE aw ab a2w a2b src dst rel e
/-- The messages aggregated at relation `r`. -/
def relSum (r : Fin 500) (o : Fin 128) : EReal := ∑ e ∈ inSeg rel r.val, msg ent relE aw ab a2w a2b src dst rel e o
/-- The number of edges of relation `r`. -/
def relCnt (r : Fin 500) : EReal := ∑ _e ∈ inSeg rel r.val, (1 : EReal)

/-- The first result: the node's normalised aggregate through the exponential-linear unit. -/
def hEnt (n : Fin 100000) (o : Fin 128) : EReal :=
  elu (Ideal.div (nodeSum ent relE aw ab a2w a2b src dst rel n o) (guardZero (nodeWgt ent relE aw ab a2w a2b src dst rel n)))

/-- The second result: the relation's mean message through the exponential-linear unit. -/
def hRel (r : Fin 500) (o : Fin 128) : EReal :=
  elu (Ideal.div (relSum ent relE aw ab a2w a2b src dst rel r o) (max (relCnt rel r) 1))

end

end Cert.Spec

end
-- ==== Proof.KSpec.lean ====
/-
  The kernel's own arrangement of the computation, stated over the arrays its first region is handed, index by index.

  The first region works on edges padded to `507904 = 2 * 62 * 4096` rows: two halves of 62 tiles of 4096 edges. It is
  handed the gathered source rows `hs` and destination rows `hd`, the relation index of every padded edge `rid`, the
  two 128 x 128 blocks `w1`, `w2` of the weight already transposed, the relation table already projected and padded to
  512 rows `rp`, and the bias, the score row and the score offset as one-row arrays. A relation index selects its row of
  `rp` through a one-hot column of 512 entries (`hot`): an index outside `[0, 512)` selects nothing. The definitions
  are over any number `E` of rows, so that they read one tile of 4096 rows and the whole padded array alike. A tile adds,
  relation by relation, the messages of its own edges (`tileRel`); a half accumulates its 62 tiles (`halfRel`).
-/
import proofs.«408672_j49082886259209_3_alg».proof.Proof.Spec

noncomputable section

open scoped BigOperators

namespace Cert.KSpec

open Idealize.ShloMosaic Idealize.ShloMosaic.ValueIdx Cert.Spec

/-- Entry `r` of the one-hot column of the index word `i`: one where the word is `r`, zero elsewhere. -/
def hot (r : Fin 512) (i : BitVec 32) : EReal := if BitVec.ofNat 32 r.val = i then 1 else 0

/-- The padded edge at row `j` of tile `i` of half `h`. -/
def edgeAt (h : Fin 2) (i : Fin 62) (j : Fin 4096) : Fin 507904 :=
  ⟨(h.val * 62 + i.val) * 4096 + j.val, by have := h.isLt; have := i.isLt; have := j.isLt; omega⟩

/-- An index array of 500000 edges padded to 507904 entries with the word `fill`. -/
def padIdx (ids : Ids 500000) (fill : BitVec 32) (e : Fin 507904) : BitVec 32 :=
  if h : e.val < 500000 then ids (ix1 ⟨e.val, h⟩) else fill

/-- A real edge as a padded edge. -/
def lift (e : Fin 500000) : Fin 507904 := ⟨e.val, by have := e.isLt; omega⟩

section
variable {E : Nat} (hs hd : Arr2 E 128) (rid : Ids E) (w1 w2 : Arr2 128 128) (rp : Arr2 512 128)
  (abr a2wr : Arr2 1 128) (a2br : Arr2 1 1)

/-- Row `e`'s pre-activation: source and destination rows against their blocks, the bias, then the relation row
    selected from the projected table. -/
def pre (e : Fin E) (o : Fin 128) : EReal :=
  ((∑ k : Fin 128, hs (ix2 e k) * w1 (ix2 k o)) + (∑ k : Fin 128, hd (ix2 e k) * w2 (ix2 k o)) + abr (ix2 0 o))
  + ∑ r : Fin 512, hot r (rid (ix1 e)) * rp (ix2 r o)

/-- Row `e`'s score before the rectifier. -/
def score (e : Fin E) : EReal :=
  (∑ o : Fin 128, pre hs hd rid w1 w2 rp abr e o * a2wr (ix2 0 o)) + a2br (ix2 0 0)

/-- Row `e`'s attention weight. -/
def wgt (e : Fin E) : EReal := Ideal.exp (leaky (score hs hd rid w1 w2 rp abr a2wr a2br e))

/-- Row `e`'s message. -/
def msg (e : Fin E) (o : Fin 128) : EReal :=
  wgt hs hd rid w1 w2 rp abr a2wr a2br e * pre hs hd rid w1 w2 rp abr e o

end

/-- What one tile adds to one-hot row `r`: the messages of the tile's rows whose relation index is `r`. -/
def tileRel (rid : Ids 4096) (bm : Fin 4096 → Fin 128 → EReal) (r : Fin 512) (o : Fin 128) : EReal :=
  ∑ j : Fin 4096, hot r (rid (ix1 j)) * bm j o

section
variable (hs hd : Arr2 507904 128) (rid : Ids 507904) (w1 w2 : Arr2 128 128) (rp : Arr2 512 128)
  (abr a2wr : Arr2 1 128) (a2br : Arr2 1 1)

/-- What half `h` accumulates for one-hot row `r`: over its 62 tiles, the messages of the tile's edges whose relation
    index is `r`. -/
def halfRel (h : Fin 2) (r : Fin 512) (o : Fin 128) : EReal :=
  ∑ i : Fin 62, ∑ j : Fin 4096, hot r (rid (ix1 (edgeAt h i j))) * msg hs hd rid w1 w2 rp abr a2wr a2br (edgeAt h i j) o

end

end Cert.KSpec

end
-- ==== Proof.KBody0.lean ====
/-
  What one grid point of the first region leaves in its three output blocks, read at an index.

  At a point the body is handed one tile: 4096 source rows `x0`, 4096 destination rows `x1`, the tile's 4096 relation
  indices `x2`, the two weight blocks `x3`, `x4`, the projected relation table `x5`, the bias row `x6`, the score row
  `x7` and the score offset `x8`. Whether or not the point is the first of its half, the message block holds every
  row's message and the weight block every row's attention weight (`KSpec.msg`, `KSpec.wgt` at 4096 rows). The
  accumulator block holds, relation by relation, the tile's contribution (`KSpec.tileRel`) added to zero at the first
  point of a half and to what the point before left (`xo11`) at every other point.
-/
import proofs.«408672_j49082886259209_3_alg».proof.Proof.Gen.KernelIdeal.Frame
import proofs.«408672_j49082886259209_3_alg».proof.Proof.KSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Body0

open Idealize.ShloMosaic Idealize.ShloMosaic.TcCoe Idealize.ShloMosaic.ValueIdx Idealize.SL.Sem
open Cert.KernelIdeal Cert.KernelIdeal.Gen

section Pieces
variable {F : FTy → Type} [FloatOps F]
variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096 .i32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S512x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S4096x128 .f32) (harg11 : arg11.IsWhole) (arg12 : Memref sig .tc .vmem S4096x1 .f32) (harg12 : arg12.IsWhole) (arg13 : Memref sig .tc .vmem S1x512x128 .f32) (harg13 : arg13.IsWhole)
  (x0 : Vec F S4096x128 .bf16) (x1 : Vec F S4096x128 .bf16) (x2 : Vec F S4096 .i32) (x3 : Vec F S128x128 .bf16) (x4 : Vec F S128x128 .bf16) (x5 : Vec F S512x128 .bf16) (x6 : Vec F S1x128 .f32) (x7 : Vec F S1x128 .f32) (x8 : Vec F S1x1 .f32)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- First point of a half: the message block is the one store's payload. -/
theorem pieceA_9 (hc0 : cond0_0 i) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay2 (k0_pay6 x0 x1 x3 x4 x6 x2 x5) (k0_pay7 x0 x1 x3 x4 x6 x2 x5 x7) x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S4096x128) hz2, View.ld_unit_zero (S := S128x128) hz2, View.ld_unit_zero (S := S512x128) hz2, View.ld_unit_zero (S := S1x128) hz2, View.ld_unit_zero (S := S1x1) hz2, View.ld_unit_zero (S := S4096) hz1]

/-- First point of a half: the weight block is the one store's payload. -/
theorem pieceA_10 (hc0 : cond0_0 i) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay1 (k0_pay7 x0 x1 x3 x4 x6 x2 x5 x7) x8 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S4096x128) hz2, View.ld_unit_zero (S := S128x128) hz2, View.ld_unit_zero (S := S512x128) hz2, View.ld_unit_zero (S := S1x128) hz2, View.ld_unit_zero (S := S1x1) hz2, View.ld_unit_zero (S := S4096) hz1]

/-- First point of a half: the accumulator block is the update over the zero block just stored. -/
theorem pieceA_11 (hc0 : cond0_0 i) :
    out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay3 (k0_pay5 x2) (k0_pay6 x0 x1 x3 x4 x6 x2 x5) (k0_pay7 x0 x1 x3 x4 x6 x2 x5 x7) x8 (k0_pay4 (F := F)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_cons_unit_zero (S := S1x512x128) hz3]
  simp only [View.readAt_eq_ld, harg2.read_unread, harg3.read_unread, harg4.read_unread, harg5.read_unread, harg6.read_unread, harg7.read_unread, harg8.read_unread, harg9.read_unread, harg10.read_unread, View.ld_unit_zero (S := S4096x128) hz2, View.ld_unit_zero (S := S128x128) hz2, View.ld_unit_zero (S := S512x128) hz2, View.ld_unit_zero (S := S1x128) hz2, View.ld_unit_zero (S := S1x1) hz2, View.ld_unit_zero (S := S4096) hz1, harg13.read_unread, View.ld_unit_zero (S := S1x512x128) hz3, View.readCov_unit_zero (S := S1x512x128) _ hz3]

/-- Any other point: the message block is the one store's payload. -/
theorem pieceB_9 (hc0 : ¬cond0_0 i) (xo11 : Vec F S1x512x128 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 = k0_pay2 (k0_pay6 x0 x1 x3 x4 x6 x2 x5) (k0_pay7 x0 x1 x3 x4 x6 x2 x5 x7) x8 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S4096x128) hz2, View.ld_unit_zero (S := S128x128) hz2, View.ld_unit_zero (S := S512x128) hz2, View.ld_unit_zero (S := S1x128) hz2, View.ld_unit_zero (S := S1x1) hz2, View.ld_unit_zero (S := S4096) hz1]

/-- Any other point: the weight block is the one store's payload. -/
theorem pieceB_10 (hc0 : ¬cond0_0 i) (xo11 : Vec F S1x512x128 .f32) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 = k0_pay1 (k0_pay7 x0 x1 x3 x4 x6 x2 x5 x7) x8 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S4096x128) hz2, View.ld_unit_zero (S := S128x128) hz2, View.ld_unit_zero (S := S512x128) hz2, View.ld_unit_zero (S := S1x128) hz2, View.ld_unit_zero (S := S1x1) hz2, View.ld_unit_zero (S := S4096) hz1]

/-- Any other point: the accumulator block is the update over what the point before left. -/
theorem pieceB_11 (hc0 : ¬cond0_0 i) (xo11 : Vec F S1x512x128 .f32) :
    out0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 = k0_pay3 (k0_pay5 x2) (k0_pay6 x0 x1 x3 x4 x6 x2 x5) (k0_pay7 x0 x1 x3 x4 x6 x2 x5 x7) x8 xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4096x128) hz2, View.ld_unit_zero (S := S128x128) hz2, View.ld_unit_zero (S := S512x128) hz2, View.ld_unit_zero (S := S1x128) hz2, View.ld_unit_zero (S := S1x1) hz2, View.ld_unit_zero (S := S4096) hz1, harg13.read_unread, View.ld_unit_zero (S := S1x512x128) hz3, View.readCov_unit_zero (S := S1x512x128) _ hz3]
end Pieces

section Payloads

/-- The one-bit word of an equality test, widened and converted, is one where the words agree and zero elsewhere. -/
theorem hot_word (a b : BitVec 32) :
    ((((IntOp.cmpi .eq a b).setWidth 32).toInt : ℝ) : EReal) = if a = b then 1 else 0 := by
  by_cases h : a = b
  · subst h
    rw [if_pos rfl]
    have h1 : IntOp.cmpi .eq a a = 1#1 := by simp [IntOp.cmpi]
    have h2 : ((1#1 : BitVec 1).setWidth 32).toInt = 1 := by decide
    rw [h1, h2]; simp
  · rw [if_neg h]
    have h1 : IntOp.cmpi .eq a b = 0#1 := by
      show BitVec.ofBool (a == b) = 0#1
      rw [beq_eq_false_iff_ne.mpr h]; rfl
    have h2 : ((0#1 : BitVec 1).setWidth 32).toInt = 0 := by decide
    rw [h1, h2]; simp

/-- Entry (r, j) of the one-hot block: one where row j's relation index is r. -/
theorem pay5_apply (x2 : Vec Ideal S4096 .i32) (r : Fin 512) (j : Fin 4096) :
    k0_pay5 (F := Ideal) x2 (ix2 r j) = KSpec.hot r (x2 (ix1 j)) := by
  unfold k0_pay5
  simp only [truncf_apply, sitofp_apply, extui_apply]
  refine (hot_word _ _).trans ?_
  rw [iota_single_apply, broadcastTo_1b_ab_apply, shapeCast_a_1a_apply, shapeCast_self]
  rfl

/-! ### Column layouts -/

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ### The three contractions at an index -/

theorem lhs1_0 (j : S4096x128.Idx) (k : dot_S4096x128_S128x128_S4096x128_1_0_0_1_n_n.contr.Idx) :
    (dot_S4096x128_S128x128_S4096x128_1_0_0_1_n_n.lhsIdx j k 0 : ℕ) = j 0 := by
  simp [DotDims.lhsIdx, dot_S4096x128_S128x128_S4096x128_1_0_0_1_n_n]; rfl
theorem lhs1_1 (j : S4096x128.Idx) (k : dot_S4096x128_S128x128_S4096x128_1_0_0_1_n_n.contr.Idx) :
    (dot_S4096x128_S128x128_S4096x128_1_0_0_1_n_n.lhsIdx j k 1 : ℕ) = k ⟨0, by decide⟩ := by
  simp [DotDims.lhsIdx, dot_S4096x128_S128x128_S4096x128_1_0_0_1_n_n]; rfl
theorem rhs1_0 (j : S4096x128.Idx) (k : dot_S4096x128_S128x128_S4096x128_1_0_0_1_n_n.contr.Idx) :
    (dot_S4096x128_S128x128_S4096x128_1_0_0_1_n_n.rhsIdx j k 0 : ℕ) = k ⟨0, by decide⟩ := by
  simp [DotDims.rhsIdx, dot_S4096x128_S128x128_S4096x128_1_0_0_1_n_n]; rfl
theorem rhs1_1 (j : S4096x128.Idx) (k : dot_S4096x128_S128x128_S4096x128_1_0_0_1_n_n.contr.Idx) :
    (dot_S4096x128_S128x128_S4096x128_1_0_0_1_n_n.rhsIdx j k 1 : ℕ) = j 1 := by
  simp [DotDims.rhsIdx, dot_S4096x128_S128x128_S4096x128_1_0_0_1_n_n]; rfl

/-- Rows against a square block: entry (j, o) sums over the shared axis. -/
theorem mm1_apply (a : FVec Ideal S4096x128 .bf16) (b : FVec Ideal S128x128 .bf16) (j : Fin 4096) (o : Fin 128) :
    matmul dot_S4096x128_S128x128_S4096x128_1_0_0_1_n_n none a b (constant (F := Ideal) S4096x128 .f32 0x00000000#32) (ix2 j o)
      = ∑ k : Fin 128, a (ix2 j k) * b (ix2 k o) := by
  refine (Ideal.matmul_constant_zero_apply dot_S4096x128_S128x128_S4096x128_1_0_0_1_n_n none a b (ix2 j o)).trans ?_
  rw [← Equiv.sum_comp (contrEquiv1 dot_S4096x128_S128x128_S4096x128_1_0_0_1_n_n 128 rfl rfl).symm]
  refine Finset.sum_congr rfl fun k _ => ?_
  refine congrArg₂ (· * ·) (congrArg a ?_) (congrArg b ?_)
  · exact Shape.idx_ext₂ (lhs1_0 _ _) ((lhs1_1 _ _).trans (contrEquiv1_symm_val _ 128 rfl rfl k))
  · exact Shape.idx_ext₂ ((rhs1_0 _ _).trans (contrEquiv1_symm_val _ 128 rfl rfl k)) (rhs1_1 _ _)

theorem lhs2_0 (j : S4096x128.Idx) (k : dot_S512x4096_S512x128_S4096x128_0_0_1_1_n_n.contr.Idx) :
    (dot_S512x4096_S512x128_S4096x128_0_0_1_1_n_n.lhsIdx j k 0 : ℕ) = k ⟨0, by decide⟩ := by
  simp [DotDims.lhsIdx, dot_S512x4096_S512x128_S4096x128_0_0_1_1_n_n]; rfl
theorem lhs2_1 (j : S4096x128.Idx) (k : dot_S512x4096_S512x128_S4096x128_0_0_1_1_n_n.contr.Idx) :
    (dot_S512x4096_S512x128_S4096x128_0_0_1_1_n_n.lhsIdx j k 1 : ℕ) = j 0 := by
  simp [DotDims.lhsIdx, dot_S512x4096_S512x128_S4096x128_0_0_1_1_n_n]; rfl
theorem rhs2_0 (j : S4096x128.Idx) (k : dot_S512x4096_S512x128_S4096x128_0_0_1_1_n_n.contr.Idx) :
    (dot_S512x4096_S512x128_S4096x128_0_0_1_1_n_n.rhsIdx j k 0 : ℕ) = k ⟨0, by decide⟩ := by
  simp [DotDims.rhsIdx, dot_S512x4096_S512x128_S4096x128_0_0_1_1_n_n]; rfl
theorem rhs2_1 (j : S4096x128.Idx) (k : dot_S512x4096_S512x128_S4096x128_0_0_1_1_n_n.contr.Idx) :
    (dot_S512x4096_S512x128_S4096x128_0_0_1_1_n_n.rhsIdx j k 1 : ℕ) = j 1 := by
  simp [DotDims.rhsIdx, dot_S512x4096_S512x128_S4096x128_0_0_1_1_n_n]; rfl

/-- The one-hot block's columns against the table: entry (j, o) sums over the table's rows. -/
theorem mm2_apply (a : FVec Ideal S512x4096 .bf16) (b : FVec Ideal S512x128 .bf16) (j : Fin 4096) (o : Fin 128) :
    matmul dot_S512x4096_S512x128_S4096x128_0_0_1_1_n_n none a b (constant (F := Ideal) S4096x128 .f32 0x00000000#32) (ix2 j o)
      = ∑ r : Fin 512, a (ix2 r j) * b (ix2 r o) := by
  refine (Ideal.matmul_constant_zero_apply dot_S512x4096_S512x128_S4096x128_0_0_1_1_n_n none a b (ix2 j o)).trans ?_
  rw [← Equiv.sum_comp (contrEquiv1 dot_S512x4096_S512x128_S4096x128_0_0_1_1_n_n 512 rfl rfl).symm]
  refine Finset.sum_congr rfl fun k _ => ?_
  refine congrArg₂ (· * ·) (congrArg a ?_) (congrArg b ?_)
  · exact Shape.idx_ext₂ ((lhs2_0 _ _).trans (contrEquiv1_symm_val _ 512 rfl rfl k)) (lhs2_1 _ _)
  · exact Shape.idx_ext₂ ((rhs2_0 _ _).trans (contrEquiv1_symm_val _ 512 rfl rfl k)) (rhs2_1 _ _)

theorem lhs3_0 (j : S512x128.Idx) (k : dot_S512x4096_S4096x128_S512x128_1_0_0_1_n_n.contr.Idx) :
    (dot_S512x4096_S4096x128_S512x128_1_0_0_1_n_n.lhsIdx j k 0 : ℕ) = j 0 := by
  simp [DotDims.lhsIdx, dot_S512x4096_S4096x128_S512x128_1_0_0_1_n_n]; rfl
theorem lhs3_1 (j : S512x128.Idx) (k : dot_S512x4096_S4096x128_S512x128_1_0_0_1_n_n.contr.Idx) :
    (dot_S512x4096_S4096x128_S512x128_1_0_0_1_n_n.lhsIdx j k 1 : ℕ) = k ⟨0, by decide⟩ := by
  simp [DotDims.lhsIdx, dot_S512x4096_S4096x128_S512x128_1_0_0_1_n_n]; rfl
theorem rhs3_0 (j : S512x128.Idx) (k : dot_S512x4096_S4096x128_S512x128_1_0_0_1_n_n.contr.Idx) :
    (dot_S512x4096_S4096x128_S512x128_1_0_0_1_n_n.rhsIdx j k 0 : ℕ) = k ⟨0, by decide⟩ := by
  simp [DotDims.rhsIdx, dot_S512x4096_S4096x128_S512x128_1_0_0_1_n_n]; rfl
theorem rhs3_1 (j : S512x128.Idx) (k : dot_S512x4096_S4096x128_S512x128_1_0_0_1_n_n.contr.Idx) :
    (dot_S512x4096_S4096x128_S512x128_1_0_0_1_n_n.rhsIdx j k 1 : ℕ) = j 1 := by
  simp [DotDims.rhsIdx, dot_S512x4096_S4096x128_S512x128_1_0_0_1_n_n]; rfl

/-- The one-hot block's rows against the messages: entry (r, o) sums over the tile's rows. -/
theorem mm3_apply (a : FVec Ideal S512x4096 .bf16) (b : FVec Ideal S4096x128 .bf16) (r : Fin 512) (o : Fin 128) :
    matmul dot_S512x4096_S4096x128_S512x128_1_0_0_1_n_n none a b (constant (F := Ideal) S512x128 .f32 0x00000000#32) (ix2 r o)
      = ∑ j : Fin 4096, a (ix2 r j) * b (ix2 j o) := by
  refine (Ideal.matmul_constant_zero_apply dot_S512x4096_S4096x128_S512x128_1_0_0_1_n_n none a b (ix2 r o)).trans ?_
  rw [← Equiv.sum_comp (contrEquiv1 dot_S512x4096_S4096x128_S512x128_1_0_0_1_n_n 4096 rfl rfl).symm]
  refine Finset.sum_congr rfl fun k _ => ?_
  refine congrArg₂ (· * ·) (congrArg a ?_) (congrArg b ?_)
  · exact Shape.idx_ext₂ (lhs3_0 _ _) ((lhs3_1 _ _).trans (contrEquiv1_symm_val _ 4096 rfl rfl k))
  · exact Shape.idx_ext₂ ((rhs3_0 _ _).trans (contrEquiv1_symm_val _ 4096 rfl rfl k)) (rhs3_1 _ _)

/-! ### The payloads at an index -/

/-- The pre-activation block at (j, o). -/
theorem pay6_apply (x0 x1 : Vec Ideal S4096x128 .bf16) (x3 x4 : Vec Ideal S128x128 .bf16) (x6 : Vec Ideal S1x128 .f32)
    (x2 : Vec Ideal S4096 .i32) (x5 : Vec Ideal S512x128 .bf16) (j : Fin 4096) (o : Fin 128) :
    k0_pay6 (F := Ideal) x0 x1 x3 x4 x6 x2 x5 (ix2 j o) = KSpec.pre (E := 4096) x0 x1 x2 x3 x4 x5 x6 j o := by
  unfold k0_pay6
  simp only [addf_apply, shapeCast_self]
  rw [mm1_apply, mm1_apply, mm2_apply, broadcastTo_1b_ab_apply]
  simp only [pay5_apply]
  rfl

/-- The lane sum of a rank-2 block over its second axis at row p. -/
theorem laneSum_apply (v : FVec Ideal S4096x128 .f32) (p : Fin 4096) :
    multiReduction (F := Ideal) .add [1] S4096 v 0x00000000#32 reduces_S4096x128_S4096 (.inl rfl) rfl (ix1 p)
      = ∑ k : Fin 128, v (ix2 p k) := by
  refine (Ideal.multiReduction_add_single v _ reduces_S4096x128_S4096 (.inl rfl) rfl (ix1 p)).trans ?_
  refine Finset.sum_congr rfl fun k _ => congrArg v ?_
  exact Shape.idx_ext₂ rfl rfl

/-- The score column before the offset at row j: the lane sum of the pre-activations against the score row. -/
theorem pay7_apply (x0 x1 : Vec Ideal S4096x128 .bf16) (x3 x4 : Vec Ideal S128x128 .bf16) (x6 : Vec Ideal S1x128 .f32)
    (x2 : Vec Ideal S4096 .i32) (x5 : Vec Ideal S512x128 .bf16) (x7 : Vec Ideal S1x128 .f32) (j : Fin 4096) :
    k0_pay7 (F := Ideal) x0 x1 x3 x4 x6 x2 x5 x7 (ix2 j 0)
      = ∑ o : Fin 128, k0_pay6 (F := Ideal) x0 x1 x3 x4 x6 x2 x5 (ix2 j o) * x7 (ix2 0 o) := by
  unfold k0_pay7
  refine (shapeCast_a_a1_apply _ _ j 0).trans ?_
  refine (laneSum_apply _ j).trans ?_
  refine Finset.sum_congr rfl fun k _ => ?_
  rw [mulf_apply, broadcastTo_1b_ab_apply]

/-- The weight column at row j, from the score column and the offset. -/
theorem pay1_apply (v35 : FVec Ideal S4096x1 .f32) (x8 : Vec Ideal S1x1 .f32) (j : Fin 4096) :
    k0_pay1 (F := Ideal) v35 x8 (ix2 j 0) = Ideal.exp (Spec.leaky (v35 (ix2 j 0) + x8 (ix2 0 0))) := by
  unfold k0_pay1
  have hb : broadcastTo S4096x1 (shapeCast S1x1 x8 shapeCasts_S1x1_S1x1) broadcasts_S1x1_S4096x1 (ix2 j 0) = x8 (ix2 0 0) := by
    rw [broadcastTo_1b_ab_apply, shapeCast_self]
  show Ideal.exp (Spec.leaky (v35 (ix2 j 0) + broadcastTo S4096x1 (shapeCast S1x1 x8 shapeCasts_S1x1_S1x1) broadcasts_S1x1_S4096x1 (ix2 j 0))) = _
  rw [hb]

/-- The message block at (j, o): the weight of row j times the block it scales. -/
theorem pay2_apply (v30 : FVec Ideal S4096x128 .f32) (v35 : FVec Ideal S4096x1 .f32) (x8 : Vec Ideal S1x1 .f32) (j : Fin 4096) (o : Fin 128) :
    k0_pay2 (F := Ideal) v30 v35 x8 (ix2 j o) = k0_pay1 (F := Ideal) v35 x8 (ix2 j 0) * v30 (ix2 j o) := by
  unfold k0_pay2
  rw [mulf_apply, broadcastTo_a1_ab_apply]

/-- The zero block at any index. -/
theorem pay4_apply (r : Fin 512) (o : Fin 128) : k0_pay4 (F := Ideal) (ix3 0 r o) = 0 := by
  unfold k0_pay4
  rw [shapeCast_ab_1ab_apply, broadcast_apply]
  exact Ideal.ofBits_zero_f32

/-- The accumulator update at (0, r, o): what was there plus the one-hot row against the messages. -/
theorem pay3_apply (v26 : FVec Ideal S512x4096 .bf16) (v30 : FVec Ideal S4096x128 .f32) (v35 : FVec Ideal S4096x1 .f32)
    (x8 : Vec Ideal S1x1 .f32) (v51 : Vec Ideal S1x512x128 .f32) (r : Fin 512) (o : Fin 128) :
    k0_pay3 (F := Ideal) v26 v30 v35 x8 v51 (ix3 0 r o)
      = v51 (ix3 0 r o) + ∑ j : Fin 4096, v26 (ix2 r j) * k0_pay2 (F := Ideal) v30 v35 x8 (ix2 j o) := by
  unfold k0_pay3
  rw [shapeCast_ab_1ab_apply, addf_apply, shapeCast_1ab_ab_apply, mm3_apply]
  rfl

/-- The message block is the row's message. -/
theorem msg_payload (x0 x1 : Vec Ideal S4096x128 .bf16) (x2 : Vec Ideal S4096 .i32) (x3 x4 : Vec Ideal S128x128 .bf16)
    (x5 : Vec Ideal S512x128 .bf16) (x6 x7 : Vec Ideal S1x128 .f32) (x8 : Vec Ideal S1x1 .f32) (j : Fin 4096) (o : Fin 128) :
    k0_pay2 (F := Ideal) (k0_pay6 x0 x1 x3 x4 x6 x2 x5) (k0_pay7 x0 x1 x3 x4 x6 x2 x5 x7) x8 (ix2 j o)
      = KSpec.msg (E := 4096) x0 x1 x2 x3 x4 x5 x6 x7 x8 j o := by
  rw [pay2_apply, pay1_apply, pay7_apply]
  simp only [pay6_apply]
  rfl

/-- The weight column is the row's attention weight. -/
theorem wgt_payload (x0 x1 : Vec Ideal S4096x128 .bf16) (x2 : Vec Ideal S4096 .i32) (x3 x4 : Vec Ideal S128x128 .bf16)
    (x5 : Vec Ideal S512x128 .bf16) (x6 x7 : Vec Ideal S1x128 .f32) (x8 : Vec Ideal S1x1 .f32) (j : Fin 4096) :
    k0_pay1 (F := Ideal) (k0_pay7 x0 x1 x3 x4 x6 x2 x5 x7) x8 (ix2 j 0)
      = KSpec.wgt (E := 4096) x0 x1 x2 x3 x4 x5 x6 x7 x8 j := by
  rw [pay1_apply, pay7_apply]
  simp only [pay6_apply]
  rfl

/-- The accumulator update is what was there plus the tile's contribution. -/
theorem acc_payload (x0 x1 : Vec Ideal S4096x128 .bf16) (x2 : Vec Ideal S4096 .i32) (x3 x4 : Vec Ideal S128x128 .bf16)
    (x5 : Vec Ideal S512x128 .bf16) (x6 x7 : Vec Ideal S1x128 .f32) (x8 : Vec Ideal S1x1 .f32) (v51 : Vec Ideal S1x512x128 .f32)
    (r : Fin 512) (o : Fin 128) :
    k0_pay3 (F := Ideal) (k0_pay5 x2) (k0_pay6 x0 x1 x3 x4 x6 x2 x5) (k0_pay7 x0 x1 x3 x4 x6 x2 x5 x7) x8 v51 (ix3 0 r o)
      = v51 (ix3 0 r o) + KSpec.tileRel x2 (KSpec.msg (E := 4096) x0 x1 x2 x3 x4 x5 x6 x7 x8) r o := by
  rw [pay3_apply]
  simp only [pay5_apply, msg_payload]
  rfl

end Payloads

variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096 .i32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S512x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S4096x128 .f32) (harg11 : arg11.IsWhole) (arg12 : Memref sig .tc .vmem S4096x1 .f32) (harg12 : arg12.IsWhole) (arg13 : Memref sig .tc .vmem S1x512x128 .f32) (harg13 : arg13.IsWhole)
  (x0 : Vec Ideal S4096x128 .bf16) (x1 : Vec Ideal S4096x128 .bf16) (x2 : Vec Ideal S4096 .i32) (x3 : Vec Ideal S128x128 .bf16) (x4 : Vec Ideal S128x128 .bf16) (x5 : Vec Ideal S512x128 .bf16) (x6 : Vec Ideal S1x128 .f32) (x7 : Vec Ideal S1x128 .f32) (x8 : Vec Ideal S1x1 .f32)

/-- First point of a half: row `j` of the message block is the row's message. -/
theorem outA_9_apply (hc0 : cond0_0 i) (j : Fin 4096) (o : Fin 128) :
    out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 j o) = KSpec.msg (E := 4096) x0 x1 x2 x3 x4 x5 x6 x7 x8 j o := by
  refine (congrFun (pieceA_9 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc0) (ix2 j o)).trans ?_
  exact msg_payload x0 x1 x2 x3 x4 x5 x6 x7 x8 j o

/-- First point of a half: row `j` of the weight block is the row's attention weight. -/
theorem outA_10_apply (hc0 : cond0_0 i) (j : Fin 4096) :
    out0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 j 0) = KSpec.wgt (E := 4096) x0 x1 x2 x3 x4 x5 x6 x7 x8 j := by
  refine (congrFun (pieceA_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc0) (ix2 j 0)).trans ?_
  exact wgt_payload x0 x1 x2 x3 x4 x5 x6 x7 x8 j

/-- First point of a half: the accumulator block starts from zero, so it holds the tile's contribution alone. -/
theorem outA_11_apply (hc0 : cond0_0 i) (r : Fin 512) (o : Fin 128) :
    out0_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 r o) = KSpec.tileRel x2 (KSpec.msg (E := 4096) x0 x1 x2 x3 x4 x5 x6 x7 x8) r o := by
  refine (congrFun (pieceA_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc0) (ix3 0 r o)).trans ?_
  rw [acc_payload, pay4_apply, zero_add]

/-- Any other point: row `j` of the message block is the row's message. -/
theorem outB_9_apply (hc0 : ¬cond0_0 i) (xo11 : Vec Ideal S1x512x128 .f32) (j : Fin 4096) (o : Fin 128) :
    out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 (ix2 j o) = KSpec.msg (E := 4096) x0 x1 x2 x3 x4 x5 x6 x7 x8 j o := by
  refine (congrFun (pieceB_9 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc0 xo11) (ix2 j o)).trans ?_
  exact msg_payload x0 x1 x2 x3 x4 x5 x6 x7 x8 j o

/-- Any other point: row `j` of the weight block is the row's attention weight. -/
theorem outB_10_apply (hc0 : ¬cond0_0 i) (xo11 : Vec Ideal S1x512x128 .f32) (j : Fin 4096) :
    out0_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 (ix2 j 0) = KSpec.wgt (E := 4096) x0 x1 x2 x3 x4 x5 x6 x7 x8 j := by
  refine (congrFun (pieceB_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc0 xo11) (ix2 j 0)).trans ?_
  exact wgt_payload x0 x1 x2 x3 x4 x5 x6 x7 x8 j

/-- Any other point: the accumulator block is what the point before left plus the tile's contribution. -/
theorem outB_11_apply (hc0 : ¬cond0_0 i) (xo11 : Vec Ideal S1x512x128 .f32) (r : Fin 512) (o : Fin 128) :
    out0_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 (ix3 0 r o)
      = xo11 (ix3 0 r o) + KSpec.tileRel x2 (KSpec.msg (E := 4096) x0 x1 x2 x3 x4 x5 x6 x7 x8) r o := by
  refine (congrFun (pieceB_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc0 xo11) (ix3 0 r o)).trans ?_
  exact acc_payload x0 x1 x2 x3 x4 x5 x6 x7 x8 xo11 r o

end Cert.KernelIdeal.Body0

end
-- ==== Proof.KRegion0.lean ====
/-
  What the first region leaves in its three output arrays, read at an index, for any contents `V` it is entered from.

  The region's 124 points are two halves of 62 tiles. Point `t` reads rows `4096 t … 4096 t + 4095` of the gathered
  source rows, the gathered destination rows and the relation indices, and the five small operands whole; it writes the
  same rows of the message array and of the weight array, so those arrays end holding every padded edge's message and
  weight (`KSpec.msg`, `KSpec.wgt` at 507904 rows). The accumulator array has one 512 x 128 block per half: a half's
  block is reset at the half's first point and carried from point to point, so it ends at the sum over the half's 62
  tiles of each tile's contribution (`KSpec.halfRel`).
-/
import proofs.«408672_j49082886259209_3_alg».proof.Proof.KBody0

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The operand arrays and a point's blocks, each under its literal type -/

/-- The gathered source rows, the gathered destination rows and the padded relation indices. -/
abbrev hsArr (c : Dev nD) : Spec.Arr2 507904 128 := V c main_v14
abbrev hdArr (c : Dev nD) : Spec.Arr2 507904 128 := V c main_v21
abbrev ridArr (c : Dev nD) : Spec.Ids 507904 := V c main_v4
/-- The two weight blocks, the projected relation table, the bias row, the score row and the score offset. -/
abbrev w1Arr (c : Dev nD) : Spec.Arr2 128 128 := V c main_v24
abbrev w2Arr (c : Dev nD) : Spec.Arr2 128 128 := V c main_v27
abbrev rpArr (c : Dev nD) : Spec.Arr2 512 128 := V c main_v34
abbrev abArr (c : Dev nD) : Spec.Arr2 1 128 := V c main_v35
abbrev a2wArr (c : Dev nD) : Spec.Arr2 1 128 := V c main_arg4
abbrev a2bArr (c : Dev nD) : Spec.Arr2 1 1 := V c main_v36

/-- Point `t`'s nine input blocks. -/
abbrev hsBlk (c : Dev nD) (t : Fin cfg0.N) : Spec.Arr2 4096 128 := iblk0 (F := Ideal) V c 0 t
abbrev hdBlk (c : Dev nD) (t : Fin cfg0.N) : Spec.Arr2 4096 128 := iblk0 (F := Ideal) V c 1 t
abbrev ridBlk (c : Dev nD) (t : Fin cfg0.N) : Spec.Ids 4096 := iblk0 (F := Ideal) V c 2 t
abbrev w1Blk (c : Dev nD) (t : Fin cfg0.N) : Spec.Arr2 128 128 := iblk0 (F := Ideal) V c 3 t
abbrev w2Blk (c : Dev nD) (t : Fin cfg0.N) : Spec.Arr2 128 128 := iblk0 (F := Ideal) V c 4 t
abbrev rpBlk (c : Dev nD) (t : Fin cfg0.N) : Spec.Arr2 512 128 := iblk0 (F := Ideal) V c 5 t
abbrev abBlk (c : Dev nD) (t : Fin cfg0.N) : Spec.Arr2 1 128 := iblk0 (F := Ideal) V c 6 t
abbrev a2wBlk (c : Dev nD) (t : Fin cfg0.N) : Spec.Arr2 1 128 := iblk0 (F := Ideal) V c 7 t
abbrev a2bBlk (c : Dev nD) (t : Fin cfg0.N) : Spec.Arr2 1 1 := iblk0 (F := Ideal) V c 8 t

theorem N124 (t : Fin cfg0.N) : t.val < 124 := lt_of_lt_of_eq t.isLt (show cfg0.N = 124 from N_0)

/-- Row `j` of point `t`'s tile is padded edge `4096 t + j`. -/
def rowAt (t : Fin cfg0.N) (j : Fin 4096) : Fin 507904 :=
  ⟨4096 * t.val + j.val, by have := N124 t; have := j.isLt; omega⟩

/-- The block indices of the twelve windows at point `t`, decided over the grid: the three tiled inputs and the two
    tiled outputs take block `t` of their leading axis, the small operands their one block, the accumulator the
    block of the point's half. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val
    ∧ win0_9.index t (0 : Fin 2) = t.val ∧ win0_9.index t (1 : Fin 2) = 0
    ∧ win0_10.index t (0 : Fin 2) = t.val ∧ win0_10.index t (1 : Fin 2) = 0
    ∧ win0_11.index t (0 : Fin 3) = t.val / 62 ∧ win0_11.index t (1 : Fin 3) = 0 ∧ win0_11.index t (2 : Fin 3) = 0 :=
  (by decide +kernel : ∀ t : Fin grid0.N, _)

theorem idx_small : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## A point's blocks read off the arrays -/

theorem hsBlk_apply (c : Dev nD) (t : Fin cfg0.N) (j : Fin 4096) (k : Fin 128) :
    hsBlk V c t (ix2 j k) = hsArr V c (ix2 (rowAt t j) k) := by
  show ((cfg0.win 0).blk t).view.read (Elt Ideal) (V c (Pipeline.arrRef spec0 0)) (ix2 j k) = _
  rw [View.read_apply]
  show V c main_v14 (((cfg0.win 0).blk t).view.emb (ix2 j k)) = V c main_v14 _
  congr 1
  funext a; apply Fin.ext
  obtain ⟨e0, e1, -⟩ := idx_facts t
  match a with
  | ⟨0, _⟩ => show win0_0.index t (0 : Fin 2) * 4096 + 1 * j.val = 4096 * t.val + j.val; rw [e0]; omega
  | ⟨1, _⟩ => show win0_0.index t (1 : Fin 2) * 128 + 1 * k.val = k.val; rw [e1]; omega

theorem hdBlk_apply (c : Dev nD) (t : Fin cfg0.N) (j : Fin 4096) (k : Fin 128) :
    hdBlk V c t (ix2 j k) = hdArr V c (ix2 (rowAt t j) k) := by
  show ((cfg0.win 1).blk t).view.read (Elt Ideal) (V c (Pipeline.arrRef spec0 1)) (ix2 j k) = _
  rw [View.read_apply]
  show V c main_v21 (((cfg0.win 1).blk t).view.emb (ix2 j k)) = V c main_v21 _
  congr 1
  funext a; apply Fin.ext
  obtain ⟨-, -, e0, e1, -⟩ := idx_facts t
  match a with
  | ⟨0, _⟩ => show win0_1.index t (0 : Fin 2) * 4096 + 1 * j.val = 4096 * t.val + j.val; rw [e0]; omega
  | ⟨1, _⟩ => show win0_1.index t (1 : Fin 2) * 128 + 1 * k.val = k.val; rw [e1]; omega

theorem ridBlk_apply (c : Dev nD) (t : Fin cfg0.N) (j : Fin 4096) :
    ridBlk V c t (ix1 j) = ridArr V c (ix1 (rowAt t j)) := by
  show ((cfg0.win 2).blk t).view.read (Elt Ideal) (V c (Pipeline.arrRef spec0 2)) (ix1 j) = _
  rw [View.read_apply]
  show V c main_v4 (((cfg0.win 2).blk t).view.emb (ix1 j)) = V c main_v4 _
  congr 1
  funext a; apply Fin.ext
  obtain ⟨-, -, -, -, e0, -⟩ := idx_facts t
  match a with
  | ⟨0, _⟩ => show win0_2.index t (0 : Fin 1) * 4096 + 1 * j.val = 4096 * t.val + j.val; rw [e0]; omega

/-- The small operands' one block is the whole array. -/
theorem w1Blk_eq (c : Dev nD) (t : Fin cfg0.N) : w1Blk V c t = w1Arr V c := by
  funext y
  show ((cfg0.win 3).blk t).view.read (Elt Ideal) (V c (Pipeline.arrRef spec0 3)) y = _
  rw [View.read_apply]
  show V c main_v24 (((cfg0.win 3).blk t).view.emb y) = V c main_v24 y
  congr 1
  funext a; apply Fin.ext
  obtain ⟨e0, e1, -⟩ := idx_small t
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem w2Blk_eq (c : Dev nD) (t : Fin cfg0.N) : w2Blk V c t = w2Arr V c := by
  funext y
  show ((cfg0.win 4).blk t).view.read (Elt Ideal) (V c (Pipeline.arrRef spec0 4)) y = _
  rw [View.read_apply]
  show V c main_v27 (((cfg0.win 4).blk t).view.emb y) = V c main_v27 y
  congr 1
  funext a; apply Fin.ext
  obtain ⟨-, -, e0, e1, -⟩ := idx_small t
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem rpBlk_eq (c : Dev nD) (t : Fin cfg0.N) : rpBlk V c t = rpArr V c := by
  funext y
  show ((cfg0.win 5).blk t).view.read (Elt Ideal) (V c (Pipeline.arrRef spec0 5)) y = _
  rw [View.read_apply]
  show V c main_v34 (((cfg0.win 5).blk t).view.emb y) = V c main_v34 y
  congr 1
  funext a; apply Fin.ext
  obtain ⟨-, -, -, -, e0, e1, -⟩ := idx_small t
  match a with
  | ⟨0, _⟩ => show win0_5.index t (0 : Fin 2) * 512 + 1 * (y 0).val = (y 0).val; rw [e0]; omega
  | ⟨1, _⟩ => show win0_5.index t (1 : Fin 2) * 128 + 1 * (y 1).val = (y 1).val; rw [e1]; omega

theorem abBlk_eq (c : Dev nD) (t : Fin cfg0.N) : abBlk V c t = abArr V c := by
  funext y
  show ((cfg0.win 6).blk t).view.read (Elt Ideal) (V c (Pipeline.arrRef spec0 6)) y = _
  rw [View.read_apply]
  show V c main_v35 (((cfg0.win 6).blk t).view.emb y) = V c main_v35 y
  congr 1
  funext a; apply Fin.ext
  obtain ⟨-, -, -, -, -, -, e0, e1, -⟩ := idx_small t
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

theorem a2wBlk_eq (c : Dev nD) (t : Fin cfg0.N) : a2wBlk V c t = a2wArr V c := by
  funext y
  show ((cfg0.win 7).blk t).view.read (Elt Ideal) (V c (Pipeline.arrRef spec0 7)) y = _
  rw [View.read_apply]
  show V c main_arg4 (((cfg0.win 7).blk t).view.emb y) = V c main_arg4 y
  congr 1
  funext a; apply Fin.ext
  obtain ⟨-, -, -, -, -, -, -, -, e0, e1, -⟩ := idx_small t
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

theorem a2bBlk_eq (c : Dev nD) (t : Fin cfg0.N) : a2bBlk V c t = a2bArr V c := by
  funext y
  show ((cfg0.win 8).blk t).view.read (Elt Ideal) (V c (Pipeline.arrRef spec0 8)) y = _
  rw [View.read_apply]
  show V c main_v36 (((cfg0.win 8).blk t).view.emb y) = V c main_v36 y
  congr 1
  funext a; apply Fin.ext
  obtain ⟨-, -, -, -, -, -, -, -, -, -, e0, e1⟩ := idx_small t
  match a with
  | ⟨0, _⟩ => show win0_8.index t (0 : Fin 2) * 1 + 1 * (y 0).val = (y 0).val; rw [e0]; omega
  | ⟨1, _⟩ => show win0_8.index t (1 : Fin 2) * 1 + 1 * (y 1).val = (y 1).val; rw [e1]; omega

/-! ## A row's quantities only read that row

`KSpec.pre`, `score`, `wgt` and `msg` at row `e` read row `e` of the source rows, of the destination rows and of the
relation indices and nothing else of them: two triples of arrays that agree on a row give the row the same values. -/

section Congr
variable {E E' : Nat} (hs hd : Spec.Arr2 E 128) (rid : Spec.Ids E) (hs' hd' : Spec.Arr2 E' 128) (rid' : Spec.Ids E')
  (w1 w2 : Spec.Arr2 128 128) (rp : Spec.Arr2 512 128) (abr a2wr : Spec.Arr2 1 128) (a2br : Spec.Arr2 1 1)
  (e : Fin E) (e' : Fin E')

theorem pre_congr (h1 : ∀ k, hs (ix2 e k) = hs' (ix2 e' k)) (h2 : ∀ k, hd (ix2 e k) = hd' (ix2 e' k))
    (h3 : rid (ix1 e) = rid' (ix1 e')) (o : Fin 128) :
    KSpec.pre hs hd rid w1 w2 rp abr e o = KSpec.pre hs' hd' rid' w1 w2 rp abr e' o := by
  unfold KSpec.pre
  rw [h3, Finset.sum_congr rfl fun k _ => congrArg (· * w1 (ix2 k o)) (h1 k),
    Finset.sum_congr rfl fun k _ => congrArg (· * w2 (ix2 k o)) (h2 k)]

theorem score_congr (h1 : ∀ k, hs (ix2 e k) = hs' (ix2 e' k)) (h2 : ∀ k, hd (ix2 e k) = hd' (ix2 e' k))
    (h3 : rid (ix1 e) = rid' (ix1 e')) :
    KSpec.score hs hd rid w1 w2 rp abr a2wr a2br e = KSpec.score hs' hd' rid' w1 w2 rp abr a2wr a2br e' := by
  unfold KSpec.score
  rw [Finset.sum_congr rfl fun o _ => congrArg (· * a2wr (ix2 0 o)) (pre_congr hs hd rid hs' hd' rid' w1 w2 rp abr e e' h1 h2 h3 o)]

theorem wgt_congr (h1 : ∀ k, hs (ix2 e k) = hs' (ix2 e' k)) (h2 : ∀ k, hd (ix2 e k) = hd' (ix2 e' k))
    (h3 : rid (ix1 e) = rid' (ix1 e')) :
    KSpec.wgt hs hd rid w1 w2 rp abr a2wr a2br e = KSpec.wgt hs' hd' rid' w1 w2 rp abr a2wr a2br e' := by
  unfold KSpec.wgt
  rw [score_congr hs hd rid hs' hd' rid' w1 w2 rp abr a2wr a2br e e' h1 h2 h3]

theorem msg_congr (h1 : ∀ k, hs (ix2 e k) = hs' (ix2 e' k)) (h2 : ∀ k, hd (ix2 e k) = hd' (ix2 e' k))
    (h3 : rid (ix1 e) = rid' (ix1 e')) (o : Fin 128) :
    KSpec.msg hs hd rid w1 w2 rp abr a2wr a2br e o = KSpec.msg hs' hd' rid' w1 w2 rp abr a2wr a2br e' o := by
  unfold KSpec.msg
  rw [wgt_congr hs hd rid hs' hd' rid' w1 w2 rp abr a2wr a2br e e' h1 h2 h3,
    pre_congr hs hd rid hs' hd' rid' w1 w2 rp abr e e' h1 h2 h3 o]

end Congr

/-- Point `t`'s message at row `j` of its tile, over the point's blocks, is padded edge `4096 t + j`'s message. -/
theorem msgBlk_eq (c : Dev nD) (t : Fin cfg0.N) (j : Fin 4096) (o : Fin 128) :
    KSpec.msg (E := 4096) (hsBlk V c t) (hdBlk V c t) (ridBlk V c t) (w1Blk V c t) (w2Blk V c t) (rpBlk V c t) (abBlk V c t) (a2wBlk V c t) (a2bBlk V c t) j o
      = KSpec.msg (E := 507904) (hsArr V c) (hdArr V c) (ridArr V c) (w1Arr V c) (w2Arr V c) (rpArr V c) (abArr V c) (a2wArr V c) (a2bArr V c) (rowAt t j) o := by
  rw [w1Blk_eq V c t, w2Blk_eq V c t, rpBlk_eq V c t, abBlk_eq V c t, a2wBlk_eq V c t, a2bBlk_eq V c t]
  exact msg_congr (hsBlk V c t) (hdBlk V c t) (ridBlk V c t) (hsArr V c) (hdArr V c) (ridArr V c) (w1Arr V c) (w2Arr V c) (rpArr V c) (abArr V c) (a2wArr V c) (a2bArr V c) j (rowAt t j)
    (fun k => hsBlk_apply V c t j k) (fun k => hdBlk_apply V c t j k) (ridBlk_apply V c t j) o

/-- Point `t`'s weight at row `j` of its tile, over the point's blocks, is padded edge `4096 t + j`'s weight. -/
theorem wgtBlk_eq (c : Dev nD) (t : Fin cfg0.N) (j : Fin 4096) :
    KSpec.wgt (E := 4096) (hsBlk V c t) (hdBlk V c t) (ridBlk V c t) (w1Blk V c t) (w2Blk V c t) (rpBlk V c t) (abBlk V c t) (a2wBlk V c t) (a2bBlk V c t) j
      = KSpec.wgt (E := 507904) (hsArr V c) (hdArr V c) (ridArr V c) (w1Arr V c) (w2Arr V c) (rpArr V c) (abArr V c) (a2wArr V c) (a2bArr V c) (rowAt t j) := by
  rw [w1Blk_eq V c t, w2Blk_eq V c t, rpBlk_eq V c t, abBlk_eq V c t, a2wBlk_eq V c t, a2bBlk_eq V c t]
  exact wgt_congr (hsBlk V c t) (hdBlk V c t) (ridBlk V c t) (hsArr V c) (hdArr V c) (ridArr V c) (w1Arr V c) (w2Arr V c) (rpArr V c) (abArr V c) (a2wArr V c) (a2bArr V c) j (rowAt t j)
    (fun k => hsBlk_apply V c t j k) (fun k => hdBlk_apply V c t j k) (ridBlk_apply V c t j)

/-! ## The message and the weight blocks after a point -/

/-- After point `t`, row `j` of the message block is padded edge `4096 t + j`'s message, whichever case the point is. -/
theorem outs9_apply (c : Dev nD) (t : Fin cfg0.N) (j : Fin 4096) (o : Fin 128) :
    (outsAt0 (F := Ideal) V c t.val t.isLt).1 (ix2 j o) = KSpec.msg (E := 507904) (hsArr V c) (hdArr V c) (ridArr V c) (w1Arr V c) (w2Arr V c) (rpArr V c) (abArr V c) (a2wArr V c) (a2bArr V c) (rowAt t j) o := by
  by_cases h0 : t.val % 62 = 0
  · rw [outsAt0_A V c t h0]
    dsimp only
    exact (Body0.outA_9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (hsBlk V c t) (hdBlk V c t) (ridBlk V c t) (w1Blk V c t) (w2Blk V c t) (rpBlk V c t) (abBlk V c t) (a2wBlk V c t) (a2bBlk V c t) ((hcond0_0 t).mpr h0) j o).trans (msgBlk_eq V c t j o)
  · rw [outsAt0_B V c t h0]
    dsimp only
    exact (Body0.outB_9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (hsBlk V c t) (hdBlk V c t) (ridBlk V c t) (w1Blk V c t) (w2Blk V c t) (rpBlk V c t) (abBlk V c t) (a2wBlk V c t) (a2bBlk V c t) (fun h => h0 ((hcond0_0 t).mp h)) (outsAt0 (F := Ideal) V c (t.val - 1) (Nat.lt_of_le_of_lt (Nat.sub_le _ _) t.isLt)).2.2 j o).trans (msgBlk_eq V c t j o)

/-- After point `t`, row `j` of the weight block is padded edge `4096 t + j`'s weight. -/
theorem outs10_apply (c : Dev nD) (t : Fin cfg0.N) (j : Fin 4096) :
    (outsAt0 (F := Ideal) V c t.val t.isLt).2.1 (ix2 j 0) = KSpec.wgt (E := 507904) (hsArr V c) (hdArr V c) (ridArr V c) (w1Arr V c) (w2Arr V c) (rpArr V c) (abArr V c) (a2wArr V c) (a2bArr V c) (rowAt t j) := by
  by_cases h0 : t.val % 62 = 0
  · rw [outsAt0_A V c t h0]
    dsimp only
    exact (Body0.outA_10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (hsBlk V c t) (hdBlk V c t) (ridBlk V c t) (w1Blk V c t) (w2Blk V c t) (rpBlk V c t) (abBlk V c t) (a2wBlk V c t) (a2bBlk V c t) ((hcond0_0 t).mpr h0) j).trans (wgtBlk_eq V c t j)
  · rw [outsAt0_B V c t h0]
    dsimp only
    exact (Body0.outB_10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (hsBlk V c t) (hdBlk V c t) (ridBlk V c t) (w1Blk V c t) (w2Blk V c t) (rpBlk V c t) (abBlk V c t) (a2wBlk V c t) (a2bBlk V c t) (fun h => h0 ((hcond0_0 t).mp h)) (outsAt0 (F := Ideal) V c (t.val - 1) (Nat.lt_of_le_of_lt (Nat.sub_le _ _) t.isLt)).2.2 j).trans (wgtBlk_eq V c t j)

/-! ## From the blocks to the message array and the weight array -/

/-- The whole message array: entry `(e, o)` is padded edge `e`'s message at feature `o`. -/
abbrev G9 (c : Dev nD) : Spec.Arr2 507904 128 := fun i => KSpec.msg (E := 507904) (hsArr V c) (hdArr V c) (ridArr V c) (w1Arr V c) (w2Arr V c) (rpArr V c) (abArr V c) (a2wArr V c) (a2bArr V c) (i 0) (i 1)
/-- The whole weight array: entry `(e, 0)` is padded edge `e`'s weight. -/
abbrev G10 (c : Dev nD) : Spec.Arr2 507904 1 := fun i => KSpec.wgt (E := 507904) (hsArr V c) (hdArr V c) (ridArr V c) (w1Arr V c) (w2Arr V c) (rpArr V c) (abArr V c) (a2wArr V c) (a2bArr V c) (i 0)

/-- Entry `(j, o)` of point `t`'s message block sits at `(4096 t + j, o)` of the array. -/
theorem emb9 (t : Fin cfg0.N) (j : Fin 4096) (o : Fin 128) :
    ((cfg0.win 9).blk t).view.emb (ix2 j o) = ix2 (rowAt t j) o := by
  funext a; apply Fin.ext
  obtain ⟨-, -, -, -, -, e0, e1, -⟩ := idx_facts t
  match a with
  | ⟨0, _⟩ => show win0_9.index t (0 : Fin 2) * 4096 + 1 * j.val = 4096 * t.val + j.val; rw [e0]; omega
  | ⟨1, _⟩ => show win0_9.index t (1 : Fin 2) * 128 + 1 * o.val = o.val; rw [e1]; omega

/-- Entry `(j, 0)` of point `t`'s weight block sits at `(4096 t + j, 0)` of the array. -/
theorem emb10 (t : Fin cfg0.N) (j : Fin 4096) :
    ((cfg0.win 10).blk t).view.emb (ix2 j (0 : Fin 1)) = ix2 (rowAt t j) (0 : Fin 1) := by
  funext a; apply Fin.ext
  obtain ⟨-, -, -, -, -, -, -, e0, e1, -⟩ := idx_facts t
  match a with
  | ⟨0, _⟩ => show win0_10.index t (0 : Fin 2) * 4096 + 1 * j.val = 4096 * t.val + j.val; rw [e0]; omega
  | ⟨1, _⟩ => show win0_10.index t (1 : Fin 2) * 1 + 1 * 0 = 0; rw [e1]

/-- Point `t`'s block of a whole array of the message array's shape, read at `(j, o)`: the array at `(4096 t + j, o)`. -/
theorem read9_gen (f : Spec.Arr2 507904 128) (t : Fin cfg0.N) (j : Fin 4096) (o : Fin 128) :
    ((cfg0.win 9).blk t).view.read (Elt Ideal) f (ix2 j o) = f (ix2 (rowAt t j) o) := by
  rw [View.read_apply]
  show f (((cfg0.win 9).blk t).view.emb (ix2 j o)) = _
  rw [emb9 t j o]

/-- Point `t`'s block of a whole array of the weight array's shape, read at `(j, 0)`: the array at `(4096 t + j, 0)`. -/
theorem read10_gen (f : Spec.Arr2 507904 1) (t : Fin cfg0.N) (j : Fin 4096) :
    ((cfg0.win 10).blk t).view.read (Elt Ideal) f (ix2 j (0 : Fin 1)) = f (ix2 (rowAt t j) (0 : Fin 1)) := by
  rw [View.read_apply]
  show f (((cfg0.win 10).blk t).view.emb (ix2 j (0 : Fin 1))) = _
  rw [emb10 t j]

theorem flushed9_apply (c : Dev nD) (t : Fin cfg0.N) (y : S4096x128.Idx) :
    (outsAt0 (F := Ideal) V c t.val t.isLt).1 y = ((cfg0.win 9).blk t).view.read (Elt Ideal) (G9 V c) y := by
  rw [eq_ix2 y]
  exact (outs9_apply V c t (y 0) (y 1)).trans (read9_gen (G9 V c) t (y 0) (y 1)).symm

theorem flushed10_apply (c : Dev nD) (t : Fin cfg0.N) (y : S4096x1.Idx) :
    (outsAt0 (F := Ideal) V c t.val t.isLt).2.1 y = ((cfg0.win 10).blk t).view.read (Elt Ideal) (G10 V c) y := by
  have hy : y = ix2 (y 0) (0 : Fin 1) := (eq_ix2 y).trans (congrArg (ix2 (y 0)) (Subsingleton.elim (α := Fin 1) (y 1) 0))
  rw [hy]
  exact (outs10_apply V c t (y 0)).trans (read10_gen (G10 V c) t (y 0)).symm

/-- What point `t` writes back to the message array is its block of the whole message array. -/
theorem flushed9_eq (c : Dev nD) (t : Fin cfg0.N) :
    (dat0 (F := Ideal) V c).flushed 9 t = ((cfg0.win 9).blk t).view.read (Elt Ideal) (G9 V c) := by
  show (cfg0.win 9).cut (grid0.coords t) ((dat0 (F := Ideal) V c).after 9 t) = _
  rw [after0_9]
  refine funext fun y => ?_
  exact flushed9_apply V c t y

/-- What point `t` writes back to the weight array is its block of the whole weight array. -/
theorem flushed10_eq (c : Dev nD) (t : Fin cfg0.N) :
    (dat0 (F := Ideal) V c).flushed 10 t = ((cfg0.win 10).blk t).view.read (Elt Ideal) (G10 V c) := by
  show (cfg0.win 10).cut (grid0.coords t) ((dat0 (F := Ideal) V c).after 10 t) = _
  rw [after0_10]
  refine funext fun y => ?_
  exact flushed10_apply V c t y

/-- An index of the message array is in point `t`'s block iff each coordinate is in the block's range on its axis. -/
theorem mem_blk9 (t : Fin cfg0.N) (i : S507904x128.Idx) :
    i ∈ ((cfg0.win 9).blk t).view.set ↔ ∀ a : Fin 2, win0_9.index t a * S4096x128.size a ≤ (i a).val ∧ (i a).val < win0_9.index t a * S4096x128.size a + S4096x128.size a := by
  show i ∈ ((View.whole main_v37_0).slice (win0_9.rect t)).set ↔ _
  rw [View.set_slice_whole, Rect.mem_set_unit]
  exact Iff.rfl

theorem mem_blk10 (t : Fin cfg0.N) (i : S507904x1.Idx) :
    i ∈ ((cfg0.win 10).blk t).view.set ↔ ∀ a : Fin 2, win0_10.index t a * S4096x1.size a ≤ (i a).val ∧ (i a).val < win0_10.index t a * S4096x1.size a + S4096x1.size a := by
  show i ∈ ((View.whole main_v37_1).slice (win0_10.rect t)).set ↔ _
  rw [View.set_slice_whole, Rect.mem_set_unit]
  exact Iff.rfl

/-- Row `e` of the message array is covered by point `e / 4096`. -/
theorem cover9 (i : S507904x128.Idx) :
    ∃ t : Fin cfg0.N, (cfg0.win 9).flush t = true ∧ i ∈ ((cfg0.win 9).blk t).view.set := by
  have hi0 : (i 0).val < 507904 := (i 0).isLt
  have hi1 : (i 1).val < 128 := (i 1).isLt
  obtain ⟨t, ht⟩ : ∃ t : Fin cfg0.N, t.val = (i 0).val / 4096 :=
    ⟨⟨(i 0).val / 4096, by rw [show cfg0.N = 124 from N_0]; omega⟩, rfl⟩
  refine ⟨t, flush0_9 t, ?_⟩
  rw [mem_blk9]
  obtain ⟨-, -, -, -, -, e0, e1, -⟩ := idx_facts t
  intro a
  match a with
  | ⟨0, _⟩ => show win0_9.index t (0 : Fin 2) * 4096 ≤ (i 0).val ∧ (i 0).val < win0_9.index t (0 : Fin 2) * 4096 + 4096; rw [e0, ht]; omega
  | ⟨1, _⟩ => show win0_9.index t (1 : Fin 2) * 128 ≤ (i 1).val ∧ (i 1).val < win0_9.index t (1 : Fin 2) * 128 + 128; rw [e1]; omega

/-- Row `e` of the weight array is covered by point `e / 4096`. -/
theorem cover10 (i : S507904x1.Idx) :
    ∃ t : Fin cfg0.N, (cfg0.win 10).flush t = true ∧ i ∈ ((cfg0.win 10).blk t).view.set := by
  have hi0 : (i 0).val < 507904 := (i 0).isLt
  have hi1 : (i 1).val < 1 := (i 1).isLt
  obtain ⟨t, ht⟩ : ∃ t : Fin cfg0.N, t.val = (i 0).val / 4096 :=
    ⟨⟨(i 0).val / 4096, by rw [show cfg0.N = 124 from N_0]; omega⟩, rfl⟩
  refine ⟨t, flush0_10 t, ?_⟩
  rw [mem_blk10]
  obtain ⟨-, -, -, -, -, -, -, e0, e1, -⟩ := idx_facts t
  intro a
  match a with
  | ⟨0, _⟩ => show win0_10.index t (0 : Fin 2) * 4096 ≤ (i 0).val ∧ (i 0).val < win0_10.index t (0 : Fin 2) * 4096 + 4096; rw [e0, ht]; omega
  | ⟨1, _⟩ => show win0_10.index t (1 : Fin 2) * 1 ≤ (i 1).val ∧ (i 1).val < win0_10.index t (1 : Fin 2) * 1 + 1; rw [e1]; omega

/-- The message array ends holding every padded edge's message. -/
theorem final9 (c : Dev nD) : (dat0 (F := Ideal) V c).arrAt 9 cfg0.N = G9 V c :=
  (dat0 (F := Ideal) V c).arrAt_eq_of_cover 9 (G9 V c) (fun t _ => flushed9_eq V c t) cover9

/-- The weight array ends holding every padded edge's weight. -/
theorem final10 (c : Dev nD) : (dat0 (F := Ideal) V c).arrAt 10 cfg0.N = G10 V c :=
  (dat0 (F := Ideal) V c).arrAt_eq_of_cover 10 (G10 V c) (fun t _ => flushed10_eq V c t) cover10

/-! ## The accumulator -/

/-- What the tile of point `n` adds to one-hot row `r` at feature `o`: the messages of the tile's rows whose relation
    index is `r` (nothing past the grid). -/
def tileAdd (c : Dev nD) (r : Fin 512) (o : Fin 128) (n : Nat) : EReal :=
  if hn : n < cfg0.N then
    ∑ j : Fin 4096, KSpec.hot r (ridArr V c (ix1 (rowAt ⟨n, hn⟩ j))) * KSpec.msg (E := 507904) (hsArr V c) (hdArr V c) (ridArr V c) (w1Arr V c) (w2Arr V c) (rpArr V c) (abArr V c) (a2wArr V c) (a2bArr V c) (rowAt ⟨n, hn⟩ j) o
  else 0

/-- Over the point's own blocks, the tile's contribution is `tileAdd` at the point. -/
theorem tileRel_eq (c : Dev nD) (t : Fin cfg0.N) (r : Fin 512) (o : Fin 128) :
    KSpec.tileRel (ridBlk V c t) (KSpec.msg (E := 4096) (hsBlk V c t) (hdBlk V c t) (ridBlk V c t) (w1Blk V c t) (w2Blk V c t) (rpBlk V c t) (abBlk V c t) (a2wBlk V c t) (a2bBlk V c t)) r o = tileAdd V c r o t.val := by
  unfold KSpec.tileRel tileAdd
  rw [dif_pos t.isLt]
  refine Finset.sum_congr rfl fun j _ => ?_
  show KSpec.hot r (ridBlk V c t (ix1 j)) * KSpec.msg (E := 4096) (hsBlk V c t) (hdBlk V c t) (ridBlk V c t) (w1Blk V c t) (w2Blk V c t) (rpBlk V c t) (abBlk V c t) (a2wBlk V c t) (a2bBlk V c t) j o
    = KSpec.hot r (ridArr V c (ix1 (rowAt t j))) * KSpec.msg (E := 507904) (hsArr V c) (hdArr V c) (ridArr V c) (w1Arr V c) (w2Arr V c) (rpArr V c) (abArr V c) (a2wArr V c) (a2bArr V c) (rowAt t j) o
  rw [ridBlk_apply V c t j, msgBlk_eq V c t j o]

/-- At the first point of a half the accumulator block holds the tile's contribution alone. -/
theorem outs11_A (c : Dev nD) (t : Fin cfg0.N) (h0 : t.val % 62 = 0) (r : Fin 512) (o : Fin 128) :
    (outsAt0 (F := Ideal) V c t.val t.isLt).2.2 (ix3 0 r o) = tileAdd V c r o t.val := by
  rw [outsAt0_A V c t h0]
  dsimp only
  exact (Body0.outA_11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (hsBlk V c t) (hdBlk V c t) (ridBlk V c t) (w1Blk V c t) (w2Blk V c t) (rpBlk V c t) (abBlk V c t) (a2wBlk V c t) (a2bBlk V c t) ((hcond0_0 t).mpr h0) r o).trans (tileRel_eq V c t r o)

/-- At any other point it holds what the point before left plus the tile's contribution. -/
theorem outs11_B (c : Dev nD) (t : Fin cfg0.N) (h0 : ¬t.val % 62 = 0) (r : Fin 512) (o : Fin 128) :
    (outsAt0 (F := Ideal) V c t.val t.isLt).2.2 (ix3 0 r o)
      = (outsAt0 (F := Ideal) V c (t.val - 1) (Nat.lt_of_le_of_lt (Nat.sub_le _ _) t.isLt)).2.2 (ix3 0 r o) + tileAdd V c r o t.val := by
  rw [outsAt0_B V c t h0]
  dsimp only
  exact (Body0.outB_11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (hsBlk V c t) (hdBlk V c t) (ridBlk V c t) (w1Blk V c t) (w2Blk V c t) (rpBlk V c t) (abBlk V c t) (a2wBlk V c t) (a2bBlk V c t) (fun h => h0 ((hcond0_0 t).mp h)) (outsAt0 (F := Ideal) V c (t.val - 1) (Nat.lt_of_le_of_lt (Nat.sub_le _ _) t.isLt)).2.2 r o).trans
    (congrArg (fun z => (outsAt0 (F := Ideal) V c (t.val - 1) (Nat.lt_of_le_of_lt (Nat.sub_le _ _) t.isLt)).2.2 (ix3 0 r o) + z) (tileRel_eq V c t r o))

/-- After point `n`, tile `n % 62` of half `n / 62`, the accumulator block holds the sum of the contributions of the
    half's tiles `0 … n % 62`: by induction on the point. -/
theorem acc_eq (c : Dev nD) (r : Fin 512) (o : Fin 128) : ∀ (n : Nat) (hn : n < cfg0.N),
    (outsAt0 (F := Ideal) V c n hn).2.2 (ix3 0 r o) = ∑ s ∈ Finset.range (n % 62 + 1), tileAdd V c r o (62 * (n / 62) + s)
  | 0, hn => by
    rw [show (0 % 62 + 1) = 1 from rfl, Finset.sum_range_one]
    exact outs11_A V c ⟨0, hn⟩ rfl r o
  | n + 1, hn => by
    by_cases h0 : (n + 1) % 62 = 0
    · have e1 : (n + 1) % 62 + 1 = 1 := by omega
      have e2 : 62 * ((n + 1) / 62) + 0 = n + 1 := by omega
      rw [e1, Finset.sum_range_one, e2]
      exact outs11_A V c ⟨n + 1, hn⟩ h0 r o
    · have e1 : (n + 1) % 62 + 1 = (n % 62 + 1) + 1 := by omega
      have e2 : (n + 1) / 62 = n / 62 := by omega
      have e3 : 62 * (n / 62) + (n % 62 + 1) = n + 1 := by omega
      rw [e1, Finset.sum_range_succ, e2, e3, ← acc_eq c r o n (Nat.lt_of_succ_lt hn)]
      exact outs11_B V c ⟨n + 1, hn⟩ h0 r o

/-- Row `j` of tile `i` of half `h` is row `j` of point `62 h + i`'s tile. -/
theorem edgeAt_eq (h : Fin 2) (i : Fin 62) (j : Fin 4096) (hi : 62 * h.val + i.val < cfg0.N) :
    KSpec.edgeAt h i j = rowAt ⟨62 * h.val + i.val, hi⟩ j :=
  Fin.ext (by show (h.val * 62 + i.val) * 4096 + j.val = 4096 * (62 * h.val + i.val) + j.val; omega)

/-- A half's accumulated messages are the contributions of its 62 points. -/
theorem halfRel_eq_range (c : Dev nD) (h : Fin 2) (r : Fin 512) (o : Fin 128) :
    KSpec.halfRel (hsArr V c) (hdArr V c) (ridArr V c) (w1Arr V c) (w2Arr V c) (rpArr V c) (abArr V c) (a2wArr V c) (a2bArr V c) h r o = ∑ s ∈ Finset.range 62, tileAdd V c r o (62 * h.val + s) := by
  rw [← Fin.sum_univ_eq_sum_range (fun s => tileAdd V c r o (62 * h.val + s)) 62]
  unfold KSpec.halfRel
  refine Finset.sum_congr rfl fun i _ => ?_
  have hi : 62 * h.val + i.val < cfg0.N := by rw [show cfg0.N = 124 from N_0]; have := h.isLt; have := i.isLt; omega
  show _ = tileAdd V c r o (62 * h.val + i.val)
  unfold tileAdd
  rw [dif_pos hi]
  refine Finset.sum_congr rfl fun j _ => ?_
  rw [edgeAt_eq h i j hi]

/-- The whole accumulator array: block `h` is half `h`'s accumulated messages per relation. -/
abbrev G11 (c : Dev nD) : S2x512x128.Idx → EReal := fun i => KSpec.halfRel (hsArr V c) (hdArr V c) (ridArr V c) (w1Arr V c) (w2Arr V c) (rpArr V c) (abArr V c) (a2wArr V c) (a2bArr V c) (i 0) (i 1) (i 2)

/-- The half of point `t`. -/
def halfOf (t : Fin cfg0.N) : Fin 2 := ⟨t.val / 62, by have := N124 t; omega⟩

/-- Entry `(0, r, o)` of point `t`'s accumulator block sits at `(t / 62, r, o)` of the array. -/
theorem emb11 (t : Fin cfg0.N) (r : Fin 512) (o : Fin 128) :
    ((cfg0.win 11).blk t).view.emb (ix3 (0 : Fin 1) r o) = ix3 (halfOf t) r o := by
  funext a; apply Fin.ext
  obtain ⟨-, -, -, -, -, -, -, -, -, e0, e1, e2⟩ := idx_facts t
  match a with
  | ⟨0, _⟩ => show win0_11.index t (0 : Fin 3) * 1 + 1 * 0 = t.val / 62; rw [e0]; omega
  | ⟨1, _⟩ => show win0_11.index t (1 : Fin 3) * 512 + 1 * r.val = r.val; rw [e1]; omega
  | ⟨2, _⟩ => show win0_11.index t (2 : Fin 3) * 128 + 1 * o.val = o.val; rw [e2]; omega

/-- Point `t`'s block of a whole array of the accumulator array's shape, read at `(0, r, o)`: the array at
    `(t / 62, r, o)`. -/
theorem read11_gen (f : S2x512x128.Idx → EReal) (t : Fin cfg0.N) (r : Fin 512) (o : Fin 128) :
    ((cfg0.win 11).blk t).view.read (Elt Ideal) f (ix3 (0 : Fin 1) r o) = f (ix3 (halfOf t) r o) := by
  rw [View.read_apply]
  show f (((cfg0.win 11).blk t).view.emb (ix3 (0 : Fin 1) r o)) = _
  rw [emb11 t r o]

/-- At the last point of a half the accumulator block holds the half's accumulated messages. -/
theorem flushed11_at (c : Dev nD) (t : Fin cfg0.N) (h61 : t.val % 62 = 61) (r : Fin 512) (o : Fin 128) :
    (outsAt0 (F := Ideal) V c t.val t.isLt).2.2 (ix3 (0 : Fin 1) r o)
      = ((cfg0.win 11).blk t).view.read (Elt Ideal) (G11 V c) (ix3 (0 : Fin 1) r o) := by
  refine (acc_eq V c r o t.val t.isLt).trans ?_
  refine Eq.trans ?_ (read11_gen (G11 V c) t r o).symm
  refine Eq.trans ?_ (halfRel_eq_range V c (halfOf t) r o).symm
  have e : t.val % 62 + 1 = 62 := by omega
  exact congrArg (fun k => ∑ s ∈ Finset.range k, tileAdd V c r o (62 * (t.val / 62) + s)) e

theorem flushed11_apply (c : Dev nD) (t : Fin cfg0.N) (h61 : t.val % 62 = 61) (y : S1x512x128.Idx) :
    (outsAt0 (F := Ideal) V c t.val t.isLt).2.2 y = ((cfg0.win 11).blk t).view.read (Elt Ideal) (G11 V c) y := by
  have hy : y = ix3 (0 : Fin 1) (y 1) (y 2) :=
    (eq_ix3 y).trans (congrArg (fun z => ix3 z (y 1) (y 2)) (Subsingleton.elim (α := Fin 1) (y 0) 0))
  rw [hy]
  exact flushed11_at V c t h61 (y 1) (y 2)

/-- What the last point of a half writes back is its block of the whole accumulator array. -/
theorem flushed11_eq (c : Dev nD) (t : Fin cfg0.N) (hf : (cfg0.win 11).flush t = true) :
    (dat0 (F := Ideal) V c).flushed 11 t = ((cfg0.win 11).blk t).view.read (Elt Ideal) (G11 V c) := by
  have h61 : t.val % 62 = 61 := (flush0_11 t).mp hf
  show (cfg0.win 11).cut (grid0.coords t) ((dat0 (F := Ideal) V c).after 11 t) = _
  rw [after0_11]
  refine funext fun y => ?_
  exact flushed11_apply V c t h61 y

theorem mem_blk11 (t : Fin cfg0.N) (i : S2x512x128.Idx) :
    i ∈ ((cfg0.win 11).blk t).view.set ↔ ∀ a : Fin 3, win0_11.index t a * S1x512x128.size a ≤ (i a).val ∧ (i a).val < win0_11.index t a * S1x512x128.size a + S1x512x128.size a := by
  show i ∈ ((View.whole main_v37_2).slice (win0_11.rect t)).set ↔ _
  rw [View.set_slice_whole, Rect.mem_set_unit]
  exact Iff.rfl

/-- Block `h` of the accumulator array is covered by the last point of half `h`. -/
theorem cover11 (i : S2x512x128.Idx) :
    ∃ t : Fin cfg0.N, (cfg0.win 11).flush t = true ∧ i ∈ ((cfg0.win 11).blk t).view.set := by
  have hi0 : (i 0).val < 2 := (i 0).isLt
  have hi1 : (i 1).val < 512 := (i 1).isLt
  have hi2 : (i 2).val < 128 := (i 2).isLt
  obtain ⟨t, ht⟩ : ∃ t : Fin cfg0.N, t.val = 62 * (i 0).val + 61 :=
    ⟨⟨62 * (i 0).val + 61, by rw [show cfg0.N = 124 from N_0]; omega⟩, rfl⟩
  refine ⟨t, (flush0_11 t).mpr (by omega), ?_⟩
  rw [mem_blk11]
  obtain ⟨-, -, -, -, -, -, -, -, -, e0, e1, e2⟩ := idx_facts t
  intro a
  match a with
  | ⟨0, _⟩ => show win0_11.index t (0 : Fin 3) * 1 ≤ (i 0).val ∧ (i 0).val < win0_11.index t (0 : Fin 3) * 1 + 1; rw [e0, ht]; omega
  | ⟨1, _⟩ => show win0_11.index t (1 : Fin 3) * 512 ≤ (i 1).val ∧ (i 1).val < win0_11.index t (1 : Fin 3) * 512 + 512; rw [e1]; omega
  | ⟨2, _⟩ => show win0_11.index t (2 : Fin 3) * 128 ≤ (i 2).val ∧ (i 2).val < win0_11.index t (2 : Fin 3) * 128 + 128; rw [e2]; omega

/-- The accumulator array ends holding each half's accumulated messages. -/
theorem final11 (c : Dev nD) : (dat0 (F := Ideal) V c).arrAt 11 cfg0.N = G11 V c :=
  (dat0 (F := Ideal) V c).arrAt_eq_of_cover 11 (G11 V c) (fun t hf => flushed11_eq V c t hf) cover11

/-- The message array after the region: row `e` holds padded edge `e`'s message. -/
theorem arr9_apply (c : Dev nD) (e : Fin 507904) (o : Fin 128) :
    (dat0 (F := Ideal) V c).arrAt 9 cfg0.N (ix2 e o) = KSpec.msg (E := 507904) (V c main_v14) (V c main_v21) (V c main_v4) (V c main_v24) (V c main_v27) (V c main_v34) (V c main_v35) (V c main_arg4) (V c main_v36) e o :=
  congrFun (final9 V c) (ix2 e o)

/-- The weight array after the region: row `e` holds padded edge `e`'s attention weight. -/
theorem arr10_apply (c : Dev nD) (e : Fin 507904) :
    (dat0 (F := Ideal) V c).arrAt 10 cfg0.N (ix2 e 0) = KSpec.wgt (E := 507904) (V c main_v14) (V c main_v21) (V c main_v4) (V c main_v24) (V c main_v27) (V c main_v34) (V c main_v35) (V c main_arg4) (V c main_v36) e :=
  congrFun (final10 V c) (ix2 e 0)

/-- The accumulator array after the region: half `h`'s block holds the half's accumulated messages per relation. -/
theorem arr11_apply (c : Dev nD) (h : Fin 2) (r : Fin 512) (o : Fin 128) :
    (dat0 (F := Ideal) V c).arrAt 11 cfg0.N (ix3 h r o) = KSpec.halfRel (V c main_v14) (V c main_v21) (V c main_v4) (V c main_v24) (V c main_v27) (V c main_v34) (V c main_v35) (V c main_arg4) (V c main_v36) h r o :=
  congrFun (final11 V c) (ix3 h r o)

end Cert.KernelIdeal.Region0

end
-- ==== Proof.KRegion1.lean ====
/-
  What the second region leaves in its output array, read at an index, for any contents `V` it is entered from.

  The region's 50 points each take 2000 rows of the aggregated messages and of the aggregated weights and write the same
  2000 rows of the result: the message over the weight, a weight that is exactly zero replaced by the guard constant,
  through the exponential-linear unit spelt `select (x > 0) x (exp x - 1)` (the f32 word of one is the extended real
  one). The blocks tile the array, so row `n` of the result is that function of row `n` of the two operands.
-/
import proofs.«408672_j49082886259209_3_alg».proof.Proof.Gen.KernelIdeal.Frame
import proofs.«408672_j49082886259209_3_alg».proof.Proof.KSpec
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen Cert.Spec Cert.KSpec

variable (V : (c : Dev nD) → (b : Ref sig .tc) → Buf (Elt Ideal) ((c : Thread nD τ).loc b))

/-! ## The body's value at an index -/

/-- The zero offsets of a whole-block access. -/
theorem off_zero : (![0, 0] : Fin 2 → Nat) = fun _ => 0 := funext fun a => by fin_cases a <;> rfl

/-- A column of 2000 entries broadcast along 128 lanes reads, at `(p, q)`, the column's entry `p`. -/
theorem bcast_col (v : (⟨2, ![2000, 1]⟩ : Shape).Idx → EReal) (h : S2000x1.Broadcasts S2000x128) (p : Fin 2000) (q : Fin 128) :
    broadcastTo S2000x128 v h (ix2 p q) = v (ix2 p 0) :=
  broadcastTo_apply v h (ix2 p q) (ix2 p 0) fun a => by
    match a with
    | ⟨0, _⟩ => show p.val = if (2000 : Nat) = 1 then 0 else p.val; rw [if_neg (by decide)]
    | ⟨1, _⟩ => show (0 : Fin 1).val = if (1 : Nat) = 1 then 0 else _; rw [if_pos rfl]; rfl

/-- The exponential of a vector, entry by entry. -/
theorem exp_apply {s : Shape} {φ : FTy} (a : FVec Ideal s φ) (i : s.Idx) : exp a i = Ideal.exp (a i) := rfl

/-- The body's stored value at `(p, q)`: the unit of the message entry over the guarded weight of its row. -/
theorem pay_apply (x0 : Vec Ideal S2000x128 .f32) (x1 : Vec Ideal S2000x1 .f32) (p : Fin 2000) (q : Fin 128) :
    k1_pay1 (F := Ideal) x0 x1 (ix2 p q) = elu (Ideal.div (x0 (ix2 p q)) (guardZero (x1 (ix2 p 0)))) := by
  unfold k1_pay1
  simp only [shapeCast_self]
  simp only [select_apply, cmpf_apply, divf_apply, subf_apply, broadcast_apply, exp_apply, bcast_col, Ideal.ofBits_def]
  rw [Ideal.ofBits_one_f32]
  rfl

/-! ## From the blocks to the array -/

/-- The aggregated messages as the region finds them. -/
abbrev hsumA (c : Dev nD) : Arr2 100000 128 := V c main_v57
/-- The aggregated weights as the region finds them, one column. -/
abbrev ebsA (c : Dev nD) : Arr2 100000 1 := V c main_v61

/-- The whole result: entry `i` is the unit of the message entry over the guarded weight of `i`'s row. -/
def G (c : Dev nD) : Arr2 100000 128 := fun i =>
  elu (Ideal.div (hsumA V c i) (guardZero (ebsA V c (ix2 (i 0 : Fin 100000) (0 : Fin 1)))))

/-- The three windows' block indices, decided over the 50 points: all three take block `t` of the rows and the one
    block of the columns. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `G`. -/
theorem flushed_eq (c : Dev nD) (t : Fin cfg1.N) :
    (dat1 (F := Ideal) V c).flushed 2 t = ((cfg1.win 2).blk t).view.read (Elt Ideal) (G V c) := by
  show (cfg1.win 2).cut (grid1.coords t) ((dat1 (F := Ideal) V c).after 2 t) = _
  rw [after1_2]
  unfold out1_2
  rw [View.canon_unit_zero off_zero]
  simp only [View.ld_unit_zero (S := S2000x128) off_zero, View.ld_unit_zero (S := S2000x1) off_zero]
  obtain ⟨e0, e1, e2, e3, e4, e5⟩ := idx_facts t
  refine funext fun (j : S2000x128.Idx) => ?_
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q) = G V c (((cfg1.win 2).blk t).view.emb (ix2 p q))
  refine (pay_apply (iblk1 V c 0 t) (iblk1 V c 1 t) p q).trans ?_
  show elu (Ideal.div (V c main_v57 (((cfg1.win 0).blk t).view.emb (ix2 p q)))
        (guardZero (V c main_v61 (((cfg1.win 1).blk t).view.emb (ix2 p 0)))))
      = elu (Ideal.div (V c main_v57 (((cfg1.win 2).blk t).view.emb (ix2 p q)))
        (guardZero (V c main_v61 (ix2 ((((cfg1.win 2).blk t).view.emb (ix2 p q)) 0 : Fin 100000) (0 : Fin 1)))))
  -- the two input blocks sit where the output block sits: block `t` of the rows
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix2 p 0)
      = ix2 ((((cfg1.win 2).blk t).view.emb (ix2 p q)) 0 : Fin 100000) (0 : Fin 1) := by
    funext a; apply Fin.ext
    match a with
    | ⟨0, _⟩ => show win1_1.index t (0 : Fin 2) * 2000 + 1 * p.val = win1_2.index t (0 : Fin 2) * 2000 + 1 * p.val; omega
    | ⟨1, _⟩ => show win1_1.index t (1 : Fin 2) * 1 + 1 * (0 : Fin 1).val = (0 : Fin 1).val; rw [e3]; rfl
  rw [h0, h1]
  rfl

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v62).slice (win1_2.rect t)).set ↔ _
  rw [View.set_slice_whole, Rect.mem_set_unit]
  exact Iff.rfl

/-- Every index is in the block of the point its row falls in. -/
theorem cover (i : S100000x128.Idx) : ∃ t : Fin cfg1.N, (cfg1.win 2).flush t = true ∧ i ∈ ((cfg1.win 2).blk t).view.set := by
  have hN : cfg1.N = 50 := N_1
  have hi0 : (i 0).val < 100000 := (i 0).isLt
  have hi1 : (i 1).val < 128 := (i 1).isLt
  refine ⟨⟨(i 0).val / 2000, by rw [hN]; omega⟩, flush1_2 _, ?_⟩
  rw [mem_blk]
  obtain ⟨e0, e1, e2, e3, e4, e5⟩ := idx_facts ⟨(i 0).val / 2000, by rw [hN]; omega⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 128 ≤ (i 1).val ∧ (i 1).val < win1_2.index _ (1 : Fin 2) * 128 + 128
    rw [e5]; omega

/-- The array after the region is `G`. -/
theorem final (c : Dev nD) : (dat1 (F := Ideal) V c).arrAt 2 cfg1.N = G V c :=
  (dat1 (F := Ideal) V c).arrAt_eq_of_cover 2 (G V c) (fun t _ => flushed_eq V c t) cover

/-- The result array after the region: row `n` is the normalised aggregate of row `n` through the unit. -/
theorem arr2_apply (c : Dev nD) (n : Fin 100000) (o : Fin 128) :
    (dat1 (F := Ideal) V c).arrAt 2 cfg1.N (ix2 n o)
      = elu (Ideal.div (V c main_v57 (ix2 n o)) (guardZero (V c main_v61 (ix2 n 0)))) := by
  rw [final]
  rfl

end Cert.KernelIdeal.Region1

end
-- ==== Proof.LibTakeRows.lean ====
/-
  A general lemma: `stablehlo.gather` of whole rows of a rank-2 operand, read at an index.

  What `x[idx]` of a table `x : [N, C]` at a vector of row indices lowers to: offset_dims `[1]`,
  collapsed_slice_dims `[0]`, start_index_map `[0]`, index_vector_dim `1` and slice_sizes `[1, C]` over the indices
  as `[E, 1]`. Result element `(e, k)` is the operand at row `idx[e, 0]` — read as a signed integer and clamped into
  `[0, N - 1]`, as the gather clamps every start index — and column `k`. Stated for any record with those dimension
  numbers, whatever sizes `N`, `C`, `E` and word width.
-/
import Idealize.ShloMosaic.PureOps.Ideal
import Idealize.ShloMosaic.Lib.ValueIdx

noncomputable section

namespace Cert.Lib

open Idealize.ShloMosaic Idealize.ShloMosaic.ValueIdx

namespace TakeRows

/-- Those dimension numbers as a literal record, for an operand `[N, C]`, start indices `[E, 1]` and result `[E, C]`;
    `wf` are their conditions. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather of the literal record at `(e, k)`. Axis 0 of the operand is collapsed and start-mapped: its
    coordinate is the clamped start index, with no batching and no offset part. Axis 1 is the one offset axis: its start
    is `0` (it is not start-mapped) and its offset coordinate is the result's coordinate `k`. -/
theorem gather_rowDims_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    -- the start-indices index read for component 0 of the start index of `(e, k)` is `[e, 0]`
    have hsi : (rowDims N C E wf).siIdx (ix2 e k) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show ¬ (1 : Fin 2) ∈ (rowDims N C E wf).startIndexMap from
      fun h => absurd (List.mem_singleton.mp h) (by decide : ¬ (1 : Fin 2) = 0))]
    unfold GatherDims.offCoord
    rw [dif_pos (show (1 : Fin 2) ∈ (rowDims N C E wf).sKept from (GatherDims.mem_sKept _ _).mpr
      ⟨fun h => absurd (List.mem_singleton.mp h) (by decide : ¬ (1 : Fin 2) = 0), List.not_mem_nil⟩)]
    simp only [Nat.add_zero, Nat.zero_add]
    rfl

end TakeRows

open TakeRows

/-- THE ROW GATHER READ AT `(e, k)`: the operand at the start index `idx[e, 0]`, read signed and clamped into
    `[0, N - 1]`, column `k`. -/
theorem gather_rows_apply {α : Type} {N C E w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (k : Fin C) :
    Host.gather d x idx (ix2 e k) = x (ix2 ⟨min (idx (ix2 e 0)).toInt.toNat (N - 1), by omega⟩ k) := by
  -- a record with these fields is the literal one
  obtain ⟨od, cs, ob, sb, sm, iv, ss, wf⟩ := d
  simp only at h1 h2 h3 h4 h5 h6 h7
  subst h1 h2 h3 h4 h5 h6 h7
  exact gather_rowDims_apply hN wf x idx e k

end Cert.Lib

end
-- ==== Proof.KHost0.lean ====
/-
  The nine operand arrays the first region is entered with, read at an index, as functions of the launch contents `W`.

  Before the first region the host pads the three edge-index vectors from 500000 to 507904 entries (source and
  destination with zeros for the gathers, relation with the word 500, and the source again with the word 100000 for the
  later segment sums), gathers the source and destination rows of the entity table at the padded indices (a negative
  index counting from the end, the result clamped to the table), cuts the weight into its three 128-column blocks and
  transposes them, projects the relation table through the third block and writes the 500 projected rows into a zero
  table of 512 rows, and reshapes the bias and the score offset into one-row arrays. Changes of float format are the
  identity on extended reals.
-/
import proofs.«408672_j49082886259209_3_alg».proof.Proof.Gen.KernelIdeal.Launch
import proofs.«408672_j49082886259209_3_alg».proof.Proof.KSpec
import proofs.«408672_j49082886259209_3_alg».proof.Proof.LibTakeRows
import Idealize.ShloMosaic.Lib.Pipeline.Value
import Idealize.ShloMosaic.Lib.StableHlo.Run
import Idealize.ShloMosaic.PureOps.Ideal.Laws
import Idealize.ShloMosaic.Lib.IdealHost

set_option maxRecDepth 16384

noncomputable section

open scoped BigOperators

namespace Cert.KernelIdeal.Host0

open Idealize.ShloMosaic Idealize.ShloMosaic.TcCoe Idealize.ShloMosaic.ValueIdx Idealize.SL.Sem
open Cert.KernelIdeal Cert.KernelIdeal.Gen Cert.Spec Cert.KSpec

variable (W : Valuation τ sig (Elt Ideal))

/-- The relation table and the weight as launched, at their literal types (arithmetic on their entries needs them). -/
abbrev relA : Arr2 500 128 := W (Proc.devRef .tc main_arg1)
abbrev awA : Arr2 128 384 := W (Proc.devRef .tc main_arg2)
/-- The projected, padded relation table the first region is entered with, at its literal type. -/
abbrev rpA : Arr2 512 128 := StableHlo.after hostOps0 W (Proc.devRef .tc main_v34)

/-! ## The arrays the host operations leave, as whole arrays of the launch contents -/

/-- An index vector of 500000 words followed by 7904 copies of one word, read at an entry. -/
theorem pad_apply (ids : Ids 500000) (fill : BitVec 32) (e : Fin 507904) :
    concatenate S507904 0 [⟨S500000, ids⟩,
        ⟨S7904, broadcastInDim S7904 ![] bcast_S_S7904 (constantI S_ 32 fill)⟩] concatenates_S500000_S7904_S507904_d0 (ix1 e)
      = padIdx ids fill e := by
  unfold padIdx
  split
  · next h =>
    exact concatenate_pair_apply_left (t := S507904) (s₁ := S500000) (s₂ := S7904) (0 : Fin 1) _ _ _ (ix1 e) rfl
      (ix1 ⟨e.val, h⟩) (fun b => by match b with | ⟨0, _⟩ => rfl)
  · next h =>
    refine (concatenate_pair_apply_right (t := S507904) (s₁ := S500000) (s₂ := S7904) (0 : Fin 1) _ _ _ (ix1 e) rfl rfl
      (ix1 ⟨e.val - 500000, by have := e.isLt; omega⟩)
      (fun b hb => by match b with | ⟨0, _⟩ => exact absurd rfl hb)
      (by show e.val - 500000 + 500000 = e.val; omega)).trans ?_
    rw [broadcastInDim_scalar_apply]
    rfl

/-- The relation indices followed by the word 500. -/
theorem v4_eq : StableHlo.after hostOps0 W (Proc.devRef .tc main_v4)
    = concatenate S507904 0 [⟨S500000, W (Proc.devRef .tc main_arg8)⟩,
        ⟨S7904, broadcastInDim S7904 ![] bcast_S_S7904 (constantI S_ 32 500#32)⟩] concatenates_S500000_S7904_S507904_d0 := by
  after_results

/-- The source indices followed by the word 100000. -/
theorem v6_eq : StableHlo.after hostOps0 W (Proc.devRef .tc main_v6)
    = concatenate S507904 0 [⟨S500000, W (Proc.devRef .tc main_arg6)⟩,
        ⟨S7904, broadcastInDim S7904 ![] bcast_S_S7904 (constantI S_ 32 100000#32)⟩] concatenates_S500000_S7904_S507904_d0 := by
  after_results

/-- An index vector padded with zeros, and the index adjustment before a row take, as whole vectors. -/
abbrev pad0 (ids : Ids 500000) : Ids 507904 :=
  concatenate S507904 0 [⟨S500000, ids⟩,
    ⟨S7904, broadcastInDim S7904 ![] bcast_S_S7904 (constantI S_ 32 0#32)⟩] concatenates_S500000_S7904_S507904_d0
abbrev wrapV (v : Ids 507904) : Ids 507904 :=
  select (cmpi .slt v (broadcastInDim S507904 ![] bcast_S_S507904 (constantI S_ 32 0#32)))
    (addi v (broadcastInDim S507904 ![] bcast_S_S507904 (constantI S_ 32 100000#32))) v

theorem pad0_apply (ids : Ids 500000) (e : Fin 507904) : pad0 ids (ix1 e) = padIdx ids 0#32 e := pad_apply ids 0#32 e

/-- The index adjustment at an entry: a negative word has the table's 100000 rows added. -/
theorem wrap_apply (v : Ids 507904) (e : Fin 507904) : wrapV v (ix1 e) = wrapI 100000 (v (ix1 e)) := by
  show Scalar.select (IntOp.cmpi .slt (v (ix1 e)) (broadcastInDim S507904 ![] bcast_S_S507904 (constantI S_ 32 0#32) (ix1 e)))
      (IntOp.addi (v (ix1 e)) (broadcastInDim S507904 ![] bcast_S_S507904 (constantI S_ 32 100000#32) (ix1 e))) (v (ix1 e)) = _
  rw [broadcastInDim_scalar_apply, broadcastInDim_scalar_apply]
  show Scalar.select (BitVec.ofBool ((v (ix1 e)).slt 0#32)) (v (ix1 e) + 100000#32) (v (ix1 e)) = _
  generalize v (ix1 e) = i
  unfold wrapI Scalar.select
  by_cases h : i.toInt < 0
  · have hb : i.slt 0#32 = true := by simp [BitVec.slt, h]
    rw [hb, if_pos h]
    rfl
  · have hb : i.slt 0#32 = false := by simp [BitVec.slt, h]
    rw [hb, if_neg h]
    rfl

/-- The row take of the entity table at the adjusted, zero-padded index vector, read at `(e, k)`: the start index is
    the adjusted word, read signed and clamped into the table, which is the row `rowOf` names. -/
theorem take_apply (ent : Arr2 100000 128) (ids : Ids 500000) (e : Fin 507904) (k : Fin 128) :
    (Host.gather gather_S100000x128_S507904x1_S507904x128_1_0_n_n_0_1_1128
        (truncf .bf16 (ent : FVec Ideal S100000x128 .f32) bitsLt_bf16_f32)
        (broadcastInDim S507904x1 ![0] bcast_S507904_S507904x1_0 (wrapV (pad0 ids))) : FVec Ideal S507904x128 .bf16) (ix2 e k)
      = entRow ent (padIdx ids 0#32 e) k := by
  rw [Cert.Lib.gather_rows_apply (by decide) gather_S100000x128_S507904x1_S507904x128_1_0_n_n_0_1_1128 rfl rfl rfl rfl rfl rfl rfl]
  rw [truncf_apply]
  have hidx : broadcastInDim S507904x1 ![0] bcast_S507904_S507904x1_0 (wrapV (pad0 ids)) (ix2 e 0)
        = wrapI 100000 (padIdx ids 0#32 e) := by
    rw [broadcastInDim_apply ![0] _ _ (ix2 e 0) (ix1 e) (fun a => by match a with | ⟨0, _⟩ => rfl)]
    rw [wrap_apply, pad0_apply]
  unfold entRow
  refine congrArg (fun r => ent (ix2 r k)) (Fin.ext ?_)
  show min _ _ = rowOf 100000 _
  rw [hidx]
  rfl

set_option maxHeartbeats 1600000 in
/-- The gathered source rows: the row take at the adjusted, zero-padded source indices. -/
theorem v14_eq : StableHlo.after hostOps0 W (Proc.devRef .tc main_v14)
    = (Host.gather gather_S100000x128_S507904x1_S507904x128_1_0_n_n_0_1_1128
        (truncf .bf16 (W (Proc.devRef .tc main_arg0) : FVec Ideal S100000x128 .f32) bitsLt_bf16_f32)
        (broadcastInDim S507904x1 ![0] bcast_S507904_S507904x1_0 (wrapV (pad0 (W (Proc.devRef .tc main_arg6))))) : FVec Ideal S507904x128 .bf16) := by
  after_results_simp <;> rfl

set_option maxHeartbeats 1600000 in
/-- The gathered destination rows: the same take at the destination indices. -/
theorem v21_eq : StableHlo.after hostOps0 W (Proc.devRef .tc main_v21)
    = (Host.gather gather_S100000x128_S507904x1_S507904x128_1_0_n_n_0_1_1128
        (truncf .bf16 (W (Proc.devRef .tc main_arg0) : FVec Ideal S100000x128 .f32) bitsLt_bf16_f32)
        (broadcastInDim S507904x1 ![0] bcast_S507904_S507904x1_0 (wrapV (pad0 (W (Proc.devRef .tc main_arg7))))) : FVec Ideal S507904x128 .bf16) := by
  after_results_simp <;> rfl

set_option maxHeartbeats 1600000 in
/-- The first and the second 128-column block of the weight, transposed. -/
theorem v24_eq : StableHlo.after hostOps0 W (Proc.devRef .tc main_v24)
    = (truncf .bf16 (transpose S128x128 [1, 0]
        (extractStridedSlice S128x128 ![0, 0] (W (Proc.devRef .tc main_arg2) : FVec Ideal S128x384 .f32) slices_S128x384_S128x128_0_0)
        transposes_S128x128_S128x128_1_0) bitsLt_bf16_f32 : FVec Ideal S128x128 .bf16) := by
  after_results_simp <;> rfl

set_option maxHeartbeats 1600000 in
theorem v27_eq : StableHlo.after hostOps0 W (Proc.devRef .tc main_v27)
    = (truncf .bf16 (transpose S128x128 [1, 0]
        (extractStridedSlice S128x128 ![0, 128] (W (Proc.devRef .tc main_arg2) : FVec Ideal S128x384 .f32) slices_S128x384_S128x128_0_128)
        transposes_S128x128_S128x128_1_0) bitsLt_bf16_f32 : FVec Ideal S128x128 .bf16) := by
  after_results_simp <;> rfl

set_option maxHeartbeats 1600000 in
/-- The bias and the score offset with a unit axis added. -/
theorem v35_eq : StableHlo.after hostOps0 W (Proc.devRef .tc main_v35)
    = (shapeCast S1x128 (W (Proc.devRef .tc main_arg3) : FVec Ideal S128 .f32) shapeCasts_S128_S1x128 : FVec Ideal S1x128 .f32) := by
  after_results_simp <;> rfl

set_option maxHeartbeats 1600000 in
theorem v36_eq : StableHlo.after hostOps0 W (Proc.devRef .tc main_v36)
    = (shapeCast S1x1 (W (Proc.devRef .tc main_arg5) : FVec Ideal S1 .f32) shapeCasts_S1_S1x1 : FVec Ideal S1x1 .f32) := by
  after_results_simp <;> rfl

/-! ## A scatter whose update function keeps the update, read at an element

`stablehlo.scatter` folds over the update elements in row-major order; an update that lands on an element replaces
it. An element no update lands on keeps the operand's value; an element exactly one update lands on holds that update. -/

section ScatterSet
variable {s si u : Shape} {α : Type} {w : Nat}

/-- The fold at an element no update of the list lands on: the element is kept. -/
theorem foldl_scatter_of_not_hit (d : ScatterDims s si u) (f : α → α → α) (idx : IVec si w) (upd : u.Idx → α) (i : s.Idx)
    (l : List (Fin u.numel)) (hl : ∀ n ∈ l, d.resultIdx? (u.rowMajor.symm n) idx ≠ some i) (r : s.Idx → α) :
    (l.foldl (fun r n =>
      match d.resultIdx? (u.rowMajor.symm n) idx with
      | some i => fun i' => if i' = i then f (r i) (upd (u.rowMajor.symm n)) else r i'
      | none => r) r) i = r i := by
  induction l generalizing r with
  | nil => rfl
  | cons a t ih =>
    rw [List.foldl_cons, ih (fun n hn => hl n (List.mem_cons_of_mem _ hn))]
    have ha := hl a (List.mem_cons.mpr (Or.inl rfl))
    generalize d.resultIdx? (u.rowMajor.symm a) idx = q at ha ⊢
    cases q with
    | none => rfl
    | some i₁ => exact if_neg (fun h => ha (by rw [h]))

/-- The fold at an element exactly one update of a duplicate-free list lands on: that update. -/
theorem foldl_scatter_of_hit (d : ScatterDims s si u) (idx : IVec si w) (upd : u.Idx → α) (i : s.Idx) (n₀ : Fin u.numel)
    (h₀ : d.resultIdx? (u.rowMajor.symm n₀) idx = some i) (l : List (Fin u.numel)) :
    l.Nodup → n₀ ∈ l → (∀ n ∈ l, d.resultIdx? (u.rowMajor.symm n) idx = some i → n = n₀) → ∀ r : s.Idx → α,
    (l.foldl (fun r n =>
      match d.resultIdx? (u.rowMajor.symm n) idx with
      | some i => fun i' => if i' = i then (fun _ b => b) (r i) (upd (u.rowMajor.symm n)) else r i'
      | none => r) r) i = upd (u.rowMajor.symm n₀) := by
  induction l with
  | nil => intro _ hmem; exact absurd hmem List.not_mem_nil
  | cons a t ih =>
    intro hnd hmem huniq r
    rw [List.foldl_cons]
    by_cases ha : a = n₀
    · have hnot : ∀ n ∈ t, d.resultIdx? (u.rowMajor.symm n) idx ≠ some i := fun n hn hq => by
        have hna := huniq n (List.mem_cons_of_mem _ hn) hq
        have hat : a ∉ t := (List.nodup_cons.mp hnd).1
        exact hat (by rw [ha, ← hna]; exact hn)
      rw [foldl_scatter_of_not_hit d (fun _ b => b) idx upd i t hnot]
      rw [ha]
      generalize d.resultIdx? (u.rowMajor.symm n₀) idx = q at h₀ ⊢
      subst h₀
      exact if_pos rfl
    · have hmem' : n₀ ∈ t := by
        rcases List.mem_cons.mp hmem with h | h
        · exact absurd h.symm ha
        · exact h
      exact ih (List.nodup_cons.mp hnd).2 hmem' (fun n hn => huniq n (List.mem_cons_of_mem _ hn)) _

/-- An element no update lands on keeps the operand's value. -/
theorem scatter_apply_of_not_hit (d : ScatterDims s si u) (f : α → α → α) (x : s.Idx → α) (idx : IVec si w) (upd : u.Idx → α)
    (i : s.Idx) (h : ∀ j, d.resultIdx? j idx ≠ some i) : Host.scatter d f x idx upd i = x i := by
  unfold Host.scatter
  exact foldl_scatter_of_not_hit d f idx upd i _ (fun n _ => h _) x

/-- An element exactly one update lands on holds that update. -/
theorem scatter_set_apply_of_hit (d : ScatterDims s si u) (x : s.Idx → α) (idx : IVec si w) (upd : u.Idx → α) (i : s.Idx)
    (j₀ : u.Idx) (h₀ : d.resultIdx? j₀ idx = some i) (huniq : ∀ j, d.resultIdx? j idx = some i → j = j₀) :
    Host.scatter d (fun _ b => b) x idx upd i = upd j₀ := by
  unfold Host.scatter
  have h := foldl_scatter_of_hit d idx upd i (u.rowMajor j₀) (by rw [Equiv.symm_apply_apply]; exact h₀)
    (List.finRange u.numel) (List.nodup_finRange _) (List.mem_finRange _)
    (fun n _ hq => by rw [← huniq _ hq, Equiv.apply_symm_apply]) x
  rw [Equiv.symm_apply_apply] at h
  exact h

end ScatterSet

/-- Where an update element of the 500 x 128 block lands in the 512 x 128 table when the one scatter index is zero:
    at its own coordinates (the start is row 0, column 0; both axes are window axes). -/
theorem scat_resultIdx (idx : IVec S1 32) (h0 : ∀ q, idx q = 0#32) (j : S500x128.Idx) :
    scatter_S512x128_S1_S500x128_01_n_0_0.resultIdx? j idx
      = some (ix2 ⟨(j 0).val, by have : (j 0).val < 500 := (j 0).isLt; omega⟩ ⟨(j 1).val, (j 1).isLt⟩) := by
  have hs0 : scatter_S512x128_S1_S500x128_01_n_0_0.start j idx 0 = 0 := by
    unfold ScatterDims.start
    rw [dif_pos (show (0 : Fin 2) ∈ scatter_S512x128_S1_S500x128_01_n_0_0.scatterDimsToOperandDims from
      List.mem_singleton.mpr rfl), h0]
    rfl
  have hs1 : scatter_S512x128_S1_S500x128_01_n_0_0.start j idx 1 = 0 := by
    unfold ScatterDims.start
    rw [dif_neg (show ¬ (1 : Fin 2) ∈ scatter_S512x128_S1_S500x128_01_n_0_0.scatterDimsToOperandDims from by decide)]
  have hw0 : scatter_S512x128_S1_S500x128_01_n_0_0.window j 0 = (j 0).val := by
    unfold ScatterDims.window
    rw [dif_pos (show (0 : Fin 2) ∈ scatter_S512x128_S1_S500x128_01_n_0_0.sKept from by decide)]
    rfl
  have hw1 : scatter_S512x128_S1_S500x128_01_n_0_0.window j 1 = (j 1).val := by
    unfold ScatterDims.window
    rw [dif_pos (show (1 : Fin 2) ∈ scatter_S512x128_S1_S500x128_01_n_0_0.sKept from by decide)]
    rfl
  have hj0 : (j 0).val < 500 := (j 0).isLt
  have hj1 : (j 1).val < 128 := (j 1).isLt
  have hall : ∀ a, 0 ≤ scatter_S512x128_S1_S500x128_01_n_0_0.start j idx a + scatter_S512x128_S1_S500x128_01_n_0_0.window j a
      ∧ scatter_S512x128_S1_S500x128_01_n_0_0.start j idx a + scatter_S512x128_S1_S500x128_01_n_0_0.window j a < S512x128.size a := by
    intro a
    match a with
    | ⟨0, _⟩ =>
      show 0 ≤ scatter_S512x128_S1_S500x128_01_n_0_0.start j idx 0 + scatter_S512x128_S1_S500x128_01_n_0_0.window j 0
        ∧ scatter_S512x128_S1_S500x128_01_n_0_0.start j idx 0 + scatter_S512x128_S1_S500x128_01_n_0_0.window j 0 < ((512 : ℕ) : ℤ)
      rw [hs0, hw0]; omega
    | ⟨1, _⟩ =>
      show 0 ≤ scatter_S512x128_S1_S500x128_01_n_0_0.start j idx 1 + scatter_S512x128_S1_S500x128_01_n_0_0.window j 1
        ∧ scatter_S512x128_S1_S500x128_01_n_0_0.start j idx 1 + scatter_S512x128_S1_S500x128_01_n_0_0.window j 1 < ((128 : ℕ) : ℤ)
      rw [hs1, hw1]; omega
  unfold ScatterDims.resultIdx?
  rw [dif_pos hall]
  refine congrArg some (funext fun a => Fin.ext ?_)
  match a with
  | ⟨0, _⟩ =>
    show (scatter_S512x128_S1_S500x128_01_n_0_0.start j idx 0 + scatter_S512x128_S1_S500x128_01_n_0_0.window j 0).toNat = (j 0).val
    rw [hs0, hw0]; omega
  | ⟨1, _⟩ =>
    show (scatter_S512x128_S1_S500x128_01_n_0_0.start j idx 1 + scatter_S512x128_S1_S500x128_01_n_0_0.window j 1).toNat = (j 1).val
    rw [hs1, hw1]; omega

/-! ## The projection of the relation table, read at an element -/

theorem proj_lhs_0 (j : S500x128.Idx) (k : dot_S500x128_S128x128_S500x128_1_0_0_1_n_n.contr.Idx) :
    (dot_S500x128_S128x128_S500x128_1_0_0_1_n_n.lhsIdx j k 0).val = (j 0).val := rfl
theorem proj_lhs_1 (j : S500x128.Idx) (k : dot_S500x128_S128x128_S500x128_1_0_0_1_n_n.contr.Idx) :
    (dot_S500x128_S128x128_S500x128_1_0_0_1_n_n.lhsIdx j k 1).val = (k ⟨0, by decide⟩).val :=
  DotDims.lhsIdx_val_of_single _ rfl j k
theorem proj_rhs_0 (j : S500x128.Idx) (k : dot_S500x128_S128x128_S500x128_1_0_0_1_n_n.contr.Idx) :
    (dot_S500x128_S128x128_S500x128_1_0_0_1_n_n.rhsIdx j k 0).val = (k ⟨0, by decide⟩).val :=
  DotDims.rhsIdx_val_of_single _ rfl j k
theorem proj_rhs_1 (j : S500x128.Idx) (k : dot_S500x128_S128x128_S500x128_1_0_0_1_n_n.contr.Idx) :
    (dot_S500x128_S128x128_S500x128_1_0_0_1_n_n.rhsIdx j k 1).val = (j 1).val := rfl

/-- The product of a 500 x 128 table with a 128 x 128 matrix at `(r, o)`: row `r` against column `o`. -/
theorem proj_apply (relE : Arr2 500 128) (m : Arr2 128 128) (r : Fin 500) (o : Fin 128) :
    Host.dotGeneral (F := Ideal) (φ₁ := .f32) (φ₂ := .f32) dot_S500x128_S128x128_S500x128_1_0_0_1_n_n none relE m (ix2 r o)
      = ∑ k : Fin 128, relE (ix2 r k) * m (ix2 k o) := by
  simp only [Host.dotGeneral]
  rw [Ideal.dotGeneral_apply]
  rw [← Equiv.sum_comp (contrEquiv1 dot_S500x128_S128x128_S500x128_1_0_0_1_n_n 128 rfl rfl).symm]
  refine Finset.sum_congr rfl fun k _ => ?_
  have hk := contrEquiv1_symm_val dot_S500x128_S128x128_S500x128_1_0_0_1_n_n 128 rfl rfl k
  congr 1
  · refine congrArg relE (funext fun a => Fin.ext ?_)
    match a with
    | ⟨0, _⟩ => exact proj_lhs_0 _ _
    | ⟨1, _⟩ => exact (proj_lhs_1 _ _).trans hk
  · refine congrArg m (funext fun a => Fin.ext ?_)
    match a with
    | ⟨0, _⟩ => exact (proj_rhs_0 _ _).trans hk
    | ⟨1, _⟩ => exact proj_rhs_1 _ _

set_option maxHeartbeats 1600000 in
/-- The projected relation table: the 500 rows of the relation table times the third weight block, transposed, written
    at row 0 into a zero table of 512 rows. -/
theorem v34_eq : StableHlo.after hostOps0 W (Proc.devRef .tc main_v34)
    = (truncf .bf16 (Host.scatter scatter_S512x128_S1_S500x128_01_n_0_0 (fun _ b => b)
        (broadcastInDim S512x128 ![] bcast_S_S512x128 (constant (F := Ideal) S_ .f32 0x00000000#32))
        (broadcastInDim S1 ![] bcast_S_S1 (constantI S_ 32 0#32))
        (Host.dotGeneral (F := Ideal) (φ₁ := .f32) (φ₂ := .f32) dot_S500x128_S128x128_S500x128_1_0_0_1_n_n none
          (W (Proc.devRef .tc main_arg1))
          (transpose S128x128 [1, 0]
            (extractStridedSlice S128x128 ![0, 256] (W (Proc.devRef .tc main_arg2) : FVec Ideal S128x384 .f32) slices_S128x384_S128x128_0_256)
            transposes_S128x128_S128x128_1_0))) bitsLt_bf16_f32 : FVec Ideal S512x128 .bf16) := by
  after_results_simp <;> rfl

/-! ## The nine operand arrays and the segment keys at an index -/

/-- The gathered source rows: row `e` is the entity row the padded source index reads. -/
theorem hs_apply (e : Fin 507904) (k : Fin 128) :
    StableHlo.after hostOps0 W (Proc.devRef .tc main_v14) (ix2 e k)
      = entRow (W (Proc.devRef .tc main_arg0)) (padIdx (W (Proc.devRef .tc main_arg6)) 0#32 e) k := by
  rw [v14_eq]
  exact take_apply _ _ e k

/-- The gathered destination rows. -/
theorem hd_apply (e : Fin 507904) (k : Fin 128) :
    StableHlo.after hostOps0 W (Proc.devRef .tc main_v21) (ix2 e k)
      = entRow (W (Proc.devRef .tc main_arg0)) (padIdx (W (Proc.devRef .tc main_arg7)) 0#32 e) k := by
  rw [v21_eq]
  exact take_apply _ _ e k

/-- The relation indices padded with the word 500. -/
theorem rid_apply (e : Fin 507904) :
    StableHlo.after hostOps0 W (Proc.devRef .tc main_v4) (ix1 e) = padIdx (W (Proc.devRef .tc main_arg8)) 500#32 e := by
  rw [v4_eq]
  exact pad_apply _ _ e

/-- The source indices padded with the word 100000 (the segment keys of the later sums). -/
theorem seg_apply (e : Fin 507904) :
    StableHlo.after hostOps0 W (Proc.devRef .tc main_v6) (ix1 e) = padIdx (W (Proc.devRef .tc main_arg6)) 100000#32 e := by
  rw [v6_eq]
  exact pad_apply _ _ e

/-- The first weight block, transposed. -/
theorem w1_apply (k o : Fin 128) :
    StableHlo.after hostOps0 W (Proc.devRef .tc main_v24) (ix2 k o)
      = W (Proc.devRef .tc main_arg2) (ix2 o ⟨k.val, by have := k.isLt; omega⟩) := by
  rw [v24_eq, truncf_apply]
  rw [transpose_apply [1, 0] _ transposes_S128x128_S128x128_1_0 (ix2 k o) (ix2 o k)
    (fun b => by match b with | ⟨0, _⟩ => rfl | ⟨1, _⟩ => rfl)]
  exact extractStridedSlice_apply ![0, 0] _ slices_S128x384_S128x128_0_0 (ix2 o k) (ix2 o ⟨k.val, by have := k.isLt; omega⟩)
    (fun a => by match a with | ⟨0, _⟩ => (show o.val = 0 + o.val; omega) | ⟨1, _⟩ => (show k.val = 0 + k.val; omega))

/-- The second weight block, transposed. -/
theorem w2_apply (k o : Fin 128) :
    StableHlo.after hostOps0 W (Proc.devRef .tc main_v27) (ix2 k o)
      = W (Proc.devRef .tc main_arg2) (ix2 o ⟨128 + k.val, by have := k.isLt; omega⟩) := by
  rw [v27_eq, truncf_apply]
  rw [transpose_apply [1, 0] _ transposes_S128x128_S128x128_1_0 (ix2 k o) (ix2 o k)
    (fun b => by match b with | ⟨0, _⟩ => rfl | ⟨1, _⟩ => rfl)]
  exact extractStridedSlice_apply ![0, 128] _ slices_S128x384_S128x128_0_128 (ix2 o k) (ix2 o ⟨128 + k.val, by have := k.isLt; omega⟩)
    (fun a => by match a with | ⟨0, _⟩ => (show o.val = 0 + o.val; omega) | ⟨1, _⟩ => (show 128 + k.val = 128 + k.val; rfl))

/-- The projected relation table padded to 512 rows: a projected row below 500, a zero row above. -/
theorem rp_apply (r : Fin 512) (o : Fin 128) :
    rpA W (ix2 r o)
      = if h : r.val < 500 then
          ∑ k : Fin 128, relA W (ix2 ⟨r.val, h⟩ k) * awA W (ix2 o ⟨256 + k.val, by have := k.isLt; omega⟩)
        else 0 := by
  show StableHlo.after hostOps0 W (Proc.devRef .tc main_v34) (ix2 r o) = _
  rw [v34_eq, truncf_apply]
  have hz : ∀ q, broadcastInDim S1 ![] bcast_S_S1 (constantI S_ 32 0#32) q = 0#32 := fun q => by
    rw [broadcastInDim_scalar_apply]; rfl
  split
  · next h =>
    -- row `r` is written once, by the update element at `(r, o)`
    have hhit := scatter_set_apply_of_hit scatter_S512x128_S1_S500x128_01_n_0_0
      (broadcastInDim S512x128 ![] bcast_S_S512x128 (constant (F := Ideal) S_ .f32 0x00000000#32))
      (broadcastInDim S1 ![] bcast_S_S1 (constantI S_ 32 0#32))
      (Host.dotGeneral (F := Ideal) (φ₁ := .f32) (φ₂ := .f32) dot_S500x128_S128x128_S500x128_1_0_0_1_n_n none
          (W (Proc.devRef .tc main_arg1))
          (transpose S128x128 [1, 0]
            (extractStridedSlice S128x128 ![0, 256] (W (Proc.devRef .tc main_arg2) : FVec Ideal S128x384 .f32) slices_S128x384_S128x128_0_256)
            transposes_S128x128_S128x128_1_0))
      (ix2 r o) (ix2 ⟨r.val, h⟩ o)
      (by rw [scat_resultIdx _ hz]; rfl)
      (fun j hq => by
        rw [scat_resultIdx _ hz] at hq
        have hq' := Option.some.inj hq
        have e0 : (j 0).val = r.val := congrArg (fun f : S512x128.Idx => (f 0).val) hq'
        have e1 : (j 1).val = o.val := congrArg (fun f : S512x128.Idx => (f 1).val) hq'
        funext a
        match a with
        | ⟨0, _⟩ => exact Fin.ext e0
        | ⟨1, _⟩ => exact Fin.ext e1)
    rw [hhit]
    refine (proj_apply (relA W) _ ⟨r.val, h⟩ o).trans ?_
    refine Finset.sum_congr rfl fun k _ => ?_
    refine congrArg (fun x : EReal => relA W (ix2 ⟨r.val, h⟩ k) * x) ?_
    rw [transpose_apply [1, 0] _ transposes_S128x128_S128x128_1_0 (ix2 k o) (ix2 o k)
      (fun b => by match b with | ⟨0, _⟩ => rfl | ⟨1, _⟩ => rfl)]
    exact extractStridedSlice_apply ![0, 256] _ slices_S128x384_S128x128_0_256 (ix2 o k)
      (ix2 o ⟨256 + k.val, by have := k.isLt; omega⟩)
      (fun a => by match a with | ⟨0, _⟩ => (show o.val = 0 + o.val; omega) | ⟨1, _⟩ => (show 256 + k.val = 256 + k.val; rfl))
  · next h =>
    -- no update element lands on a row from 500 on: the zero of the table is kept
    rw [scatter_apply_of_not_hit scatter_S512x128_S1_S500x128_01_n_0_0 _ _ _ _ (ix2 r o) (fun j hq => by
      rw [scat_resultIdx _ hz] at hq
      have e0 : (j 0).val = r.val := congrArg (fun f : S512x128.Idx => (f 0).val) (Option.some.inj hq)
      have hj : (j 0).val < 500 := (j 0).isLt
      exact h (by omega))]
    rw [broadcastInDim_scalar_apply]
    exact Ideal.ofBits_zero_f32

/-- The bias as a one-row array. -/
theorem abr_apply (o : Fin 128) :
    StableHlo.after hostOps0 W (Proc.devRef .tc main_v35) (ix2 0 o) = W (Proc.devRef .tc main_arg3) (ix1 o) := by
  rw [v35_eq]
  refine (shapeCast_addUnit_apply (n := 1) ![128] _ shapeCasts_S128_S1x128 (ix2 0 o)).trans ?_
  exact congrArg _ (funext fun a => by match a with | ⟨0, _⟩ => rfl)

/-- The score row is an argument the host does not touch. -/
theorem a2wr_eq : StableHlo.after hostOps0 W (Proc.devRef .tc main_arg4) = W (Proc.devRef .tc main_arg4) := by
  after_results

/-- The score offset as a one-by-one array. -/
theorem a2br_apply :
    StableHlo.after hostOps0 W (Proc.devRef .tc main_v36) (ix2 0 0) = W (Proc.devRef .tc main_arg5) (ix1 0) := by
  rw [v36_eq]
  refine (shapeCast_addUnit_apply (n := 1) ![1] _ shapeCasts_S1_S1x1 (ix2 0 0)).trans ?_
  exact congrArg _ (funext fun a => by match a with | ⟨0, _⟩ => rfl)

/-- The source and relation index arguments are not touched by the host operations before the first region. -/
theorem arg6_eq : StableHlo.after hostOps0 W (Proc.devRef .tc main_arg6) = W (Proc.devRef .tc main_arg6) := by
  after_results
theorem arg8_eq : StableHlo.after hostOps0 W (Proc.devRef .tc main_arg8) = W (Proc.devRef .tc main_arg8) := by
  after_results

end Cert.KernelIdeal.Host0

end
-- ==== Proof.LibSegmentSum.lean ====
/-
  General lemmas: the host's accumulating float scatter (`x.at[idx].add(u)`, a segment sum) at the ideal instance, read at
  an index, for the two shapes a segment sum over rows takes.

  The start index is read as a SIGNED integer and is NOT clamped: an update whose row index is negative or past the
  operand's last row lands nowhere. So the operand's row `n` receives exactly the update rows `e` whose index word,
  as a signed integer, is `n`.
-/
import Idealize.ShloMosaic.PureOps.Ideal
import Idealize.ShloMosaic.Lib.ValueIdx

noncomputable section

open scoped BigOperators

namespace Cert.Lib

open Idealize.ShloMosaic Idealize.ShloMosaic.ValueIdx

namespace SegmentSum

/-! ## Rows -/

/-- The row scatter's dimension numbers as a literal record, for an operand `[N, C]`, indices `[E, 1]` and updates
    `[E, C]`; `wf` are their conditions. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the operand's row axis the window of update `(e, k')` starts at the index word `idx[e, 0]`, read signed. -/
theorem rows_start0 : (rowScatterDims N C E wf).start (ix2 e k') idx 0 = (idx (ix2 e 0)).toInt := by
  unfold ScatterDims.start
  rw [dif_pos (show (0 : Fin 2) ∈ (rowScatterDims N C E wf).scatterDimsToOperandDims from List.mem_singleton.mpr rfl)]
  -- the scatter-indices index read for component 0 of the start index of `(e, k')` is `[e, 0]`
  have hsi : (rowScatterDims N C E wf).siIdx (ix2 e k')
      ⟨List.idxOf (0 : Fin 2) (rowScatterDims N C E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The column axis is not index-mapped: the window starts at `0` there. -/
theorem rows_start1 : (rowScatterDims N C E wf).start (ix2 e k') idx 1 = 0 := by
  unfold ScatterDims.start
  rw [dif_neg (show ¬ (1 : Fin 2) ∈ (rowScatterDims N C E wf).scatterDimsToOperandDims from
    fun h => absurd (List.mem_singleton.mp h) (by decide : ¬ (1 : Fin 2) = 0))]

/-- The row axis is an inserted window axis: it has no window coordinate. -/
theorem rows_window0 : (rowScatterDims N C E wf).window (ix2 e k') 0 = 0 := by
  unfold ScatterDims.window
  rw [dif_neg (show ¬ (0 : Fin 2) ∈ (rowScatterDims N C E wf).sKept from fun h => by
    have h2 := (List.mem_filter.mp h).2
    simp at h2)]

/-- The column axis is the one window axis: its window coordinate is the update's column. -/
theorem rows_window1 : (rowScatterDims N C E wf).window (ix2 e k') 1 = k'.val := by
  unfold ScatterDims.window
  rw [dif_pos (show (1 : Fin 2) ∈ (rowScatterDims N C E wf).sKept from
    List.mem_filter.mpr ⟨List.mem_finRange _, by simp⟩)]
  rfl

/-- WHERE AN UPDATE LANDS: update `(e, k')` lands at operand element `(n, k)` exactly when its index word, read signed,
    is `n` and its column is `k`. (An index word outside `[0, N)` lands nowhere, so it equals no `n`.) -/
theorem rows_resultIdx_eq_some_iff (n : Fin N) (k : Fin C) :
    (rowScatterDims N C E wf).resultIdx? (ix2 e k') idx = some (ix2 n k)
      ↔ (idx (ix2 e 0)).toInt = (n.val : ℤ) ∧ k' = k := by
  have s0 := rows_start0 wf idx e k'
  have s1 := rows_start1 wf idx e k'
  have w0 := rows_window0 wf e k'
  have w1 := rows_window1 wf e k'
  unfold ScatterDims.resultIdx?
  split
  · rename_i h
    rw [Option.some.injEq]
    constructor
    · intro hf
      -- read the equation of indices on each axis
      have h0 : ((rowScatterDims N C E wf).start (ix2 e k') idx 0
          + ((rowScatterDims N C E wf).window (ix2 e k') 0 : ℕ)).toNat = n.val :=
        congrArg (fun i : (⟨2, ![N, C]⟩ : Shape).Idx => (i 0).val) hf
      have h1 : ((rowScatterDims N C E wf).start (ix2 e k') idx 1
          + ((rowScatterDims N C E wf).window (ix2 e k') 1 : ℕ)).toNat = k.val :=
        congrArg (fun i : (⟨2, ![N, C]⟩ : Shape).Idx => (i 1).val) hf
      have p0 := (h 0).1
      rw [s0, w0] at h0 p0
      rw [s1, w1] at h1
      exact ⟨by omega, Fin.ext (by omega)⟩
    · rintro ⟨hi, rfl⟩
      funext a
      refine Fin.ext ?_
      match a with
      | ⟨0, _⟩ =>
        show ((rowScatterDims N C E wf).start (ix2 e k') idx 0
          + ((rowScatterDims N C E wf).window (ix2 e k') 0 : ℕ)).toNat = n.val
        rw [s0, w0]; omega
      | ⟨1, _⟩ =>
        show ((rowScatterDims N C E wf).start (ix2 e k') idx 1
          + ((rowScatterDims N C E wf).window (ix2 e k') 1 : ℕ)).toNat = k'.val
        rw [s1, w1]; omega
  · rename_i h
    constructor
    · intro hf; exact absurd hf (by simp)
    · -- an index word equal to `n` is in range, and a column always is: the update does land
      rintro ⟨hi, rfl⟩
      refine absurd (fun a => ?_) h
      match a with
      | ⟨0, _⟩ =>
        show 0 ≤ (rowScatterDims N C E wf).start (ix2 e k') idx 0 + ((rowScatterDims N C E wf).window (ix2 e k') 0 : ℕ)
          ∧ (rowScatterDims N C E wf).start (ix2 e k') idx 0 + ((rowScatterDims N C E wf).window (ix2 e k') 0 : ℕ)
            < (N : ℤ)
        rw [s0, w0]; have := n.isLt; omega
      | ⟨1, _⟩ =>
        show 0 ≤ (rowScatterDims N C E wf).start (ix2 e k') idx 1 + ((rowScatterDims N C E wf).window (ix2 e k') 1 : ℕ)
          ∧ (rowScatterDims N C E wf).start (ix2 e k') idx 1 + ((rowScatterDims N C E wf).window (ix2 e k') 1 : ℕ)
            < (C : ℤ)
        rw [s1, w1]; have := k'.isLt; omega

end Rows

/-! ## Flat -/

/-- The flat scatter's dimension numbers as a literal record, for an operand `[N]`, indices `[E, 1]` and updates `[E]`;
    `wf` are their conditions. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range. -/
def idxEquiv1 {n : Nat} : Fin n ≃ (⟨1, ![n]⟩ : Shape).Idx where
  toFun := ix1
  invFun i := i 0
  left_inv _ := rfl
  right_inv i := (eq_ix1 i).symm

section Flat
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at the index word `idx[e, 0]`, read signed. -/
theorem flat_start0 : (flatScatterDims N E wf).start (ix1 e) idx 0 = (idx (ix2 e 0)).toInt := by
  unfold ScatterDims.start
  rw [dif_pos (show (0 : Fin 1) ∈ (flatScatterDims N E wf).scatterDimsToOperandDims from List.mem_singleton.mpr rfl)]
  -- the scatter-indices index read for component 0 of the start index of `e` is `[e, 0]`
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- That axis is an inserted window axis: it has no window coordinate. -/
theorem flat_window0 : (flatScatterDims N E wf).window (ix1 e) 0 = 0 := by
  unfold ScatterDims.window
  rw [dif_neg (show ¬ (0 : Fin 1) ∈ (flatScatterDims N E wf).sKept from fun h => by
    have h2 := (List.mem_filter.mp h).2
    simp at h2)]

/-- WHERE AN UPDATE LANDS: update `e` lands at operand element `n` exactly when its index word, read signed, is `n`. -/
theorem flat_resultIdx_eq_some_iff (n : Fin N) :
    (flatScatterDims N E wf).resultIdx? (ix1 e) idx = some (ix1 n) ↔ (idx (ix2 e 0)).toInt = (n.val : ℤ) := by
  have s0 := flat_start0 wf idx e
  have w0 := flat_window0 wf e
  unfold ScatterDims.resultIdx?
  split
  · rename_i h
    rw [Option.some.injEq]
    constructor
    · intro hf
      have h0 : ((flatScatterDims N E wf).start (ix1 e) idx 0
          + ((flatScatterDims N E wf).window (ix1 e) 0 : ℕ)).toNat = n.val :=
        congrArg (fun i : (⟨1, ![N]⟩ : Shape).Idx => (i 0).val) hf
      have p0 := (h 0).1
      rw [s0, w0] at h0 p0
      omega
    · intro hi
      funext a
      refine Fin.ext ?_
      match a with
      | ⟨0, _⟩ =>
        show ((flatScatterDims N E wf).start (ix1 e) idx 0
          + ((flatScatterDims N E wf).window (ix1 e) 0 : ℕ)).toNat = n.val
        rw [s0, w0]; omega
  · rename_i h
    constructor
    · intro hf; exact absurd hf (by simp)
    · -- an index word equal to `n` is in range: the update does land
      intro hi
      refine absurd (fun a => ?_) h
      match a with
      | ⟨0, _⟩ =>
        show 0 ≤ (flatScatterDims N E wf).start (ix1 e) idx 0 + ((flatScatterDims N E wf).window (ix1 e) 0 : ℕ)
          ∧ (flatScatterDims N E wf).start (ix1 e) idx 0 + ((flatScatterDims N E wf).window (ix1 e) 0 : ℕ) < (N : ℤ)
        rw [s0, w0]; have := n.isLt; omega

end Flat

end SegmentSum

open SegmentSum

/-- ROWS: operand `[N, C]`, indices `[E, 1]`, updates `[E, C]` (update_window_dims `[1]`, inserted_window_dims `[0]`,
    scatter_dims_to_operand_dims `[0]`, index_vector_dim `1`). Element `(n, k)` is the operand's plus the sum of the
    updates' `(e, k)` over the rows `e` whose index is `n`. -/
theorem scatterAdd_rows_apply {N C E w : Nat}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ix2 e 0)).toInt = (n.val : ℤ)), upd (ix2 e k) := by
  -- a record with these fields is the literal one
  obtain ⟨uw, iw, sd, iv, wf⟩ := d
  simp only at h1 h2 h3 h4
  subst h1 h2 h3 h4
  unfold Ideal.hostScatterAdd
  congr 1
  -- both sides as sums of guarded terms; the left one over the updates' rows and columns
  rw [Finset.sum_filter, sum_idx2, Finset.sum_filter]
  refine Finset.sum_congr rfl fun e _ => ?_
  by_cases hq : (idx (ix2 e 0)).toInt = (n.val : ℤ)
  · -- a row whose index is `n` gives its column `k` and nothing else
    rw [if_pos hq, Finset.sum_eq_single k]
    · rw [if_pos ((rows_resultIdx_eq_some_iff wf idx e k n k).mpr ⟨hq, rfl⟩)]
    · intro k' _ hk'
      rw [if_neg fun h => hk' ((rows_resultIdx_eq_some_iff wf idx e k' n k).mp h).2]
    · intro h; exact absurd (Finset.mem_univ k) h
  · -- any other row gives nothing
    rw [if_neg hq]
    refine Finset.sum_eq_zero fun k' _ => ?_
    rw [if_neg fun h => hq ((rows_resultIdx_eq_some_iff wf idx e k' n k).mp h).1]

/-- FLAT: operand `[N]`, indices `[E, 1]`, updates `[E]` (no window axis, inserted_window_dims `[0]`,
    scatter_dims_to_operand_dims `[0]`, index_vector_dim `1`). Element `n` is the operand's plus the sum of the updates
    `e` whose index is `n`. -/
theorem scatterAdd_flat_apply {N E w : Nat}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : ℤ)), upd (ix1 e) := by
  -- a record with these fields is the literal one
  obtain ⟨uw, iw, sd, iv, wf⟩ := d
  simp only at h1 h2 h3 h4
  subst h1 h2 h3 h4
  unfold Ideal.hostScatterAdd
  congr 1
  -- both sides as sums of guarded terms, matched along the bijection between update indices and rows
  rw [Finset.sum_filter, Finset.sum_filter]
  refine (Fintype.sum_equiv idxEquiv1 _ _ fun e => ?_).symm
  have hiff := flat_resultIdx_eq_some_iff wf idx e n
  show (if (idx (ix2 e 0)).toInt = (n.val : ℤ) then upd (ix1 e) else 0)
    = if (flatScatterDims N E wf).resultIdx? (ix1 e) idx = some (ix1 n) then upd (ix1 e) else 0
  by_cases hq : (idx (ix2 e 0)).toInt = (n.val : ℤ)
  · rw [if_pos hq, if_pos (hiff.mpr hq)]
  · rw [if_neg hq, if_neg fun h => hq (hiff.mp h)]

end Cert.Lib

end
-- ==== Proof.KHost1.lean ====
/-
  What the host operations between the two regions compute, read at an index, as functions of the contents `W` the first
  region leaves: the second region's two operand arrays and the program's second result.

  The per-half relation accumulators are added and cut to the 500 real relations; the relation counts are a segment sum of
  ones keyed by the relation indices; their quotient, with the count floored at one, goes through the host's
  exponential-linear unit (`select (x > 0) x (1 * expm1 (select (x > 0) 0 x))`, which is `Spec.elu` since
  `expm1 y = exp y - 1` at this instance) and is the second result. The padded messages and weights are summed into
  segments keyed by the source indices padded with the word 100000, over one row more than there are nodes (the padding's
  own), and that last row is cut off.
-/
import proofs.«408672_j49082886259209_3_alg».proof.Proof.Gen.KernelIdeal.Launch
import proofs.«408672_j49082886259209_3_alg».proof.Proof.KSpec
import proofs.«408672_j49082886259209_3_alg».proof.Proof.LibSegmentSum
import Idealize.ShloMosaic.Lib.Pipeline.Value
import Idealize.ShloMosaic.Lib.StableHlo.Run
import Idealize.ShloMosaic.PureOps.Ideal.Laws
import Idealize.ShloMosaic.Lib.IdealHost

set_option maxRecDepth 16384

noncomputable section

open scoped BigOperators

namespace Cert.KernelIdeal.Host1

open Idealize.ShloMosaic Idealize.ShloMosaic.TcCoe Idealize.ShloMosaic.ValueIdx Idealize.SL.Sem
open Cert.KernelIdeal Cert.KernelIdeal.Gen Cert.Spec Cert.KSpec

variable (W : Valuation τ sig (Elt Ideal))

/-- The contents the second region is entered with, from the contents `W` the first region leaves. -/
abbrev W5of : Valuation τ sig (Elt Ideal) := StableHlo.after hostOps1_2 (StableHlo.after hostOps1_1 (StableHlo.after hostOps1 W))

/-- The first region's three output arrays as it leaves them, at their literal types (sums of their entries need them). -/
abbrev msgA : Arr2 507904 128 := W (Proc.devRef .tc main_v37_0)
abbrev wgtA : Arr2 507904 1 := W (Proc.devRef .tc main_v37_1)
abbrev accA : (⟨3, ![2, 512, 128]⟩ : Shape).Idx → EReal := W (Proc.devRef .tc main_v37_2)
/-- The second region's two operand arrays and the second result, at their literal types. -/
abbrev nodeInA : Arr2 100000 128 := W5of W (Proc.devRef .tc main_v57)
abbrev wgtInA : Arr2 100000 1 := W5of W (Proc.devRef .tc main_v61)
abbrev relOutA : Arr2 500 128 := W5of W (Proc.devRef .tc main_v53)

/-- The second region's first operand as one term over any contents `X`: the message rows summed into a zero table of
    100001 rows keyed by the padded source words, its last row cut off. -/
theorem v57_of (X : Valuation τ sig (Elt Ideal)) :
    (StableHlo.after hostOps1_2 X (Proc.devRef .tc main_v57) : Arr2 100000 128)
      = extractStridedSlice S100000x128 ![0, 0]
          (Host.scatterAdd scatter_S100001x128_S507904x1_S507904x128_1_0_0_1
            (broadcastInDim S100001x128 ![] bcast_S_S100001x128 (constant (F := Ideal) S_ FTy.f32 0#32))
            (broadcastInDim S507904x1 ![0] bcast_S507904_S507904x1_0 (X (Proc.devRef .tc main_v6)))
            (X (Proc.devRef .tc main_v37_0)))
          slices_S100001x128_S100000x128_0_0 := by
  dsimp only [hostOps1_2]
  after_results

/-- Rows `n < 100000` of a segment sum into a zero table of 100001 rows, read at `(n, o)`. -/
theorem segRows128_apply (key : Ids 507904) (u : Arr2 507904 128) (n : Fin 100000) (o : Fin 128) :
    extractStridedSlice S100000x128 ![0, 0]
          (Host.scatterAdd scatter_S100001x128_S507904x1_S507904x128_1_0_0_1
            (broadcastInDim S100001x128 ![] bcast_S_S100001x128 (constant (F := Ideal) S_ FTy.f32 0#32))
            (broadcastInDim S507904x1 ![0] bcast_S507904_S507904x1_0 key) u)
          slices_S100001x128_S100000x128_0_0 (ix2 n o)
      = ∑ e ∈ Finset.univ.filter (fun e : Fin 507904 => (key (ix1 e)).toInt = (n.val : ℤ)), u (ix2 e o) := by
  rw [extractStridedSlice_apply _ _ _ (ix2 n o) (ix2 (⟨n.val, by have := n.isLt; omega⟩ : Fin 100001) o)
    (by intro a; match a with | ⟨0, _⟩ => simp | ⟨1, _⟩ => simp)]
  show Ideal.hostScatterAdd scatter_S100001x128_S507904x1_S507904x128_1_0_0_1 _ _ _ _ = _
  rw [Cert.Lib.scatterAdd_rows_apply _ rfl rfl rfl rfl, broadcastInDim_scalar_apply, constant_apply, Ideal.ofBits_zero_f32, zero_add]
  refine Finset.sum_congr ?_ (fun _ _ => rfl)
  congr 1
  funext e
  rw [broadcastInDim_apply _ _ key (ix2 e 0) (ix1 e) (by intro a; match a with | ⟨0, _⟩ => simp)]

/-- The relation stretch and the unit's stretch leave the padded source words and the first region's two edge outputs
    as they were. -/
theorem keep_v6 (X : Valuation τ sig (Elt Ideal)) :
    StableHlo.after hostOps1_1 (StableHlo.after hostOps1 X) (Proc.devRef .tc main_v6) = X (Proc.devRef .tc main_v6) := by
  dsimp only [hostOps1_1, hostOps1]
  after_results
theorem keep_v37_0 (X : Valuation τ sig (Elt Ideal)) :
    StableHlo.after hostOps1_1 (StableHlo.after hostOps1 X) (Proc.devRef .tc main_v37_0) = X (Proc.devRef .tc main_v37_0) := by
  dsimp only [hostOps1_1, hostOps1]
  after_results
theorem keep_v37_1 (X : Valuation τ sig (Elt Ideal)) :
    StableHlo.after hostOps1_1 (StableHlo.after hostOps1 X) (Proc.devRef .tc main_v37_1) = X (Proc.devRef .tc main_v37_1) := by
  dsimp only [hostOps1_1, hostOps1]
  after_results

/-- The second region's second operand as one term over any contents `X`. -/
theorem v61_of (X : Valuation τ sig (Elt Ideal)) :
    (StableHlo.after hostOps1_2 X (Proc.devRef .tc main_v61) : Arr2 100000 1)
      = extractStridedSlice S100000x1 ![0, 0]
          (Host.scatterAdd scatter_S100001x1_S507904x1_S507904x1_1_0_0_1
            (broadcastInDim S100001x1 ![] bcast_S_S100001x1 (constant (F := Ideal) S_ FTy.f32 0#32))
            (broadcastInDim S507904x1 ![0] bcast_S507904_S507904x1_0 (X (Proc.devRef .tc main_v6)))
            (X (Proc.devRef .tc main_v37_1)))
          slices_S100001x1_S100000x1_0_0 := by
  dsimp only [hostOps1_2]
  after_results

/-- Rows `n < 100000` of a one-column segment sum into a zero table of 100001 rows, read at `(n, 0)`. -/
theorem segRows1_apply (key : Ids 507904) (u : Arr2 507904 1) (n : Fin 100000) :
    extractStridedSlice S100000x1 ![0, 0]
          (Host.scatterAdd scatter_S100001x1_S507904x1_S507904x1_1_0_0_1
            (broadcastInDim S100001x1 ![] bcast_S_S100001x1 (constant (F := Ideal) S_ FTy.f32 0#32))
            (broadcastInDim S507904x1 ![0] bcast_S507904_S507904x1_0 key) u)
          slices_S100001x1_S100000x1_0_0 (ix2 n 0)
      = ∑ e ∈ Finset.univ.filter (fun e : Fin 507904 => (key (ix1 e)).toInt = (n.val : ℤ)), u (ix2 e 0) := by
  rw [extractStridedSlice_apply _ _ _ (ix2 n 0) (ix2 (⟨n.val, by have := n.isLt; omega⟩ : Fin 100001) 0)
    (by intro a; match a with | ⟨0, _⟩ => simp | ⟨1, _⟩ => simp)]
  show Ideal.hostScatterAdd scatter_S100001x1_S507904x1_S507904x1_1_0_0_1 _ _ _ _ = _
  rw [Cert.Lib.scatterAdd_rows_apply _ rfl rfl rfl rfl, broadcastInDim_scalar_apply, constant_apply, Ideal.ofBits_zero_f32, zero_add]
  refine Finset.sum_congr ?_ (fun _ _ => rfl)
  congr 1
  funext e
  rw [broadcastInDim_apply _ _ key (ix2 e 0) (ix1 e) (by intro a; match a with | ⟨0, _⟩ => simp)]

/-- The last stretch does not write the padded source words. -/
theorem keep2_v6 (X : Valuation τ sig (Elt Ideal)) :
    StableHlo.after hostOps1_2 X (Proc.devRef .tc main_v6) = X (Proc.devRef .tc main_v6) := by
  dsimp only [hostOps1_2]
  after_results

/-- The second region's first operand: node `n`'s row is the sum of the padded message rows in its segment. -/
theorem nodeIn_apply (n : Fin 100000) (o : Fin 128) :
    nodeInA W (ix2 n o)
      = ∑ e ∈ Finset.univ.filter (fun e : Fin 507904 => (W (Proc.devRef .tc main_v6) (ix1 e)).toInt = (n.val : ℤ)),
          msgA W (ix2 e o) := by
  have h := v57_of (StableHlo.after hostOps1_1 (StableHlo.after hostOps1 W))
  rw [keep_v6, keep_v37_0] at h
  show (StableHlo.after hostOps1_2 (StableHlo.after hostOps1_1 (StableHlo.after hostOps1 W)) (Proc.devRef .tc main_v57)
    : Arr2 100000 128) (ix2 n o) = _
  rw [h]
  exact segRows128_apply _ _ n o

/-- The second region's second operand: node `n`'s entry is the sum of the padded weights in its segment. -/
theorem wgtIn_apply (n : Fin 100000) :
    wgtInA W (ix2 n 0)
      = ∑ e ∈ Finset.univ.filter (fun e : Fin 507904 => (W (Proc.devRef .tc main_v6) (ix1 e)).toInt = (n.val : ℤ)),
          wgtA W (ix2 e 0) := by
  have h := v61_of (StableHlo.after hostOps1_1 (StableHlo.after hostOps1 W))
  rw [keep_v6, keep_v37_1] at h
  show (StableHlo.after hostOps1_2 (StableHlo.after hostOps1_1 (StableHlo.after hostOps1 W)) (Proc.devRef .tc main_v61)
    : Arr2 100000 1) (ix2 n 0) = _
  rw [h]
  exact segRows1_apply _ _ n

/-- The quotient before the unit as one term over any contents `X`: the accumulator's halves added and cut to 500 rows,
    over the relation counts floored at one. -/
theorem v52_of (X : Valuation τ sig (Elt Ideal)) :
    (StableHlo.after hostOps1 X (Proc.devRef .tc main_v52) : Arr2 500 128)
      = Host.divf
          (extractStridedSlice S500x128 ![0, 0]
            (addf (F := Ideal) (φ := .f32)
              (shapeCast S512x128
                (extractStridedSlice S1x512x128 ![0, 0, 0] (X (Proc.devRef .tc main_v37_2)) slices_S2x512x128_S1x512x128_0_0_0)
                shapeCasts_S1x512x128_S512x128)
              (shapeCast S512x128
                (extractStridedSlice S1x512x128 ![1, 0, 0] (X (Proc.devRef .tc main_v37_2)) slices_S2x512x128_S1x512x128_1_0_0)
                shapeCasts_S1x512x128_S512x128))
            slices_S512x128_S500x128_0_0)
          (broadcastInDim S500x128 ![0, 1] bcast_S500x1_S500x128_0_1
            (broadcastInDim S500x1 ![0] bcast_S500_S500x1_0
              (maximumf (F := Ideal) (φ := .f32)
                (Host.scatterAdd scatter_S500_S500000x1_S500000_n_0_0_1
                  (broadcastInDim S500 ![] bcast_S_S500 (constant (F := Ideal) S_ FTy.f32 0#32))
                  (broadcastInDim S500000x1 ![0] bcast_S500000_S500000x1_0 (X (Proc.devRef .tc main_arg8)))
                  (broadcastInDim S500000 ![] bcast_S_S500000 (constant (F := Ideal) S_ FTy.f32 0x3F800000#32)))
                (broadcastInDim S500 ![] bcast_S_S500 (constant (F := Ideal) S_ FTy.f32 0x3F800000#32))))) := by
  dsimp only [hostOps1]
  after_results_simp
  rfl

/-- The second result as one term over any contents `X`: the host's exponential-linear unit of the quotient. -/
theorem v53_of (X : Valuation τ sig (Elt Ideal)) :
    (StableHlo.after hostOps1_1 X (Proc.devRef .tc main_v53) : Arr2 500 128)
      = select
          (cmpf CmpFPredicate.ogt (X (Proc.devRef .tc main_v52) : Arr2 500 128)
            (broadcastInDim S500x128 ![] bcast_S_S500x128 (constant (F := Ideal) S_ FTy.f32 0#32)))
          (X (Proc.devRef .tc main_v52))
          (mulf (F := Ideal) (φ := .f32) (broadcastInDim S500x128 ![] bcast_S_S500x128 (constant (F := Ideal) S_ FTy.f32 0x3F800000#32))
            (Host.expm1
              (select
                (cmpf CmpFPredicate.ogt (X (Proc.devRef .tc main_v52) : Arr2 500 128)
                  (broadcastInDim S500x128 ![] bcast_S_S500x128 (constant (F := Ideal) S_ FTy.f32 0#32)))
                (broadcastInDim S500x128 ![] bcast_S_S500x128 (id (constant (F := Ideal) S_ FTy.f32 0#32)))
                (X (Proc.devRef .tc main_v52))))) := by
  dsimp only [hostOps1_1]
  after_results_simp
  try simp only [StableHlo.TRef.ofBuf, StableHlo.TRef.toBuf, cast_eq]

/-- The last stretch does not write the second result. -/
theorem keep2_v53 (X : Valuation τ sig (Elt Ideal)) :
    StableHlo.after hostOps1_2 X (Proc.devRef .tc main_v53) = X (Proc.devRef .tc main_v53) := by
  dsimp only [hostOps1_2]
  after_results

/-- The accumulator's two halves added and cut to the 500 real relations, read at `(r, o)`. -/
theorem accCut_apply (acc : (⟨3, ![2, 512, 128]⟩ : Shape).Idx → EReal) (r : Fin 500) (o : Fin 128) :
    extractStridedSlice S500x128 ![0, 0]
        (addf (F := Ideal) (φ := .f32)
          (shapeCast S512x128 (extractStridedSlice S1x512x128 ![0, 0, 0] acc slices_S2x512x128_S1x512x128_0_0_0)
            shapeCasts_S1x512x128_S512x128)
          (shapeCast S512x128 (extractStridedSlice S1x512x128 ![1, 0, 0] acc slices_S2x512x128_S1x512x128_1_0_0)
            shapeCasts_S1x512x128_S512x128))
        slices_S512x128_S500x128_0_0 (ix2 r o)
      = acc (ix3 0 ⟨r.val, by have := r.isLt; omega⟩ o) + acc (ix3 1 ⟨r.val, by have := r.isLt; omega⟩ o) := by
  have hr : r.val < 512 := by have := r.isLt; omega
  rw [extractStridedSlice_apply _ _ _ (ix2 r o) (ix2 (⟨r.val, hr⟩ : Fin 512) o)
    (by intro a; match a with | ⟨0, _⟩ => simp | ⟨1, _⟩ => simp)]
  rw [addf_apply]
  rw [shapeCast_apply (extractStridedSlice S1x512x128 ![0, 0, 0] acc slices_S2x512x128_S1x512x128_0_0_0) _
        (ix2 (⟨r.val, hr⟩ : Fin 512) o) (ix3 (0 : Fin 1) (⟨r.val, hr⟩ : Fin 512) o)
        (by rw [Shape.rowMajor_val_three, Shape.rowMajor_val_two]; simp),
      shapeCast_apply (extractStridedSlice S1x512x128 ![1, 0, 0] acc slices_S2x512x128_S1x512x128_1_0_0) _
        (ix2 (⟨r.val, hr⟩ : Fin 512) o) (ix3 (0 : Fin 1) (⟨r.val, hr⟩ : Fin 512) o)
        (by rw [Shape.rowMajor_val_three, Shape.rowMajor_val_two]; simp)]
  rw [extractStridedSlice_apply ![0, 0, 0] acc _ (ix3 (0 : Fin 1) (⟨r.val, hr⟩ : Fin 512) o)
        (ix3 (0 : Fin 2) (⟨r.val, hr⟩ : Fin 512) o)
        (by intro a; match a with | ⟨0, _⟩ => simp | ⟨1, _⟩ => simp | ⟨2, _⟩ => simp),
      extractStridedSlice_apply ![1, 0, 0] acc _ (ix3 (0 : Fin 1) (⟨r.val, hr⟩ : Fin 512) o)
        (ix3 (1 : Fin 2) (⟨r.val, hr⟩ : Fin 512) o)
        (by intro a; match a with | ⟨0, _⟩ => simp | ⟨1, _⟩ => simp | ⟨2, _⟩ => simp)]

/-- The relation counts floored at one, read at `r`: a segment sum of ones keyed by the relation indices. -/
theorem cntMax_apply (rel : Ids 500000) (r : Fin 500) :
    maximumf (F := Ideal) (φ := .f32)
        (Host.scatterAdd scatter_S500_S500000x1_S500000_n_0_0_1
          (broadcastInDim S500 ![] bcast_S_S500 (constant (F := Ideal) S_ FTy.f32 0#32))
          (broadcastInDim S500000x1 ![0] bcast_S500000_S500000x1_0 rel)
          (broadcastInDim S500000 ![] bcast_S_S500000 (constant (F := Ideal) S_ FTy.f32 0x3F800000#32)))
        (broadcastInDim S500 ![] bcast_S_S500 (constant (F := Ideal) S_ FTy.f32 0x3F800000#32)) (ix1 r)
      = max (relCnt rel r) 1 := by
  rw [maximumf_apply, broadcastInDim_scalar_apply, constant_apply, Ideal.ofBits_one_f32]
  refine congrArg (fun t : EReal => max t 1) ?_
  show Ideal.hostScatterAdd scatter_S500_S500000x1_S500000_n_0_0_1 _ _ _ _ = _
  rw [Cert.Lib.scatterAdd_flat_apply _ rfl rfl rfl rfl, broadcastInDim_scalar_apply, constant_apply, Ideal.ofBits_zero_f32, zero_add]
  unfold relCnt inSeg
  refine Finset.sum_congr ?_ (fun e _ => ?_)
  · congr 1
    funext e
    rw [broadcastInDim_apply _ _ rel (ix2 e 0) (ix1 e) (by intro a; match a with | ⟨0, _⟩ => simp)]
  · rw [broadcastInDim_scalar_apply, constant_apply, Ideal.ofBits_one_f32]

/-- The quotient read at `(r, o)`: the row's divisor is the one entry of the floored counts. -/
theorem quot_apply (a : Arr2 500 128) (m : Arr1 500) (r : Fin 500) (o : Fin 128) :
    Host.divf (F := Ideal) (φ := .f32) a
        (broadcastInDim S500x128 ![0, 1] bcast_S500x1_S500x128_0_1 (broadcastInDim S500x1 ![0] bcast_S500_S500x1_0 m)) (ix2 r o)
      = Ideal.div (a (ix2 r o)) (m (ix1 r)) := by
  rw [hostDivf_apply,
    broadcastInDim_apply _ _ (broadcastInDim S500x1 ![0] bcast_S500_S500x1_0 m) (ix2 r o) (ix2 r (0 : Fin 1))
      (by intro a; match a with | ⟨0, _⟩ => simp | ⟨1, _⟩ => simp),
    broadcastInDim_apply _ _ m (ix2 r (0 : Fin 1)) (ix1 r) (by intro a; match a with | ⟨0, _⟩ => simp)]

/-- The host's exponential-linear unit, `select (x > 0) x (1 * expm1 (select (x > 0) 0 x))`, read at an index: where
    the comparison holds both sides are `x`; where it fails the inner selection returns `x` and `expm1 x = exp x - 1`. -/
theorem eluHost_apply (x : Arr2 500 128) (i : S500x128.Idx) :
    select
        (cmpf CmpFPredicate.ogt x (broadcastInDim S500x128 ![] bcast_S_S500x128 (constant (F := Ideal) S_ FTy.f32 0#32)))
        x
        (mulf (F := Ideal) (φ := .f32) (broadcastInDim S500x128 ![] bcast_S_S500x128 (constant (F := Ideal) S_ FTy.f32 0x3F800000#32))
          (Host.expm1
            (select
              (cmpf CmpFPredicate.ogt x (broadcastInDim S500x128 ![] bcast_S_S500x128 (constant (F := Ideal) S_ FTy.f32 0#32)))
              (broadcastInDim S500x128 ![] bcast_S_S500x128 (id (constant (F := Ideal) S_ FTy.f32 0#32)))
              x))) i
      = elu (x i) := by
  show Scalar.select (Ideal.cmp .ogt (x i) (Ideal.ofBits .f32 0#32)) (x i)
      (Ideal.ofBits .f32 0x3F800000#32
        * (Ideal.exp (Scalar.select (Ideal.cmp .ogt (x i) (Ideal.ofBits .f32 0#32)) (Ideal.ofBits .f32 0#32) (x i)) - 1))
    = elu (x i)
  unfold elu
  rw [Ideal.ofBits_one_f32, one_mul]
  rcases BitVec.eq_zero_or_eq_one (Ideal.cmp .ogt (x i) (Ideal.ofBits .f32 0#32)) with h | h
  · rw [h]; simp only [select_zero]
  · rw [h]; simp only [select_one]

/-- The second result: the two halves' accumulators added, over the relation's count floored at one, through the
    exponential-linear unit. -/
theorem rel_apply (r : Fin 500) (o : Fin 128) :
    relOutA W (ix2 r o)
      = elu (Ideal.div
          (accA W (ix3 0 ⟨r.val, by have := r.isLt; omega⟩ o) + accA W (ix3 1 ⟨r.val, by have := r.isLt; omega⟩ o))
          (max (relCnt (W (Proc.devRef .tc main_arg8)) r) 1)) := by
  have h52 := v52_of W
  have h53 := v53_of (StableHlo.after hostOps1 W)
  show (StableHlo.after hostOps1_2 (StableHlo.after hostOps1_1 (StableHlo.after hostOps1 W)) (Proc.devRef .tc main_v53)
    : Arr2 500 128) (ix2 r o) = _
  rw [keep2_v53, h53, eluHost_apply, h52, quot_apply, accCut_apply, cntMax_apply]

/-- The padded segment keys are computed before the first region and no later host operation writes them. -/
theorem seg_eq : W5of W (Proc.devRef .tc main_v6) = W (Proc.devRef .tc main_v6) := by
  show StableHlo.after hostOps1_2 (StableHlo.after hostOps1_1 (StableHlo.after hostOps1 W)) (Proc.devRef .tc main_v6) = _
  rw [keep2_v6, keep_v6]

end Cert.KernelIdeal.Host1

end
-- ==== Proof.BridgeMath.lean ====
/-
  The kernel's arrangement of the sums computes the same numbers as the plain one, given how its operand arrays are
  made and given every relation index inside `[0, 500)`.

  The kernel's operands are: source and destination rows gathered at the edge indices padded with zeros; relation
  indices padded with the word 500; the first two 128-column blocks of the weight, transposed; the relation table
  projected through the third block and padded with zero rows to 512; the bias, score row and score offset as rows.
  For a real edge the one-hot column of its relation index selects the projected row of that relation, which is the
  third block's sum, so the pre-activation is the plain one up to the order of the four summands; score, weight and
  message follow. A padded edge carries the segment word 100000 and the relation word 500: it is in no node's segment and
  in no relation's below 500, so the padded segment sums are the plain ones; and the two halves' tile-by-tile sums cover
  every padded edge exactly once.
-/
import proofs.«408672_j49082886259209_3_alg».proof.Proof.KSpec
import Mathlib.Algebra.BigOperators.Fin

noncomputable section

open scoped BigOperators

namespace Cert.BridgeMath

open Idealize.ShloMosaic Idealize.ShloMosaic.ValueIdx Cert.Spec Cert.KSpec

/-! ## Index words -/

/-- A word below 2³¹ built from a natural number reads that number signed. -/
theorem toInt_ofNat_small (a : ℕ) (ha : a < 2 ^ 31) : (BitVec.ofNat 32 a).toInt = (a : ℤ) := by
  rw [BitVec.toInt_eq_msb_cond, BitVec.msb_eq_false_iff_two_mul_lt.mpr (by simp [BitVec.toNat_ofNat]; omega)]
  simp [BitVec.toNat_ofNat]; omega

/-- The word of a one-hot row below 512 is the index word exactly when the index word reads that row signed. -/
theorem ofNat_eq_iff (r : Fin 512) (i : BitVec 32) : BitVec.ofNat 32 r.val = i ↔ i.toInt = (r.val : ℤ) := by
  have hr := r.isLt
  constructor
  · intro h; rw [← h]; exact toInt_ofNat_small _ (by omega)
  · intro h; apply BitVec.eq_of_toInt_eq; rw [toInt_ofNat_small _ (by omega)]; exact h.symm

/-- The one-hot entry in terms of the index word's signed value. -/
theorem hot_eq (r : Fin 512) (i : BitVec 32) : hot r i = if i.toInt = (r.val : ℤ) then 1 else 0 := by
  unfold hot
  by_cases h : i.toInt = (r.val : ℤ)
  · rw [if_pos h, if_pos ((ofNat_eq_iff r i).mpr h)]
  · rw [if_neg h, if_neg (fun h' => h ((ofNat_eq_iff r i).mp h'))]

/-- A one-hot column of an index word inside `[0, 512)` selects exactly the entry at that index. -/
theorem hot_sum (i : BitVec 32) (h0 : 0 ≤ i.toInt) (h1 : i.toInt < 512) (f : Fin 512 → EReal) :
    ∑ r : Fin 512, hot r i * f r = f ⟨i.toInt.toNat, by omega⟩ := by
  rw [Finset.sum_eq_single (⟨i.toInt.toNat, by omega⟩ : Fin 512)]
  · rw [hot_eq, if_pos (by show i.toInt = ((i.toInt.toNat : ℕ) : ℤ); omega), one_mul]
  · intro r _ hr
    rw [hot_eq, if_neg, zero_mul]
    intro h; apply hr; apply Fin.ext; show r.val = i.toInt.toNat; omega
  · intro h; exact absurd (Finset.mem_univ _) h

/-! ## Padded index arrays -/

/-- A padded index array at a real edge holds that edge's index. -/
theorem padIdx_lift (ids : Ids 500000) (fill : BitVec 32) (e : Fin 500000) : padIdx ids fill (lift e) = ids (ix1 e) := by
  unfold padIdx lift
  rw [dif_pos e.isLt]

/-- A padded index array past the real edges holds the filling word. -/
theorem padIdx_pad (ids : Ids 500000) (fill : BitVec 32) (e : Fin 507904) (h : ¬ e.val < 500000) : padIdx ids fill e = fill := by
  unfold padIdx
  rw [dif_neg h]

/-- A sum over the padded edges whose index word reads `n`, where the filling word does not read `n`, is the sum over
    the real edges of that segment. -/
theorem sum_pad (key : Ids 500000) (fill : BitVec 32) (n : ℕ) (hfill : fill.toInt ≠ (n : ℤ))
    (f : Fin 507904 → EReal) (g : Fin 500000 → EReal) (hfg : ∀ e, f (lift e) = g e) :
    ∑ e ∈ Finset.univ.filter (fun e : Fin 507904 => (padIdx key fill e).toInt = (n : ℤ)), f e = ∑ e ∈ inSeg key n, g e := by
  symm
  unfold inSeg
  refine Finset.sum_bij (fun e _ => lift e) ?_ ?_ ?_ ?_
  · intro e he
    rw [Finset.mem_filter] at he ⊢
    exact ⟨Finset.mem_univ _, by rw [padIdx_lift]; exact he.2⟩
  · intro a _ b _ hab
    apply Fin.ext
    have := congrArg Fin.val hab
    exact this
  · intro b hb
    rw [Finset.mem_filter] at hb
    have hlt : b.val < 500000 := by
      by_contra hlt
      rw [padIdx_pad key fill b hlt] at hb
      exact hfill hb.2
    refine ⟨⟨b.val, hlt⟩, ?_, ?_⟩
    · rw [Finset.mem_filter]
      refine ⟨Finset.mem_univ _, ?_⟩
      have := hb.2
      unfold padIdx at this
      rw [dif_pos hlt] at this
      exact this
    · rfl
  · intro e _
    exact (hfg e).symm

/-! ## The two halves' tiles cover every padded edge once -/

/-- Half, tile and row of a padded edge. -/
def edgeEquiv : Fin 2 × Fin 62 × Fin 4096 ≃ Fin 507904 where
  toFun p := edgeAt p.1 p.2.1 p.2.2
  invFun e := (⟨e.val / 253952, by have := e.isLt; omega⟩, ⟨e.val / 4096 % 62, by omega⟩, ⟨e.val % 4096, by omega⟩)
  left_inv := by
    rintro ⟨h, i, j⟩
    have := h.isLt; have := i.isLt; have := j.isLt
    refine Prod.ext (Fin.ext ?_) (Prod.ext (Fin.ext ?_) (Fin.ext ?_))
    · show ((h.val * 62 + i.val) * 4096 + j.val) / 253952 = h.val; omega
    · show ((h.val * 62 + i.val) * 4096 + j.val) / 4096 % 62 = i.val; omega
    · show ((h.val * 62 + i.val) * 4096 + j.val) % 4096 = j.val; omega
  right_inv := by
    intro e
    have := e.isLt
    apply Fin.ext
    show ((e.val / 253952) * 62 + e.val / 4096 % 62) * 4096 + e.val % 4096 = e.val
    omega

/-- A sum over half, tile and row is the sum over the padded edges. -/
theorem sum_edgeAt (F : Fin 507904 → EReal) :
    ∑ h : Fin 2, ∑ i : Fin 62, ∑ j : Fin 4096, F (edgeAt h i j) = ∑ e : Fin 507904, F e := by
  rw [← Equiv.sum_comp edgeEquiv F, Fintype.sum_prod_type]
  refine Finset.sum_congr rfl fun h _ => ?_
  rw [Fintype.sum_prod_type]
  rfl

variable (ent : Arr2 100000 128) (relE : Arr2 500 128) (aw : Arr2 128 384) (ab : Arr1 128) (a2w : Arr2 1 128) (a2b : Arr1 1)
  (src dst rel : Ids 500000)
  (hs hd : Arr2 507904 128) (rid : Ids 507904) (w1 w2 : Arr2 128 128) (rp : Arr2 512 128)
  (abr a2wr : Arr2 1 128) (a2br : Arr2 1 1)
  (Hhs : ∀ (e : Fin 507904) (k : Fin 128), hs (ix2 e k) = entRow ent (padIdx src 0#32 e) k)
  (Hhd : ∀ (e : Fin 507904) (k : Fin 128), hd (ix2 e k) = entRow ent (padIdx dst 0#32 e) k)
  (Hrid : ∀ e : Fin 507904, rid (ix1 e) = padIdx rel 500#32 e)
  (Hw1 : ∀ k o : Fin 128, w1 (ix2 k o) = aw (ix2 o ⟨k.val, by have := k.isLt; omega⟩))
  (Hw2 : ∀ k o : Fin 128, w2 (ix2 k o) = aw (ix2 o ⟨128 + k.val, by have := k.isLt; omega⟩))
  (Hrp : ∀ (r : Fin 512) (o : Fin 128), rp (ix2 r o)
      = if h : r.val < 500 then ∑ k : Fin 128, relE (ix2 ⟨r.val, h⟩ k) * aw (ix2 o ⟨256 + k.val, by have := k.isLt; omega⟩) else 0)
  (Habr : ∀ o : Fin 128, abr (ix2 0 o) = ab (ix1 o))
  (Ha2w : ∀ o : Fin 128, a2wr (ix2 0 o) = a2w (ix2 0 o))
  (Ha2b : a2br (ix2 0 0) = a2b (ix1 0))
  (Hrel : ∀ e : Fin 500000, 0 ≤ (rel (ix1 e)).toInt ∧ (rel (ix1 e)).toInt < 500)

include Hhs Hhd Hrid Hw1 Hw2 Hrp Habr Hrel in
/-- A real edge's pre-activation in the kernel's arrangement is the plain one. -/
theorem pre_eq (e : Fin 500000) (o : Fin 128) :
    KSpec.pre hs hd rid w1 w2 rp abr (lift e) o = Spec.pre ent relE aw ab src dst rel e o := by
  unfold KSpec.pre Spec.pre
  -- the source rows against the first block
  have h1 : ∑ k : Fin 128, hs (ix2 (lift e) k) * w1 (ix2 k o)
      = ∑ k : Fin 128, entRow ent (src (ix1 e)) k * aw (ix2 o ⟨k.val, by have := k.isLt; omega⟩) :=
    Finset.sum_congr rfl fun k _ => by rw [Hhs, Hw1, padIdx_lift]
  -- the destination rows against the second block
  have h2 : ∑ k : Fin 128, hd (ix2 (lift e) k) * w2 (ix2 k o)
      = ∑ k : Fin 128, entRow ent (dst (ix1 e)) k * aw (ix2 o ⟨128 + k.val, by have := k.isLt; omega⟩) :=
    Finset.sum_congr rfl fun k _ => by rw [Hhd, Hw2, padIdx_lift]
  -- the one-hot column selects the projected row of the edge's relation, which is the third block's sum
  have h3 : ∑ r : Fin 512, hot r (rid (ix1 (lift e))) * rp (ix2 r o)
      = ∑ k : Fin 128, relRow relE (rel (ix1 e)) k * aw (ix2 o ⟨256 + k.val, by have := k.isLt; omega⟩) := by
    obtain ⟨r0, r1⟩ := Hrel e
    rw [Hrid, padIdx_lift, hot_sum (rel (ix1 e)) r0 (by omega) (fun r => rp (ix2 r o))]
    show rp (ix2 ⟨(rel (ix1 e)).toInt.toNat, _⟩ o) = _
    rw [Hrp, dif_pos (by show (rel (ix1 e)).toInt.toNat < 500; omega)]
    refine Finset.sum_congr rfl fun k _ => ?_
    unfold relRow
    have hrow : (⟨rowOf 500 (rel (ix1 e)), rowOf_lt (by decide) (rel (ix1 e))⟩ : Fin 500)
        = ⟨(rel (ix1 e)).toInt.toNat, by omega⟩ := Fin.ext (rowOf_of_mem (rel (ix1 e)) r0 (by exact_mod_cast r1))
    rw [hrow]
  rw [h1, h2, h3, Habr, add_right_comm]

include Hhs Hhd Hrid Hw1 Hw2 Hrp Habr Ha2w Ha2b Hrel in
/-- A real edge's attention weight in the kernel's arrangement is the plain one. -/
theorem wgt_eq (e : Fin 500000) :
    KSpec.wgt hs hd rid w1 w2 rp abr a2wr a2br (lift e) = Spec.wgt ent relE aw ab a2w a2b src dst rel e := by
  unfold KSpec.wgt Spec.wgt KSpec.score Spec.score
  have h : ∑ o : Fin 128, KSpec.pre hs hd rid w1 w2 rp abr (lift e) o * a2wr (ix2 0 o)
      = ∑ o : Fin 128, Spec.pre ent relE aw ab src dst rel e o * a2w (ix2 0 o) :=
    Finset.sum_congr rfl fun o _ => by
      rw [pre_eq ent relE aw ab src dst rel hs hd rid w1 w2 rp abr Hhs Hhd Hrid Hw1 Hw2 Hrp Habr Hrel, Ha2w]
  rw [h, Ha2b]

include Hhs Hhd Hrid Hw1 Hw2 Hrp Habr Ha2w Ha2b Hrel in
/-- A real edge's message in the kernel's arrangement is the plain one. -/
theorem msg_eq (e : Fin 500000) (o : Fin 128) :
    KSpec.msg hs hd rid w1 w2 rp abr a2wr a2br (lift e) o = Spec.msg ent relE aw ab a2w a2b src dst rel e o := by
  unfold KSpec.msg Spec.msg
  rw [wgt_eq ent relE aw ab a2w a2b src dst rel hs hd rid w1 w2 rp abr a2wr a2br Hhs Hhd Hrid Hw1 Hw2 Hrp Habr Ha2w Ha2b Hrel,
    pre_eq ent relE aw ab src dst rel hs hd rid w1 w2 rp abr Hhs Hhd Hrid Hw1 Hw2 Hrp Habr Hrel]

/-- The segment word of the padding reads 100000. -/
theorem toInt_fill_node : (100000#32 : BitVec 32).toInt = 100000 := by decide

/-- The relation word of the padding reads 500. -/
theorem toInt_fill_rel : (500#32 : BitVec 32).toInt = 500 := by decide

include Hhs Hhd Hrid Hw1 Hw2 Hrp Habr Ha2w Ha2b Hrel in
/-- The messages of the padded edges in node `n`'s segment (padding carries the word 100000, no node's) sum to the
    node's plain aggregate. -/
theorem nodeSum_eq (n : Fin 100000) (o : Fin 128) :
    ∑ e ∈ Finset.univ.filter (fun e : Fin 507904 => (padIdx src 100000#32 e).toInt = (n.val : ℤ)), KSpec.msg hs hd rid w1 w2 rp abr a2wr a2br e o
      = Spec.nodeSum ent relE aw ab a2w a2b src dst rel n o := by
  unfold Spec.nodeSum
  refine sum_pad src 100000#32 n.val ?_ _ _ fun e => ?_
  · rw [toInt_fill_node]; have := n.isLt; omega
  · exact msg_eq ent relE aw ab a2w a2b src dst rel hs hd rid w1 w2 rp abr a2wr a2br Hhs Hhd Hrid Hw1 Hw2 Hrp Habr Ha2w Ha2b Hrel e o

include Hhs Hhd Hrid Hw1 Hw2 Hrp Habr Ha2w Ha2b Hrel in
/-- The weights of the padded edges in node `n`'s segment sum to the node's plain aggregate weight. -/
theorem nodeWgt_eq (n : Fin 100000) :
    ∑ e ∈ Finset.univ.filter (fun e : Fin 507904 => (padIdx src 100000#32 e).toInt = (n.val : ℤ)), KSpec.wgt hs hd rid w1 w2 rp abr a2wr a2br e
      = Spec.nodeWgt ent relE aw ab a2w a2b src dst rel n := by
  unfold Spec.nodeWgt
  refine sum_pad src 100000#32 n.val ?_ _ _ fun e => ?_
  · rw [toInt_fill_node]; have := n.isLt; omega
  · exact wgt_eq ent relE aw ab a2w a2b src dst rel hs hd rid w1 w2 rp abr a2wr a2br Hhs Hhd Hrid Hw1 Hw2 Hrp Habr Ha2w Ha2b Hrel e

include Hhs Hhd Hrid Hw1 Hw2 Hrp Habr Ha2w Ha2b Hrel in
/-- The two halves' accumulated messages for a relation below 500 add up to the relation's plain aggregate. -/
theorem relSum_eq (r : Fin 500) (o : Fin 128) :
    KSpec.halfRel hs hd rid w1 w2 rp abr a2wr a2br 0 ⟨r.val, by have := r.isLt; omega⟩ o + KSpec.halfRel hs hd rid w1 w2 rp abr a2wr a2br 1 ⟨r.val, by have := r.isLt; omega⟩ o
      = Spec.relSum ent relE aw ab a2w a2b src dst rel r o := by
  have hr := r.isLt
  -- the two halves' tiles together are one sum over the padded edges
  have hcover : KSpec.halfRel hs hd rid w1 w2 rp abr a2wr a2br 0 ⟨r.val, by omega⟩ o + KSpec.halfRel hs hd rid w1 w2 rp abr a2wr a2br 1 ⟨r.val, by omega⟩ o
      = ∑ e : Fin 507904, hot ⟨r.val, by omega⟩ (rid (ix1 e)) * KSpec.msg hs hd rid w1 w2 rp abr a2wr a2br e o := by
    rw [← sum_edgeAt (fun e => hot ⟨r.val, by omega⟩ (rid (ix1 e)) * KSpec.msg hs hd rid w1 w2 rp abr a2wr a2br e o), Fin.sum_univ_two]
    rfl
  rw [hcover]
  -- the one-hot entry keeps exactly the padded edges whose relation word reads `r`
  have hsel : ∀ e : Fin 507904, hot ⟨r.val, by omega⟩ (rid (ix1 e)) * KSpec.msg hs hd rid w1 w2 rp abr a2wr a2br e o
      = if (padIdx rel 500#32 e).toInt = (r.val : ℤ) then KSpec.msg hs hd rid w1 w2 rp abr a2wr a2br e o else 0 := by
    intro e
    rw [hot_eq, Hrid]
    show (if (padIdx rel 500#32 e).toInt = (r.val : ℤ) then (1 : EReal) else 0) * _ = _
    rw [ite_mul, one_mul, zero_mul]
  rw [Finset.sum_congr rfl fun e _ => hsel e, ← Finset.sum_filter]
  unfold Spec.relSum
  refine sum_pad rel 500#32 r.val ?_ _ _ fun e => ?_
  · rw [toInt_fill_rel]; omega
  · exact msg_eq ent relE aw ab a2w a2b src dst rel hs hd rid w1 w2 rp abr a2wr a2br Hhs Hhd Hrid Hw1 Hw2 Hrp Habr Ha2w Ha2b Hrel e o

end Cert.BridgeMath

end
-- ==== Proof.KValue.lean ====
/-
  The idealized kernel's two result buffers at the end of its run, read at an index, are the plain mathematics of
  `Spec.lean` of the launch arguments — provided every relation index is inside `[0, 500)`.

  The run's last boundary holds, for the first result, the second region's output array: row `n` is the unit of the
  node's summed messages over its guarded summed weights (the second region), which are segment sums over the padded edges
  keyed by the padded source words (the host operations between the regions) of the first region's message and weight
  arrays (the first region), whose operands are the gathered rows, padded relation words, transposed weight blocks and
  projected relation table the first host operations make from the arguments. The sums' rearrangement is
  `BridgeMath`. The second result is the unit of the two halves' accumulators added, over the relation's count floored
  at one.
-/
import proofs.«408672_j49082886259209_3_alg».proof.Proof.KernelRun
import proofs.«408672_j49082886259209_3_alg».proof.Proof.KRegion0
import proofs.«408672_j49082886259209_3_alg».proof.Proof.KRegion1
import proofs.«408672_j49082886259209_3_alg».proof.Proof.KHost0
import proofs.«408672_j49082886259209_3_alg».proof.Proof.KHost1
import proofs.«408672_j49082886259209_3_alg».proof.Proof.BridgeMath

set_option maxRecDepth 16384

noncomputable section

open scoped BigOperators

namespace Cert.KernelIdeal.Value

open Idealize.ShloMosaic Idealize.ShloMosaic.TcCoe Idealize.ShloMosaic.ValueIdx Idealize.SL.Sem
open Cert.KernelIdeal Cert.KernelIdeal.Gen Cert.Spec Cert.KSpec

variable (m : (ℓ : Loc nD τ sig) → Buf (Elt Ideal) ℓ) (ρ : Dev nD → PrngReg) (c : Dev nD)

/-- The nine launch arguments at their literal types. -/
abbrev argA0 : Arr2 100000 128 := m ((c.tc : Thread nD τ).loc main_arg0)
abbrev argA1 : Arr2 500 128 := m ((c.tc : Thread nD τ).loc main_arg1)
abbrev argA2 : Arr2 128 384 := m ((c.tc : Thread nD τ).loc main_arg2)
abbrev argA3 : Arr1 128 := m ((c.tc : Thread nD τ).loc main_arg3)
abbrev argA4 : Arr2 1 128 := m ((c.tc : Thread nD τ).loc main_arg4)
abbrev argA5 : Arr1 1 := m ((c.tc : Thread nD τ).loc main_arg5)
abbrev argA6 : Ids 500000 := m ((c.tc : Thread nD τ).loc main_arg6)
abbrev argA7 : Ids 500000 := m ((c.tc : Thread nD τ).loc main_arg7)
abbrev argA8 : Ids 500000 := m ((c.tc : Thread nD τ).loc main_arg8)

/-- The two result buffers at the run's last boundary, at their literal types. -/
abbrev res0 : Arr2 100000 128 := W6 m ρ c (Proc.devRef .tc main_v62)
abbrev res1 : Arr2 500 128 := W6 m ρ c (Proc.devRef .tc main_v53)

/-- The first region's nine operand arrays, at their literal types. -/
abbrev hsA : Arr2 507904 128 := V1 m ρ c main_v14
abbrev hdA : Arr2 507904 128 := V1 m ρ c main_v21
abbrev ridA : Ids 507904 := V1 m ρ c main_v4
abbrev w1A : Arr2 128 128 := V1 m ρ c main_v24
abbrev w2A : Arr2 128 128 := V1 m ρ c main_v27
abbrev rpA : Arr2 512 128 := V1 m ρ c main_v34
abbrev abrA : Arr2 1 128 := V1 m ρ c main_v35
abbrev a2wrA : Arr2 1 128 := V1 m ρ c main_arg4
abbrev a2brA : Arr2 1 1 := V1 m ρ c main_v36

section
variable (Hrel : ∀ e : Fin 500000, 0 ≤ (argA8 m c (ix1 e)).toInt ∧ (argA8 m c (ix1 e)).toInt < 500)

/-- The padded segment keys at the first region's exit are the source words padded with 100000. -/
theorem key_eq (e : Fin 507904) :
    W2 m ρ c (Proc.devRef .tc main_v6) (ix1 e) = padIdx (argA6 m c) 100000#32 e := by
  rw [W2_of_ne m ρ c main_v6 (by decide)]
  exact Host0.seg_apply (W0 m ρ c) e

/-- The relation index argument is still as launched at the first region's exit. -/
theorem rel_eq : W2 m ρ c (Proc.devRef .tc main_arg8) = argA8 m c := by
  rw [W2_of_ne m ρ c main_arg8 (by decide)]
  exact Host0.arg8_eq (W0 m ρ c)

/-- The first region's message array at its exit. -/
theorem msg_eq (e : Fin 507904) (o : Fin 128) :
    Host1.msgA (W2 m ρ c) (ix2 e o)
      = KSpec.msg (hsA m ρ c) (hdA m ρ c) (ridA m ρ c) (w1A m ρ c) (w2A m ρ c) (rpA m ρ c) (abrA m ρ c) (a2wrA m ρ c) (a2brA m ρ c) e o := by
  show W2 m ρ c (Proc.devRef .tc (Pipeline.arrRef spec0 9)) (ix2 e o) = _
  rw [W2_arr m ρ c 9]
  exact Region0.arr9_apply (V1 m ρ) c e o

/-- The first region's weight array at its exit. -/
theorem wgt_eq (e : Fin 507904) :
    Host1.wgtA (W2 m ρ c) (ix2 e 0)
      = KSpec.wgt (hsA m ρ c) (hdA m ρ c) (ridA m ρ c) (w1A m ρ c) (w2A m ρ c) (rpA m ρ c) (abrA m ρ c) (a2wrA m ρ c) (a2brA m ρ c) e := by
  show W2 m ρ c (Proc.devRef .tc (Pipeline.arrRef spec0 10)) (ix2 e 0) = _
  rw [W2_arr m ρ c 10]
  exact Region0.arr10_apply (V1 m ρ) c e

/-- The first region's accumulator array at its exit. -/
theorem acc_eq (h : Fin 2) (r : Fin 512) (o : Fin 128) :
    Host1.accA (W2 m ρ c) (ix3 h r o)
      = KSpec.halfRel (hsA m ρ c) (hdA m ρ c) (ridA m ρ c) (w1A m ρ c) (w2A m ρ c) (rpA m ρ c) (abrA m ρ c) (a2wrA m ρ c) (a2brA m ρ c) h r o := by
  show W2 m ρ c (Proc.devRef .tc (Pipeline.arrRef spec0 11)) (ix3 h r o) = _
  rw [W2_arr m ρ c 11]
  exact Region0.arr11_apply (V1 m ρ) c h r o

include Hrel in
/-- THE FIRST RESULT at the end of the run. -/
theorem res0_apply (n : Fin 100000) (o : Fin 128) :
    res0 m ρ c (ix2 n o) = Spec.hEnt (argA0 m c) (argA1 m c) (argA2 m c) (argA3 m c) (argA4 m c) (argA5 m c) (argA6 m c) (argA7 m c) (argA8 m c) n o := by
  show W6 m ρ c (Proc.devRef .tc (Pipeline.arrRef spec1 2)) (ix2 n o) = _
  rw [W6_arr m ρ c 2, Region1.arr2_apply (V5 m ρ) c n o]
  unfold Spec.hEnt
  have hnum : (V5 m ρ c main_v57 : Arr2 100000 128) (ix2 n o) = Spec.nodeSum (argA0 m c) (argA1 m c) (argA2 m c) (argA3 m c) (argA4 m c) (argA5 m c) (argA6 m c) (argA7 m c) (argA8 m c) n o := by
    show Host1.nodeInA (W2 m ρ c) (ix2 n o) = _
    rw [Host1.nodeIn_apply]
    simp only [key_eq m ρ c, msg_eq m ρ c]
    exact BridgeMath.nodeSum_eq (argA0 m c) (argA1 m c) (argA2 m c) (argA3 m c) (argA4 m c) (argA5 m c) (argA6 m c) (argA7 m c) (argA8 m c) _ _ _ _ _ _ _ _ _
      (fun e k => Host0.hs_apply (W0 m ρ c) e k) (fun e k => Host0.hd_apply (W0 m ρ c) e k)
      (fun e => Host0.rid_apply (W0 m ρ c) e) (fun k o => Host0.w1_apply (W0 m ρ c) k o)
      (fun k o => Host0.w2_apply (W0 m ρ c) k o) (fun r o => Host0.rp_apply (W0 m ρ c) r o)
      (fun o => Host0.abr_apply (W0 m ρ c) o) (fun o => congrFun (Host0.a2wr_eq (W0 m ρ c)) (ix2 0 o))
      (Host0.a2br_apply (W0 m ρ c)) Hrel n o
  have hden : (V5 m ρ c main_v61 : Arr2 100000 1) (ix2 n 0) = Spec.nodeWgt (argA0 m c) (argA1 m c) (argA2 m c) (argA3 m c) (argA4 m c) (argA5 m c) (argA6 m c) (argA7 m c) (argA8 m c) n := by
    show Host1.wgtInA (W2 m ρ c) (ix2 n 0) = _
    rw [Host1.wgtIn_apply]
    simp only [key_eq m ρ c, wgt_eq m ρ c]
    exact BridgeMath.nodeWgt_eq (argA0 m c) (argA1 m c) (argA2 m c) (argA3 m c) (argA4 m c) (argA5 m c) (argA6 m c) (argA7 m c) (argA8 m c) _ _ _ _ _ _ _ _ _
      (fun e k => Host0.hs_apply (W0 m ρ c) e k) (fun e k => Host0.hd_apply (W0 m ρ c) e k)
      (fun e => Host0.rid_apply (W0 m ρ c) e) (fun k o => Host0.w1_apply (W0 m ρ c) k o)
      (fun k o => Host0.w2_apply (W0 m ρ c) k o) (fun r o => Host0.rp_apply (W0 m ρ c) r o)
      (fun o => Host0.abr_apply (W0 m ρ c) o) (fun o => congrFun (Host0.a2wr_eq (W0 m ρ c)) (ix2 0 o))
      (Host0.a2br_apply (W0 m ρ c)) Hrel n
  rw [hnum, hden]

include Hrel in
/-- THE SECOND RESULT at the end of the run. -/
theorem res1_apply (r : Fin 500) (o : Fin 128) :
    res1 m ρ c (ix2 r o) = Spec.hRel (argA0 m c) (argA1 m c) (argA2 m c) (argA3 m c) (argA4 m c) (argA5 m c) (argA6 m c) (argA7 m c) (argA8 m c) r o := by
  show W6 m ρ c (Proc.devRef .tc main_v53) (ix2 r o) = _
  rw [W6_of_ne m ρ c main_v53 (by decide)]
  show Host1.relOutA (W2 m ρ c) (ix2 r o) = _
  rw [Host1.rel_apply, rel_eq m ρ c, acc_eq m ρ c, acc_eq m ρ c]
  unfold Spec.hRel
  rw [BridgeMath.relSum_eq (argA0 m c) (argA1 m c) (argA2 m c) (argA3 m c) (argA4 m c) (argA5 m c) (argA6 m c) (argA7 m c) (argA8 m c) _ _ _ _ _ _ _ _ _
      (fun e k => Host0.hs_apply (W0 m ρ c) e k) (fun e k => Host0.hd_apply (W0 m ρ c) e k)
      (fun e => Host0.rid_apply (W0 m ρ c) e) (fun k o => Host0.w1_apply (W0 m ρ c) k o)
      (fun k o => Host0.w2_apply (W0 m ρ c) k o) (fun r o => Host0.rp_apply (W0 m ρ c) r o)
      (fun o => Host0.abr_apply (W0 m ρ c) o) (fun o => congrFun (Host0.a2wr_eq (W0 m ρ c)) (ix2 0 o))
      (Host0.a2br_apply (W0 m ρ c)) Hrel r o]

end

end Cert.KernelIdeal.Value

end
-- ==== Proof.RefTerms.lean ====
/-
  The reference's two results as terms of its nine arguments: its host operations composed, in its own order.

  Gather the source, destination and relation rows (a negative index counting from the end), concatenate them, multiply
  by the transposed weight and add the bias (`cT`); the score is that against the transposed score row plus the offset,
  through the leaky rectifier; the weight is its exponential (`wT`) and the message the weight times the
  pre-activation (`mT`). The first result divides the source-keyed segment sum of the messages by that of the weights,
  an exactly zero weight replaced by the guard constant, and applies the exponential-linear unit; the second divides the
  relation-keyed segment sum of the messages by the relation's count floored at one, and applies the unit.
-/
import proofs.«408672_j49082886259209_3_alg».proof.ReferenceIdeal
import proofs.«408672_j49082886259209_3_alg».proof.Proof.Spec

noncomputable section

namespace Cert.ReferenceIdeal.Terms

open Idealize.ShloMosaic Idealize.SL.Sem Cert.ReferenceIdeal
open Cert.ReferenceIdeal.Facts₀ Cert.ReferenceIdeal.Facts

variable [Facts]

/-- An index vector with its negative entries counted from the end of an axis of extent `n`, as a column. -/
def wrapCol (n : BitVec 32) (i : IVec S500000 32) : IVec S500000x1 32 :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 n))) i)

/-- An index vector as a column (the segment keys of a scatter). -/
def keyCol (i : IVec S500000 32) : IVec S500000x1 32 := broadcastInDim S500000x1 ![0] bcast_S500000_S500000x1_0 i

section
variable (ent : FVec Ideal S100000x128 .f32) (relE : FVec Ideal S500x128 .f32) (aw : FVec Ideal S128x384 .f32)
  (ab : FVec Ideal S128 .f32) (a2w : FVec Ideal S1x128 .f32) (a2b : FVec Ideal S1 .f32) (src dst rel : IVec S500000 32)

/-- The three gathered rows side by side. -/
def hT : FVec Ideal S500000x384 .f32 :=
  concatenate S500000x384 1
    [⟨S500000x128, Host.gather gather_S100000x128_S500000x1_S500000x128_1_0_n_n_0_1_1128 ent (wrapCol 100000#32 src)⟩,
     ⟨S500000x128, Host.gather gather_S100000x128_S500000x1_S500000x128_1_0_n_n_0_1_1128 ent (wrapCol 100000#32 dst)⟩,
     ⟨S500000x128, Host.gather gather_S500x128_S500000x1_S500000x128_1_0_n_n_0_1_1128 relE (wrapCol 500#32 rel)⟩]
    concatenates_S500000x128_S500000x128_S500000x128_S500000x384_d1

/-- The pre-activation of every edge. -/
def cT : FVec Ideal S500000x128 .f32 :=
  addf (Host.dotGeneral dot_S500000x384_S384x128_S500000x128_1_0_0_1_n_n none (hT ent relE src dst rel)
      (transpose S384x128 [1, 0] aw transposes_S128x384_S384x128_1_0))
    (broadcastInDim S500000x128 ![0, 1] bcast_S1x128_S500000x128_0_1 (broadcastInDim S1x128 ![1] bcast_S128_S1x128_1 ab))

/-- The score of every edge before the rectifier. -/
def sT : FVec Ideal S500000x1 .f32 :=
  addf (Host.dotGeneral dot_S500000x128_S128x1_S500000x1_1_0_0_1_n_n none (cT ent relE aw ab src dst rel)
      (transpose S128x1 [1, 0] a2w transposes_S1x128_S128x1_1_0))
    (broadcastInDim S500000x1 ![0, 1] bcast_S1x1_S500000x1_0_1 (broadcastInDim S1x1 ![1] bcast_S1_S1x1_1 a2b))

/-- The leaky rectifier as the reference spells it. -/
def leakyT (x : FVec Ideal S500000x1 .f32) : FVec Ideal S500000x1 .f32 :=
  select (cmpf .oge x (broadcastInDim S500000x1 ![] bcast_S_S500000x1 (constant S_ .f32 0x00000000#32))) x
    (mulf (broadcastInDim S500000x1 ![] bcast_S_S500000x1 (id (constant S_ .f32 0x3C23D70A#32))) x)

/-- The attention weight of every edge. -/
def wT : FVec Ideal S500000x1 .f32 := Host.exp (leakyT (sT ent relE aw ab a2w a2b src dst rel))

/-- The message of every edge. -/
def mT : FVec Ideal S500000x128 .f32 :=
  mulf (broadcastInDim S500000x128 ![0, 1] bcast_S500000x1_S500000x128_0_1 (wT ent relE aw ab a2w a2b src dst rel))
    (cT ent relE aw ab src dst rel)

/-- The weights summed per source node. -/
def wSumT : FVec Ideal S100000x1 .f32 :=
  Host.scatterAdd scatter_S100000x1_S500000x1_S500000x1_1_0_0_1
    (broadcastInDim S100000x1 ![] bcast_S_S100000x1 (constant S_ .f32 0x00000000#32)) (keyCol src)
    (wT ent relE aw ab a2w a2b src dst rel)

/-- The messages summed per source node. -/
def mSumT : FVec Ideal S100000x128 .f32 :=
  Host.scatterAdd scatter_S100000x128_S500000x1_S500000x128_1_0_0_1
    (broadcastInDim S100000x128 ![] bcast_S_S100000x128 (constant S_ .f32 0x00000000#32)) (keyCol src)
    (mT ent relE aw ab a2w a2b src dst rel)

/-- The node normaliser: the summed weight, an exactly zero one replaced by the guard constant. -/
def guardT : FVec Ideal S100000x1 .f32 :=
  select (cmpf .oeq (wSumT ent relE aw ab a2w a2b src dst rel)
      (broadcastInDim S100000x1 ![] bcast_S_S100000x1 (constant S_ .f32 0x00000000#32)))
    (broadcastInDim S100000x1 ![] bcast_S_S100000x1 (constant S_ .f32 0x2B8CBCCC#32))
    (wSumT ent relE aw ab a2w a2b src dst rel)

/-- The node aggregate before the unit. -/
def nodeT : FVec Ideal S100000x128 .f32 :=
  Host.divf (mSumT ent relE aw ab a2w a2b src dst rel)
    (broadcastInDim S100000x128 ![0, 1] bcast_S100000x1_S100000x128_0_1 (guardT ent relE aw ab a2w a2b src dst rel))

/-- The messages summed per relation. -/
def rSumT : FVec Ideal S500x128 .f32 :=
  Host.scatterAdd scatter_S500x128_S500000x1_S500000x128_1_0_0_1
    (broadcastInDim S500x128 ![] bcast_S_S500x128 (constant S_ .f32 0x00000000#32)) (keyCol rel)
    (mT ent relE aw ab a2w a2b src dst rel)

/-- The number of edges per relation, floored at one. -/
def rCntT : FVec Ideal S500 .f32 :=
  maximumf (Host.scatterAdd scatter_S500_S500000x1_S500000_n_0_0_1
      (broadcastInDim S500 ![] bcast_S_S500 (constant S_ .f32 0x00000000#32)) (keyCol rel)
      (broadcastInDim S500000 ![] bcast_S_S500000 (constant S_ .f32 0x3F800000#32)))
    (broadcastInDim S500 ![] bcast_S_S500 (constant S_ .f32 0x3F800000#32))

/-- The relation aggregate before the unit. -/
def relT : FVec Ideal S500x128 .f32 :=
  Host.divf (rSumT ent relE aw ab a2w a2b src dst rel)
    (broadcastInDim S500x128 ![0, 1] bcast_S500x1_S500x128_0_1 (broadcastInDim S500x1 ![0] bcast_S500_S500x1_0 (rCntT rel)))

end

/-- The exponential-linear unit as the reference spells it, over any shape: `select (x > 0) x (1 * expm1 (select (x > 0) 0 x))`. -/
def eluT {s : Shape} (hb : S_.BroadcastsInDim s (![] : Fin 0 → Fin s.rank)) (x : FVec Ideal s .f32) : FVec Ideal s .f32 :=
  select (cmpf .ogt x (broadcastInDim s ![] hb (constant S_ .f32 0x00000000#32))) x
    (mulf (broadcastInDim s ![] hb (constant S_ .f32 0x3F800000#32))
      (Host.expm1 (select (cmpf .ogt x (broadcastInDim s ![] hb (constant S_ .f32 0x00000000#32)))
        (broadcastInDim s ![] hb (id (constant S_ .f32 0x00000000#32))) x)))

section
variable (ent : FVec Ideal S100000x128 .f32) (relE : FVec Ideal S500x128 .f32) (aw : FVec Ideal S128x384 .f32)
  (ab : FVec Ideal S128 .f32) (a2w : FVec Ideal S1x128 .f32) (a2b : FVec Ideal S1 .f32) (src dst rel : IVec S500000 32)

/-- The first result. -/
def out0 : FVec Ideal S100000x128 .f32 := eluT bcast_S_S100000x128 (nodeT ent relE aw ab a2w a2b src dst rel)
/-- The second result. -/
def out1 : FVec Ideal S500x128 .f32 := eluT bcast_S_S500x128 (relT ent relE aw ab a2w a2b src dst rel)

end

end Cert.ReferenceIdeal.Terms

end
-- ==== Proof.RefRun.lean ====
/-
  The reference's @main as one straight line of host operations, and what each buffer holds once the line has run.

  The line is @main's own operations in execution order with every called function's operations written in at the
  call, over the call's buffers: the leaky rectifier's seven (its inner selection the seventh) after the score, the
  guarded normaliser's two after the comparison of the summed weight with zero, and the exponential-linear unit's
  sixteen twice, once per result. The program is that line by unfolding; a run of the line ends with every buffer at
  the fold of the operations' results over the contents at launch; and that fold, read at the two result buffers, is
  the composed term of the nine arguments, while each argument buffer is left as it was.
-/
import proofs.«408672_j49082886259209_3_alg».proof.Proof.RefTerms
import proofs.«408672_j49082886259209_3_alg».proof.Proof.Gen.ReferenceIdeal
import Idealize.ShloMosaic.Lib.StableHlo.Run

noncomputable section

namespace Cert.ReferenceIdeal.Run

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F] [Facts]

/-- @main's operations in order, the calls written out. Three index columns (a negative index counted from the end:
    compare with zero, add the extent, select, as a column) each followed by its gather; the concatenation, the
    transposed weight, the product and the bias; the score row's product and offset; the leaky rectifier's seven;
    the exponential, its broadcast and the message; the two source-keyed segment sums with their zero targets and key
    columns; the zero test and the guard's two; the node quotient; the relation-keyed sum, the count and its floor, the
    relation quotient; the unit's sixteen on each quotient. -/
abbrev ops : List (HloOp τ sig (Elt F)) :=
  [ nullary main_c (constantI S_ 32 0#32),
    unary main_c main_v0 (broadcastInDim S500000 ![] bcast_S_S500000),
    binary main_arg6 main_v0 main_v1 (cmpi .slt),
    nullary main_c_0 (constantI S_ 32 100000#32),
    unary main_c_0 main_v2 (broadcastInDim S500000 ![] bcast_S_S500000),
    binary main_arg6 main_v2 main_v3 addi,
    ternary main_v1 main_v3 main_arg6 main_v4 select,
    unary main_v4 main_v5 (broadcastInDim S500000x1 ![0] bcast_S500000_S500000x1_0),
    binary main_arg0 main_v5 main_v6 (fun x i => Host.gather gather_S100000x128_S500000x1_S500000x128_1_0_n_n_0_1_1128 x i),
    nullary main_c_1 (constantI S_ 32 0#32),
    unary main_c_1 main_v7 (broadcastInDim S500000 ![] bcast_S_S500000),
    binary main_arg7 main_v7 main_v8 (cmpi .slt),
    nullary main_c_2 (constantI S_ 32 100000#32),
    unary main_c_2 main_v9 (broadcastInDim S500000 ![] bcast_S_S500000),
    binary main_arg7 main_v9 main_v10 addi,
    ternary main_v8 main_v10 main_arg7 main_v11 select,
    unary main_v11 main_v12 (broadcastInDim S500000x1 ![0] bcast_S500000_S500000x1_0),
    binary main_arg0 main_v12 main_v13 (fun x i => Host.gather gather_S100000x128_S500000x1_S500000x128_1_0_n_n_0_1_1128 x i),
    nullary main_c_3 (constantI S_ 32 0#32),
    unary main_c_3 main_v14 (broadcastInDim S500000 ![] bcast_S_S500000),
    binary main_arg8 main_v14 main_v15 (cmpi .slt),
    nullary main_c_4 (constantI S_ 32 500#32),
    unary main_c_4 main_v16 (broadcastInDim S500000 ![] bcast_S_S500000),
    binary main_arg8 main_v16 main_v17 addi,
    ternary main_v15 main_v17 main_arg8 main_v18 select,
    unary main_v18 main_v19 (broadcastInDim S500000x1 ![0] bcast_S500000_S500000x1_0),
    binary main_arg1 main_v19 main_v20 (fun x i => Host.gather gather_S500x128_S500000x1_S500000x128_1_0_n_n_0_1_1128 x i),
    StableHlo.nary ![main_v6, main_v13, main_v20] main_v21 (fun u => concatenate S500000x384 1 [⟨S500000x128, u 0⟩, ⟨S500000x128, u 1⟩, ⟨S500000x128, u 2⟩] concatenates_S500000x128_S500000x128_S500000x128_S500000x384_d1),
    unary main_arg2 main_v22 (transpose S384x128 [1, 0] · transposes_S128x384_S384x128_1_0),
    binary main_v21 main_v22 main_v23 (fun l r => Host.dotGeneral dot_S500000x384_S384x128_S500000x128_1_0_0_1_n_n none l r),
    unary main_arg3 main_v24 (broadcastInDim S1x128 ![1] bcast_S128_S1x128_1),
    unary main_v24 main_v25 (broadcastInDim S500000x128 ![0, 1] bcast_S1x128_S500000x128_0_1),
    binary main_v23 main_v25 main_v26 addf,
    unary main_arg4 main_v27 (transpose S128x1 [1, 0] · transposes_S1x128_S128x1_1_0),
    binary main_v26 main_v27 main_v28 (fun l r => Host.dotGeneral dot_S500000x128_S128x1_S500000x1_1_0_0_1_n_n none l r),
    unary main_arg5 main_v29 (broadcastInDim S1x1 ![1] bcast_S1_S1x1_1),
    unary main_v29 main_v30 (broadcastInDim S500000x1 ![0, 1] bcast_S1x1_S500000x1_0_1),
    binary main_v28 main_v30 main_v31 addf,
    nullary main_cst (constant S_ .f32 0x3C23D70A#32),
    TRef.nullary main_call0.cst (constant S_ .f32 0x00000000#32),
    TRef.unary main_call0.cst main_call0.v0 (broadcastInDim S500000x1 ![] bcast_S_S500000x1),
    TRef.binary (.of main_v31 : TRef sig ⟨S500000x1, .f32⟩) main_call0.v0 main_call0.v1 (cmpf .oge),
    TRef.unary (.of main_cst : TRef sig ⟨S_, .f32⟩) main_call0.v2 id,
    TRef.unary main_call0.v2 main_call0.v3 (broadcastInDim S500000x1 ![] bcast_S_S500000x1),
    TRef.binary main_call0.v3 (.of main_v31 : TRef sig ⟨S500000x1, .f32⟩) main_call0.v4 mulf,
    TRef.ternary main_call0.v1 (.of main_v31 : TRef sig ⟨S500000x1, .f32⟩) main_call0.v4 main_call0.call0.v0 select,
    unary main_v32 main_v33 Host.exp,
    unary main_v33 main_v34 (broadcastInDim S500000x128 ![0, 1] bcast_S500000x1_S500000x128_0_1),
    binary main_v34 main_v26 main_v35 mulf,
    nullary main_cst_5 (constant S_ .f32 0x00000000#32),
    unary main_cst_5 main_v36 (broadcastInDim S100000x1 ![] bcast_S_S100000x1),
    unary main_arg6 main_v37 (broadcastInDim S500000x1 ![0] bcast_S500000_S500000x1_0),
    ternary main_v36 main_v37 main_v33 main_v38 (fun x i u => Host.scatterAdd scatter_S100000x1_S500000x1_S500000x1_1_0_0_1 x i u),
    nullary main_cst_6 (constant S_ .f32 0x00000000#32),
    unary main_cst_6 main_v39 (broadcastInDim S100000x128 ![] bcast_S_S100000x128),
    unary main_arg6 main_v40 (broadcastInDim S500000x1 ![0] bcast_S500000_S500000x1_0),
    ternary main_v39 main_v40 main_v35 main_v41 (fun x i u => Host.scatterAdd scatter_S100000x128_S500000x1_S500000x128_1_0_0_1 x i u),
    nullary main_cst_7 (constant S_ .f32 0x00000000#32),
    unary main_cst_7 main_v42 (broadcastInDim S100000x1 ![] bcast_S_S100000x1),
    binary main_v38 main_v42 main_v43 (cmpf .oeq),
    nullary main_cst_8 (constant S_ .f32 0x2B8CBCCC#32),
    TRef.unary (.of main_cst_8 : TRef sig ⟨S_, .f32⟩) main_call1.v0 (broadcastInDim S100000x1 ![] bcast_S_S100000x1),
    TRef.ternary (.of main_v43 : TRef sig ⟨S100000x1, .i1⟩) main_call1.v0 (.of main_v38 : TRef sig ⟨S100000x1, .f32⟩) main_call1.v1 select,
    unary main_v44 main_v45 (broadcastInDim S100000x128 ![0, 1] bcast_S100000x1_S100000x128_0_1),
    binary main_v41 main_v45 main_v46 Host.divf,
    nullary main_cst_9 (constant S_ .f32 0x00000000#32),
    unary main_cst_9 main_v47 (broadcastInDim S500x128 ![] bcast_S_S500x128),
    unary main_arg8 main_v48 (broadcastInDim S500000x1 ![0] bcast_S500000_S500000x1_0),
    ternary main_v47 main_v48 main_v35 main_v49 (fun x i u => Host.scatterAdd scatter_S500x128_S500000x1_S500000x128_1_0_0_1 x i u),
    nullary main_cst_10 (constant S_ .f32 0x3F800000#32),
    unary main_cst_10 main_v50 (broadcastInDim S500000 ![] bcast_S_S500000),
    nullary main_cst_11 (constant S_ .f32 0x00000000#32),
    unary main_cst_11 main_v51 (broadcastInDim S500 ![] bcast_S_S500),
    unary main_arg8 main_v52 (broadcastInDim S500000x1 ![0] bcast_S500000_S500000x1_0),
    ternary main_v51 main_v52 main_v50 main_v53 (fun x i u => Host.scatterAdd scatter_S500_S500000x1_S500000_n_0_0_1 x i u),
    nullary main_cst_12 (constant S_ .f32 0x3F800000#32),
    unary main_cst_12 main_v54 (broadcastInDim S500 ![] bcast_S_S500),
    binary main_v53 main_v54 main_v55 maximumf,
    unary main_v55 main_v56 (broadcastInDim S500x1 ![0] bcast_S500_S500x1_0),
    unary main_v56 main_v57 (broadcastInDim S500x128 ![0, 1] bcast_S500x1_S500x128_0_1),
    binary main_v49 main_v57 main_v58 Host.divf,
    TRef.nullary main_call2.cst (constant S_ .f32 0x00000000#32),
    TRef.unary main_call2.cst main_call2.v0 (broadcastInDim S100000x128 ![] bcast_S_S100000x128),
    TRef.binary (.of main_v46 : TRef sig ⟨S100000x128, .f32⟩) main_call2.v0 main_call2.v1 (cmpf .ogt),
    TRef.nullary main_call2.cst_0 (constant S_ .f32 0x00000000#32),
    TRef.unary main_call2.cst_0 main_call2.v2 (broadcastInDim S100000x128 ![] bcast_S_S100000x128),
    TRef.binary (.of main_v46 : TRef sig ⟨S100000x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x128 ![] bcast_S_S100000x128),
    TRef.ternary main_call2.v3 main_call2.call0.v1 (.of main_v46 : TRef sig ⟨S100000x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S100000x128 ![] bcast_S_S100000x128),
    TRef.binary main_call2.v6 main_call2.v5 main_call2.v7 mulf,
    TRef.ternary main_call2.v1 (.of main_v46 : TRef sig ⟨S100000x128, .f32⟩) main_call2.v7 main_call2.call1.v0 select,
    TRef.nullary main_call3.cst (constant S_ .f32 0x00000000#32),
    TRef.unary main_call3.cst main_call3.v0 (broadcastInDim S500x128 ![] bcast_S_S500x128),
    TRef.binary (.of main_v58 : TRef sig ⟨S500x128, .f32⟩) main_call3.v0 main_call3.v1 (cmpf .ogt),
    TRef.nullary main_call3.cst_0 (constant S_ .f32 0x00000000#32),
    TRef.unary main_call3.cst_0 main_call3.v2 (broadcastInDim S500x128 ![] bcast_S_S500x128),
    TRef.binary (.of main_v58 : TRef sig ⟨S500x128, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S500x128 ![] bcast_S_S500x128),
    TRef.ternary main_call3.v3 main_call3.call0.v1 (.of main_v58 : TRef sig ⟨S500x128, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S500x128 ![] bcast_S_S500x128),
    TRef.binary main_call3.v6 main_call3.v5 main_call3.v7 mulf,
    TRef.ternary main_call3.v1 (.of main_v58 : TRef sig ⟨S500x128, .f32⟩) main_call3.v7 main_call3.call1.v0 select ]

-- one hundred and eleven binds re-associated: the rewrite under the chain recurses once per statement
set_option maxRecDepth 4096 in
set_option maxHeartbeats 4000000 in
/-- @main is that straight line: its two windows, the five functions it calls and the four they call unfolded at their
    calls, both sides are one chain of host steps once sequencing is re-associated. -/
theorem main_eq (c : Dev nD) : main (F := F) c = StableHlo.seq ops := by
  simp only [main, main_part0, main_part1, fn_leaky_relu.body, fn_where.body, fn_where_0.body, fn_elu.body, fn_where_1.body,
    fn_where_2.body, fn_elu_3.body, fn_where_4.body, fn_where_5.body, seq, bind_assoc, pure_bind]
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the line touches TensorCore references only: one fact per operation, in the line's order. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    nary_bufs_sub .., unary_bufs_sub .., binary_bufs_sub .., unary_bufs_sub .., unary_bufs_sub .., binary_bufs_sub ..,
    unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    unary_bufs_sub .., unary_bufs_sub .., binary_bufs_sub .., nullary_bufs_sub .., unary_bufs_sub .., unary_bufs_sub ..,
    ternary_bufs_sub .., nullary_bufs_sub .., unary_bufs_sub .., unary_bufs_sub .., ternary_bufs_sub .., nullary_bufs_sub ..,
    unary_bufs_sub .., binary_bufs_sub .., nullary_bufs_sub ..,
    unary_bufs_sub .., ternary_bufs_sub ..,
    unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

set_option maxRecDepth 8192 in
set_option maxHeartbeats 4000000 in
/-- At the compiled mesh, for any float values, from any memory with zero counters: every weakly fair execution of @main
    terminates, and every final state has each TensorCore buffer at the fold of the line's results over the contents at
    launch. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ

/-! ## What the buffers hold after the line

At a result buffer the fold is the composed term of the arguments: each operation's result is read at its own buffer as
its function of what its operands' buffers hold, and at any other buffer as what was there (the buffers told apart as
references); what is left is the operations composed over the arguments' contents, which is the term by unfolding. The
array operations are kept folded meanwhile: the two sides are compared as compositions, never element by element. -/

/-- A three-operand operation leaves at its result buffer its function of the three operands' contents, each read at its own
    buffer (the family of contents written out operand by operand, so that what an operand's buffer holds can be read on). -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

attribute [local irreducible] Host.gather Host.scatterAdd concatenate transpose broadcastInDim select cmpi addi constantI
  constant addf mulf maximumf cmpf Host.divf Host.exp Host.expm1 in
set_option maxRecDepth 8192 in
set_option maxHeartbeats 1000000 in
/-- The first result buffer holds the node aggregate through the unit, as a term of the nine arguments. -/
theorem res0_eq (V : Valuation τ sig (Elt Ideal)) :
    StableHlo.after (ops (F := Ideal)) V (main_v59 : DevRef τ sig)
      = Terms.out0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  simp (disch := decide) only [after_cons, after_nil, nullary_result', unary_result', binary_result', ternary_result', nary3_result',
    nullary_result_ne', unary_result_ne', binary_result_ne', ternary_result_ne', nary_result_ne']
  rfl

attribute [local irreducible] Host.gather Host.scatterAdd concatenate transpose broadcastInDim select cmpi addi constantI
  constant addf mulf maximumf cmpf Host.divf Host.exp Host.expm1 in
set_option maxRecDepth 8192 in
set_option maxHeartbeats 1000000 in
/-- The second result buffer holds the relation aggregate through the unit, as a term of the nine arguments. -/
theorem res1_eq (V : Valuation τ sig (Elt Ideal)) :
    StableHlo.after (ops (F := Ideal)) V (main_v60 : DevRef τ sig)
      = Terms.out1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  simp (disch := decide) only [after_cons, after_nil, nullary_result', unary_result', binary_result', ternary_result', nary3_result',
    nullary_result_ne', unary_result_ne', binary_result_ne', ternary_result_ne', nary_result_ne']
  rfl

end Cert.ReferenceIdeal.Run

end
-- ==== Proof.RefArgs.lean ====
/-
  No host operation of the reference writes one of its nine arguments: after all of them each argument buffer holds
  what it held at launch.
-/
import proofs.«408672_j49082886259209_3_alg».proof.Proof.RefRun

set_option maxRecDepth 16384

noncomputable section

namespace Cert.ReferenceIdeal.RunArgs

open Idealize.ShloMosaic Idealize.SL.Sem Cert.ReferenceIdeal Cert.ReferenceIdeal.Run StableHlo

variable {F : FTy → Type} [FloatOps F]

/-- Argument 0 is read, never written. -/
theorem arg0_eq (V : Valuation τ sig (Elt F)) :
    StableHlo.after (ops (F := F)) V (Proc.devRef .tc main_arg0) = V (Proc.devRef .tc main_arg0) := by
  simp only [ops, StableHlo.after_cons, StableHlo.after_nil]
  rfl

/-- Argument 1 is read, never written. -/
theorem arg1_eq (V : Valuation τ sig (Elt F)) :
    StableHlo.after (ops (F := F)) V (Proc.devRef .tc main_arg1) = V (Proc.devRef .tc main_arg1) := by
  simp only [ops, StableHlo.after_cons, StableHlo.after_nil]
  rfl

/-- Argument 2 is read, never written. -/
theorem arg2_eq (V : Valuation τ sig (Elt F)) :
    StableHlo.after (ops (F := F)) V (Proc.devRef .tc main_arg2) = V (Proc.devRef .tc main_arg2) := by
  simp only [ops, StableHlo.after_cons, StableHlo.after_nil]
  rfl

/-- Argument 3 is read, never written. -/
theorem arg3_eq (V : Valuation τ sig (Elt F)) :
    StableHlo.after (ops (F := F)) V (Proc.devRef .tc main_arg3) = V (Proc.devRef .tc main_arg3) := by
  simp only [ops, StableHlo.after_cons, StableHlo.after_nil]
  rfl

/-- Argument 4 is read, never written. -/
theorem arg4_eq (V : Valuation τ sig (Elt F)) :
    StableHlo.after (ops (F := F)) V (Proc.devRef .tc main_arg4) = V (Proc.devRef .tc main_arg4) := by
  simp only [ops, StableHlo.after_cons, StableHlo.after_nil]
  rfl

/-- Argument 5 is read, never written. -/
theorem arg5_eq (V : Valuation τ sig (Elt F)) :
    StableHlo.after (ops (F := F)) V (Proc.devRef .tc main_arg5) = V (Proc.devRef .tc main_arg5) := by
  simp only [ops, StableHlo.after_cons, StableHlo.after_nil]
  rfl

/-- Argument 6 is read, never written. -/
theorem arg6_eq (V : Valuation τ sig (Elt F)) :
    StableHlo.after (ops (F := F)) V (Proc.devRef .tc main_arg6) = V (Proc.devRef .tc main_arg6) := by
  simp only [ops, StableHlo.after_cons, StableHlo.after_nil]
  rfl

/-- Argument 7 is read, never written. -/
theorem arg7_eq (V : Valuation τ sig (Elt F)) :
    StableHlo.after (ops (F := F)) V (Proc.devRef .tc main_arg7) = V (Proc.devRef .tc main_arg7) := by
  simp only [ops, StableHlo.after_cons, StableHlo.after_nil]
  rfl

/-- Argument 8 is read, never written. -/
theorem arg8_eq (V : Valuation τ sig (Elt F)) :
    StableHlo.after (ops (F := F)) V (Proc.devRef .tc main_arg8) = V (Proc.devRef .tc main_arg8) := by
  simp only [ops, StableHlo.after_cons, StableHlo.after_nil]
  rfl

end Cert.ReferenceIdeal.RunArgs

end
-- ==== Proof.RefValue.lean ====
/-
  The reference's two results, read at an index, are the plain mathematics of `Spec.lean`.

  A row gather at a wrapped index reads the row `Spec.rowOf` names; the 384-term contraction of the three concatenated
  rows against the transposed weight splits into the three 128-term sums over the weight's column blocks; the score
  contraction is the sum over the 128 features; a segment sum into zeros at a node (a relation) is the sum over the edges
  whose key, read signed, is that node (that relation); the guard, the quotient and the unit are entrywise. The unit as
  the reference spells it, `select (x > 0) x (1 * expm1 (select (x > 0) 0 x))`, is `select (x > 0) x (exp x - 1)`:
  where the comparison fails the inner select returns `x`, and `expm1 y = exp y - 1`.
-/
import proofs.«408672_j49082886259209_3_alg».proof.Proof.RefTerms
import proofs.«408672_j49082886259209_3_alg».proof.Proof.LibTakeRows
import proofs.«408672_j49082886259209_3_alg».proof.Proof.LibSegmentSum
import Idealize.ShloMosaic.Lib.Pipeline.Value
import Idealize.ShloMosaic.PureOps.Ideal.Laws
import Idealize.ShloMosaic.Lib.IdealHost
import Mathlib.Algebra.BigOperators.Fin

set_option maxRecDepth 16384

noncomputable section

open scoped BigOperators

namespace Cert.ReferenceIdeal.Value

open Idealize.ShloMosaic Idealize.ShloMosaic.ValueIdx Idealize.SL.Sem Cert.ReferenceIdeal Cert.ReferenceIdeal.Terms
open Cert.ReferenceIdeal.Facts₀ Cert.ReferenceIdeal.Facts

variable [Facts]

/-! ## Index words: the wrap, the row a gather reads -/

/-- Two rank-2 indices with the same row number and the same column are equal. -/
theorem ix2_congr {n0 n1 : Nat} {a b : Fin n0} (k : Fin n1) (h : a.val = b.val) : ix2 a k = ix2 b k := by
  have hab : a = b := Fin.ext h
  subst hab; rfl

/-- On one word: the select on "negative" between the word plus the extent and the word is the wrapped word. -/
theorem wrap_word (n' : Nat) (x : BitVec 32) :
    Scalar.select (IntOp.cmpi .slt x 0#32) (IntOp.addi x (BitVec.ofNat 32 n')) x = Spec.wrapI n' x := by
  unfold Spec.wrapI Scalar.select IntOp.cmpi IntOp.addi
  by_cases h : x.toInt < 0
  · rw [if_pos h, if_pos]
    simp [BitVec.slt, h]
  · rw [if_neg h, if_neg]
    simp [BitVec.slt, h]

/-- The wrapped index column at row `e` is the wrapped word of entry `e`. -/
theorem wrapCol_apply (n' : Nat) (i : IVec S500000 32) (e : Fin 500000) :
    wrapCol (BitVec.ofNat 32 n') i (ix2 e 0) = Spec.wrapI n' (i (ix1 e)) := by
  unfold wrapCol
  rw [broadcastInDim_apply _ _ _ _ (ix1 e) (fun a => by match a with | ⟨0, _⟩ => rfl)]
  exact wrap_word n' (i (ix1 e))

/-- The key column at row `e` is entry `e`. -/
theorem keyCol_apply (i : IVec S500000 32) (e : Fin 500000) : keyCol i (ix2 e 0) = i (ix1 e) := by
  unfold keyCol
  rw [broadcastInDim_apply _ _ _ _ (ix1 e) (fun a => by match a with | ⟨0, _⟩ => rfl)]

/-- A gathered entity row is the row the wrapped, clamped index names. -/
theorem gather_ent_apply (x : FVec Ideal S100000x128 .f32) (i : IVec S500000 32) (e : Fin 500000) (k : Fin 128) :
    Host.gather gather_S100000x128_S500000x1_S500000x128_1_0_n_n_0_1_1128 x (wrapCol 100000#32 i) (ix2 e k)
      = Spec.entRow x (i (ix1 e)) k := by
  rw [Cert.Lib.gather_rows_apply (by decide) _ rfl rfl rfl rfl rfl rfl rfl]
  unfold Spec.entRow
  refine congrArg x (ix2_congr k ?_)
  show min (wrapCol (BitVec.ofNat 32 100000) i (ix2 e 0)).toInt.toNat (100000 - 1) = Spec.rowOf 100000 (i (ix1 e))
  rw [wrapCol_apply]; rfl

/-- A gathered relation row is the row the wrapped, clamped index names. -/
theorem gather_rel_apply (x : FVec Ideal S500x128 .f32) (i : IVec S500000 32) (e : Fin 500000) (k : Fin 128) :
    Host.gather gather_S500x128_S500000x1_S500000x128_1_0_n_n_0_1_1128 x (wrapCol 500#32 i) (ix2 e k)
      = Spec.relRow x (i (ix1 e)) k := by
  rw [Cert.Lib.gather_rows_apply (by decide) _ rfl rfl rfl rfl rfl rfl rfl]
  unfold Spec.relRow
  refine congrArg x (ix2_congr k ?_)
  show min (wrapCol (BitVec.ofNat 32 500) i (ix2 e 0)).toInt.toNat (500 - 1) = Spec.rowOf 500 (i (ix1 e))
  rw [wrapCol_apply]; rfl

/-! ## The exponential-linear unit -/

/-- The unit as the reference spells it is `Spec.elu` entrywise: where the comparison holds both are the entry; where it
    fails the inner select returns the entry and `expm1 y = exp y - 1`. -/
theorem eluT_apply {s : Shape} (hb : S_.BroadcastsInDim s (![] : Fin 0 → Fin s.rank)) (x : FVec Ideal s .f32) (j : s.Idx) :
    eluT hb x j = Spec.elu (x j) := by
  unfold Spec.elu
  show Scalar.select (Ideal.cmp .ogt (x j) (Ideal.ofBits .f32 0x00000000#32)) (x j)
      (Ideal.ofBits .f32 0x3F800000#32 * (Ideal.exp (Scalar.select (Ideal.cmp .ogt (x j) (Ideal.ofBits .f32 0x00000000#32))
        (Ideal.ofBits .f32 0x00000000#32) (x j)) - 1)) = _
  rcases BitVec.eq_zero_or_eq_one (Ideal.cmp .ogt (x j) (Ideal.ofBits .f32 0x00000000#32)) with h | h
  · rw [h, select_zero, select_zero, select_zero, Ideal.ofBits_one_f32, one_mul]
  · rw [h, select_one, select_one]

/-! ## A rows-by-columns contraction read at an index -/

section Dot
variable {M K N : Nat}

/-- The dimension numbers of `[M, K] × [K, N] → [M, N]` as a literal record. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row. -/
theorem plain_lhs_0 (m : Fin M) (n : Fin N) (q : (plainDims M K N wf).contr.Idx) :
    ((plainDims M K N wf).lhsIdx (ix2 m n) q 0).val = m.val := by
  unfold DotDims.lhsIdx
  rw [dif_neg (show ¬ _ ∈ (plainDims M K N wf).lhsBatch from List.not_mem_nil),
    dif_pos (show _ ∈ (plainDims M K N wf).lhsNonContracting from List.mem_singleton.mpr rfl)]
  rfl

/-- The left operand's column coordinate is the contraction position. -/
theorem plain_lhs_1 (m : Fin M) (n : Fin N) (q : (plainDims M K N wf).contr.Idx) :
    ((plainDims M K N wf).lhsIdx (ix2 m n) q 1).val = (q ⟨0, Nat.one_pos⟩).val :=
  (plainDims M K N wf).lhsIdx_val_of_single rfl (ix2 m n) q

/-- The right operand's row coordinate is the contraction position. -/
theorem plain_rhs_0 (m : Fin M) (n : Fin N) (q : (plainDims M K N wf).contr.Idx) :
    ((plainDims M K N wf).rhsIdx (ix2 m n) q 0).val = (q ⟨0, Nat.one_pos⟩).val :=
  (plainDims M K N wf).rhsIdx_val_of_single rfl (ix2 m n) q

/-- The right operand's column coordinate is the result's column. -/
theorem plain_rhs_1 (m : Fin M) (n : Fin N) (q : (plainDims M K N wf).contr.Idx) :
    ((plainDims M K N wf).rhsIdx (ix2 m n) q 1).val = n.val := by
  unfold DotDims.rhsIdx
  rw [dif_neg (show ¬ _ ∈ (plainDims M K N wf).rhsBatch from List.not_mem_nil),
    dif_pos (show _ ∈ (plainDims M K N wf).rhsNonContracting from List.mem_singleton.mpr rfl)]
  rfl

/-- The contraction of the literal record at `(m, n)`: the sum over the shared axis of the products. -/
theorem plainDims_apply {φ₁ φ₂ : FTy} (prec : Option ContractPrecision) (sched : HostSchedule)
    (lhs : FVec Ideal ⟨2, ![M, K]⟩ φ₁) (rhs : FVec Ideal ⟨2, ![K, N]⟩ φ₂) (m : Fin M) (n : Fin N) :
    FloatOps.dotGeneral (plainDims M K N wf) prec sched lhs rhs (ix2 m n) = ∑ k : Fin K, lhs (ix2 m k) * rhs (ix2 k n) := by
  rw [Ideal.dotGeneral_apply, ← Equiv.sum_comp (contrEquiv1 (plainDims M K N wf) K rfl rfl).symm]
  refine Finset.sum_congr rfl fun k _ => ?_
  have hl : (plainDims M K N wf).lhsIdx (ix2 m n) ((contrEquiv1 (plainDims M K N wf) K rfl rfl).symm k) = ix2 m k := by
    funext a; refine Fin.ext ?_
    match a with
    | ⟨0, _⟩ => exact plain_lhs_0 wf m n _
    | ⟨1, _⟩ => exact (plain_lhs_1 wf m n _).trans (contrEquiv1_symm_val _ K rfl rfl k)
  have hr : (plainDims M K N wf).rhsIdx (ix2 m n) ((contrEquiv1 (plainDims M K N wf) K rfl rfl).symm k) = ix2 k n := by
    funext a; refine Fin.ext ?_
    match a with
    | ⟨0, _⟩ => exact (plain_rhs_0 wf m n _).trans (contrEquiv1_symm_val _ K rfl rfl k)
    | ⟨1, _⟩ => exact plain_rhs_1 wf m n _
  rw [hl, hr]

/-- THE ROWS-BY-COLUMNS CONTRACTION READ AT `(m, n)`, for any record with those dimension numbers. -/
theorem dot_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (lhs : FVec Ideal ⟨2, ![M, K]⟩ φ₁) (rhs : FVec Ideal ⟨2, ![K, N]⟩ φ₂) (m : Fin M) (n : Fin N) :
    FloatOps.dotGeneral d prec sched lhs rhs (ix2 m n) = ∑ k : Fin K, lhs (ix2 m k) * rhs (ix2 k n) := by
  obtain ⟨lc, rc, ln, rn, lb, rb, wf⟩ := d
  simp only at h1 h2 h3 h4 h5 h6
  subst h1 h2 h3 h4 h5 h6
  exact plainDims_apply wf prec sched lhs rhs m n

end Dot

/-- A sum over 384 positions is the sum of its three 128-position thirds. -/
theorem sum_fin_384 {A : Type} [AddCommMonoid A] (f : Fin 384 → A) :
    ∑ k : Fin 384, f k
      = (∑ c : Fin 128, f ⟨c.val, by have := c.isLt; omega⟩) + (∑ c : Fin 128, f ⟨128 + c.val, by have := c.isLt; omega⟩)
        + (∑ c : Fin 128, f ⟨256 + c.val, by have := c.isLt; omega⟩) := by
  have h1 := Fin.sum_univ_add (a := 128 + 128) (b := 128) (fun i => f i)
  have h2 := Fin.sum_univ_add (a := 128) (b := 128) (fun i : Fin (128 + 128) => f (Fin.castAdd 128 i))
  exact h1.trans (congrArg (· + ∑ c : Fin 128, f ⟨256 + c.val, by have := c.isLt; omega⟩) h2)

/-! ## The layout operations of the two contractions -/

/-- The transposed weight at `(k, o)` is the weight at `(o, k)`. -/
theorem awT_apply (x : FVec Ideal S128x384 .f32) (k : Fin 384) (o : Fin 128) :
    transpose S384x128 [1, 0] x transposes_S128x384_S384x128_1_0 (ix2 k o) = x (ix2 o k) :=
  transpose_apply _ _ _ _ (ix2 o k) (fun b => by match b with | ⟨0, _⟩ => rfl | ⟨1, _⟩ => rfl)

/-- The transposed score row at `(o, 0)` is the row at `(0, o)`. -/
theorem a2wT_apply (x : FVec Ideal S1x128 .f32) (o : Fin 128) :
    transpose S128x1 [1, 0] x transposes_S1x128_S128x1_1_0 (ix2 o 0) = x (ix2 0 o) :=
  transpose_apply _ _ _ _ (ix2 0 o) (fun b => by match b with | ⟨0, _⟩ => rfl | ⟨1, _⟩ => rfl)

/-- The bias broadcast over the edges at `(e, o)` is entry `o`. -/
theorem abB_apply (x : FVec Ideal S128 .f32) (e : Fin 500000) (o : Fin 128) :
    broadcastInDim S500000x128 ![0, 1] bcast_S1x128_S500000x128_0_1 (broadcastInDim S1x128 ![1] bcast_S128_S1x128_1 x) (ix2 e o)
      = x (ix1 o) := by
  rw [broadcastInDim_apply _ _ _ _ (ix2 0 o) (fun a => by match a with | ⟨0, _⟩ => rfl | ⟨1, _⟩ => rfl),
    broadcastInDim_apply _ _ _ _ (ix1 o) (fun a => by match a with | ⟨0, _⟩ => rfl)]

/-- The score offset broadcast over the edges at `(e, 0)` is its one entry. -/
theorem a2bB_apply (x : FVec Ideal S1 .f32) (e : Fin 500000) :
    broadcastInDim S500000x1 ![0, 1] bcast_S1x1_S500000x1_0_1 (broadcastInDim S1x1 ![1] bcast_S1_S1x1_1 x) (ix2 e 0)
      = x (ix1 0) := by
  rw [broadcastInDim_apply _ _ _ _ (ix2 0 0) (fun a => by match a with | ⟨0, _⟩ => rfl | ⟨1, _⟩ => rfl),
    broadcastInDim_apply _ _ _ _ (ix1 0) (fun a => by match a with | ⟨0, _⟩ => rfl)]

/-! ## The entrywise pieces and the remaining broadcasts -/

/-- The leaky rectifier as the reference spells it is `Spec.leaky` entrywise. -/
theorem leakyT_apply (x : FVec Ideal S500000x1 .f32) (j : S500000x1.Idx) : leakyT x j = Spec.leaky (x j) := rfl

/-- The weight column broadcast over the features at `(e, o)` is the weight of edge `e`. -/
theorem wB_apply (x : FVec Ideal S500000x1 .f32) (e : Fin 500000) (o : Fin 128) :
    broadcastInDim S500000x128 ![0, 1] bcast_S500000x1_S500000x128_0_1 x (ix2 e o) = x (ix2 e 0) :=
  broadcastInDim_apply _ _ _ _ (ix2 e 0) (fun a => by match a with | ⟨0, _⟩ => rfl | ⟨1, _⟩ => rfl)

/-- The node normaliser broadcast over the features at `(n, o)` is the normaliser of node `n`. -/
theorem gB_apply (x : FVec Ideal S100000x1 .f32) (n : Fin 100000) (o : Fin 128) :
    broadcastInDim S100000x128 ![0, 1] bcast_S100000x1_S100000x128_0_1 x (ix2 n o) = x (ix2 n 0) :=
  broadcastInDim_apply _ _ _ _ (ix2 n 0) (fun a => by match a with | ⟨0, _⟩ => rfl | ⟨1, _⟩ => rfl)

/-- The relation counts broadcast over the features at `(r, o)` is the count of relation `r`. -/
theorem cntB_apply (x : FVec Ideal S500 .f32) (r : Fin 500) (o : Fin 128) :
    broadcastInDim S500x128 ![0, 1] bcast_S500x1_S500x128_0_1 (broadcastInDim S500x1 ![0] bcast_S500_S500x1_0 x) (ix2 r o)
      = x (ix1 r) := by
  rw [broadcastInDim_apply _ _ _ _ (ix2 r 0) (fun a => by match a with | ⟨0, _⟩ => rfl | ⟨1, _⟩ => rfl),
    broadcastInDim_apply _ _ _ _ (ix1 r) (fun a => by match a with | ⟨0, _⟩ => rfl)]

/-- The table of zeros reads zero everywhere. -/
theorem zeros_apply {s : Shape} (hb : S_.BroadcastsInDim s (![] : Fin 0 → Fin s.rank)) (j : s.Idx) :
    broadcastInDim s ![] hb (constant (F := Ideal) S_ .f32 0x00000000#32) j = 0 := by
  rw [broadcastInDim_scalar_apply, constant_apply, Ideal.ofBits_zero_f32]

/-- The table of ones reads one everywhere. -/
theorem ones_apply {s : Shape} (hb : S_.BroadcastsInDim s (![] : Fin 0 → Fin s.rank)) (j : s.Idx) :
    broadcastInDim s ![] hb (constant (F := Ideal) S_ .f32 0x3F800000#32) j = 1 := by
  rw [broadcastInDim_scalar_apply, constant_apply, Ideal.ofBits_one_f32]

/-- The host's accumulating scatter at the ideal values is the segment sum of `Ideal.hostScatterAdd`. -/
theorem scatterAdd_eq {s si su : Shape} {w : Nat} (d : ScatterDims s si su) (x : FVec Ideal s .f32) (idx : IVec si w)
    (upd : FVec Ideal su .f32) : Host.scatterAdd d x idx upd = Ideal.hostScatterAdd d x idx upd := rfl

/-- The edges a key column sends to row `n` are the edges whose key, read signed, is `n`. -/
theorem seg_eq (i : IVec S500000 32) (n : Nat) :
    Finset.univ.filter (fun e : Fin 500000 => (keyCol i (ix2 e 0)).toInt = (n : ℤ)) = Spec.inSeg i n := by
  unfold Spec.inSeg
  refine Finset.filter_congr fun e _ => ?_
  rw [keyCol_apply]

/-- The host's exponential at an index is the exponential of the entry. -/
theorem hostExp_apply {s : Shape} (y : FVec Ideal s .f32) (j : s.Idx) : Host.exp y j = Ideal.exp (y j) := rfl

/-- The zero guard as the reference spells it is `Spec.guardZero` entrywise. -/
theorem guard_apply (x : FVec Ideal S100000x1 .f32) (j : S100000x1.Idx) :
    select (cmpf .oeq x (broadcastInDim S100000x1 ![] bcast_S_S100000x1 (constant S_ .f32 0x00000000#32)))
      (broadcastInDim S100000x1 ![] bcast_S_S100000x1 (constant S_ .f32 0x2B8CBCCC#32)) x j = Spec.guardZero (x j) := rfl

variable (ent : FVec Ideal S100000x128 .f32) (relE : FVec Ideal S500x128 .f32) (aw : FVec Ideal S128x384 .f32)
  (ab : FVec Ideal S128 .f32) (a2w : FVec Ideal S1x128 .f32) (a2b : FVec Ideal S1 .f32) (src dst rel : IVec S500000 32)

/-- The concatenated rows at a column of the first third: the source's entity row. -/
theorem hT_apply_0 (e : Fin 500000) (c : Fin 128) :
    hT ent relE src dst rel (ix2 e ⟨c.val, by have := c.isLt; omega⟩) = Spec.entRow ent (src (ix1 e)) c := by
  unfold hT
  refine (concatenate_apply_piece (t := S500000x384) (1 : Fin 2) _ _ _ 0 ?hk S500000x128
    (Host.gather gather_S100000x128_S500000x1_S500000x128_1_0_n_n_0_1_1128 ent (wrapCol 100000#32 src)) ?hx rfl 0 ?hp (ix2 e c)
    ?hi ?ha).trans (gather_ent_apply ent src e c)
  case hk => show (0 : Nat) < 3; omega
  case hx => rfl
  case hp => rfl
  case hi => intro b hb; match b with | ⟨0, _⟩ => rfl | ⟨1, _⟩ => exact absurd rfl hb
  case ha => show 0 + c.val = c.val; omega

/-- At a column of the second third: the destination's entity row. -/
theorem hT_apply_1 (e : Fin 500000) (c : Fin 128) :
    hT ent relE src dst rel (ix2 e ⟨128 + c.val, by have := c.isLt; omega⟩) = Spec.entRow ent (dst (ix1 e)) c := by
  unfold hT
  refine (concatenate_apply_piece (t := S500000x384) (1 : Fin 2) _ _ _ 1 ?hk S500000x128
    (Host.gather gather_S100000x128_S500000x1_S500000x128_1_0_n_n_0_1_1128 ent (wrapCol 100000#32 dst)) ?hx rfl 128 ?hp (ix2 e c)
    ?hi ?ha).trans (gather_ent_apply ent dst e c)
  case hk => show (1 : Nat) < 3; omega
  case hx => rfl
  case hp => rfl
  case hi => intro b hb; match b with | ⟨0, _⟩ => rfl | ⟨1, _⟩ => exact absurd rfl hb
  case ha => rfl

/-- At a column of the last third: the relation's row. -/
theorem hT_apply_2 (e : Fin 500000) (c : Fin 128) :
    hT ent relE src dst rel (ix2 e ⟨256 + c.val, by have := c.isLt; omega⟩) = Spec.relRow relE (rel (ix1 e)) c := by
  unfold hT
  refine (concatenate_apply_piece (t := S500000x384) (1 : Fin 2) _ _ _ 2 ?hk S500000x128
    (Host.gather gather_S500x128_S500000x1_S500000x128_1_0_n_n_0_1_1128 relE (wrapCol 500#32 rel)) ?hx rfl 256 ?hp (ix2 e c)
    ?hi ?ha).trans (gather_rel_apply relE rel e c)
  case hk => show (2 : Nat) < 3; omega
  case hx => rfl
  case hp => rfl
  case hi => intro b hb; match b with | ⟨0, _⟩ => rfl | ⟨1, _⟩ => exact absurd rfl hb
  case ha => rfl

/-- Every edge's pre-activation. -/
theorem cT_apply (e : Fin 500000) (o : Fin 128) :
    cT ent relE aw ab src dst rel (ix2 e o) = Spec.pre ent relE aw ab src dst rel e o := by
  unfold cT Spec.pre
  rw [addf_apply, abB_apply]
  show FloatOps.dotGeneral dot_S500000x384_S384x128_S500000x128_1_0_0_1_n_n none .single (hT ent relE src dst rel)
      (transpose S384x128 [1, 0] aw transposes_S128x384_S384x128_1_0) (ix2 e o) + ab (ix1 o) = _
  rw [dot_plain_apply _ rfl rfl rfl rfl rfl rfl, sum_fin_384]
  refine congrArg (· + ab (ix1 o)) ?_
  refine congrArg₂ (· + ·) (congrArg₂ (· + ·) ?_ ?_) ?_
  · exact Finset.sum_congr rfl fun c _ => by rw [hT_apply_0, awT_apply]
  · exact Finset.sum_congr rfl fun c _ => by rw [hT_apply_1, awT_apply]
  · exact Finset.sum_congr rfl fun c _ => by rw [hT_apply_2, awT_apply]

/-- Every edge's score before the rectifier: the pre-activation against the score row, plus the offset. -/
theorem sT_apply (e : Fin 500000) :
    sT ent relE aw ab a2w a2b src dst rel (ix2 e 0) = Spec.score ent relE aw ab a2w a2b src dst rel e := by
  unfold sT Spec.score
  rw [addf_apply, a2bB_apply]
  show FloatOps.dotGeneral dot_S500000x128_S128x1_S500000x1_1_0_0_1_n_n none .single (cT ent relE aw ab src dst rel)
      (transpose S128x1 [1, 0] a2w transposes_S1x128_S128x1_1_0) (ix2 e 0) + a2b (ix1 0) = _
  rw [dot_plain_apply _ rfl rfl rfl rfl rfl rfl]
  refine congrArg (· + a2b (ix1 0)) ?_
  exact Finset.sum_congr rfl fun o _ => by rw [cT_apply, a2wT_apply]

/-- Every edge's attention weight. -/
theorem wT_apply (e : Fin 500000) :
    wT ent relE aw ab a2w a2b src dst rel (ix2 e 0) = Spec.wgt ent relE aw ab a2w a2b src dst rel e := by
  unfold wT Spec.wgt
  rw [hostExp_apply, leakyT_apply, sT_apply]

/-- Every edge's message. -/
theorem mT_apply (e : Fin 500000) (o : Fin 128) :
    mT ent relE aw ab a2w a2b src dst rel (ix2 e o) = Spec.msg ent relE aw ab a2w a2b src dst rel e o := by
  unfold mT Spec.msg
  rw [mulf_apply, wB_apply, wT_apply, cT_apply]

/-- The weights summed at a node. -/
theorem wSumT_apply (n : Fin 100000) :
    wSumT ent relE aw ab a2w a2b src dst rel (ix2 n 0) = Spec.nodeWgt ent relE aw ab a2w a2b src dst rel n := by
  unfold wSumT Spec.nodeWgt
  rw [scatterAdd_eq, Cert.Lib.scatterAdd_rows_apply _ rfl rfl rfl rfl, zeros_apply, zero_add, seg_eq]
  exact Finset.sum_congr rfl fun e _ => wT_apply ent relE aw ab a2w a2b src dst rel e

/-- The messages summed at a node. -/
theorem mSumT_apply (n : Fin 100000) (o : Fin 128) :
    mSumT ent relE aw ab a2w a2b src dst rel (ix2 n o) = Spec.nodeSum ent relE aw ab a2w a2b src dst rel n o := by
  unfold mSumT Spec.nodeSum
  rw [scatterAdd_eq, Cert.Lib.scatterAdd_rows_apply _ rfl rfl rfl rfl, zeros_apply, zero_add, seg_eq]
  exact Finset.sum_congr rfl fun e _ => mT_apply ent relE aw ab a2w a2b src dst rel e o

/-- The node normaliser: the summed weight through the zero guard. -/
theorem guardT_apply (n : Fin 100000) :
    guardT ent relE aw ab a2w a2b src dst rel (ix2 n 0)
      = Spec.guardZero (Spec.nodeWgt ent relE aw ab a2w a2b src dst rel n) := by
  unfold guardT
  rw [guard_apply, wSumT_apply]

/-- The node aggregate before the unit. -/
theorem nodeT_apply (n : Fin 100000) (o : Fin 128) :
    nodeT ent relE aw ab a2w a2b src dst rel (ix2 n o)
      = Ideal.div (Spec.nodeSum ent relE aw ab a2w a2b src dst rel n o)
          (Spec.guardZero (Spec.nodeWgt ent relE aw ab a2w a2b src dst rel n)) := by
  unfold nodeT
  rw [hostDivf_apply, gB_apply, mSumT_apply, guardT_apply]

/-- The first result. -/
theorem out0_apply (n : Fin 100000) (o : Fin 128) :
    out0 ent relE aw ab a2w a2b src dst rel (ix2 n o) = Spec.hEnt ent relE aw ab a2w a2b src dst rel n o := by
  unfold out0 Spec.hEnt
  rw [eluT_apply, nodeT_apply]

/-- The messages summed at a relation. -/
theorem rSumT_apply (r : Fin 500) (o : Fin 128) :
    rSumT ent relE aw ab a2w a2b src dst rel (ix2 r o) = Spec.relSum ent relE aw ab a2w a2b src dst rel r o := by
  unfold rSumT Spec.relSum
  rw [scatterAdd_eq, Cert.Lib.scatterAdd_rows_apply _ rfl rfl rfl rfl, zeros_apply, zero_add, seg_eq]
  exact Finset.sum_congr rfl fun e _ => mT_apply ent relE aw ab a2w a2b src dst rel e o

/-- The relation's edge count floored at one. -/
theorem rCntT_apply (r : Fin 500) : rCntT rel (ix1 r) = max (Spec.relCnt rel r) 1 := by
  unfold rCntT Spec.relCnt
  rw [maximumf_apply, scatterAdd_eq, Cert.Lib.scatterAdd_flat_apply _ rfl rfl rfl rfl, zeros_apply, zero_add, seg_eq,
    ones_apply]
  refine congrArg (max · 1) ?_
  exact Finset.sum_congr rfl fun e _ => ones_apply _ _

/-- The relation aggregate before the unit. -/
theorem relT_apply (r : Fin 500) (o : Fin 128) :
    relT ent relE aw ab a2w a2b src dst rel (ix2 r o)
      = Ideal.div (Spec.relSum ent relE aw ab a2w a2b src dst rel r o) (max (Spec.relCnt rel r) 1) := by
  unfold relT
  rw [hostDivf_apply, cntB_apply, rSumT_apply, rCntT_apply]

/-- The second result. -/
theorem out1_apply (r : Fin 500) (o : Fin 128) :
    out1 ent relE aw ab a2w a2b src dst rel (ix2 r o) = Spec.hRel ent relE aw ab a2w a2b src dst rel r o := by
  unfold out1 Spec.hRel
  rw [eluT_apply, relT_apply]

end Cert.ReferenceIdeal.Value

end
-- ==== Proof.PreRange.lean ====
/-
  What the precondition says about the relation indices: every one of them, read as a signed integer, is in `[0, 500)`.

  The printed precondition is a conjunction, bit by bit, of one all-entries reduction per conjunct: the six finiteness
  tests of the float arguments, then "every relation index is at least zero", then "every relation index is below 500".
  If the whole is one, each conjunct is one, and an all-entries conjunction that is one holds at every entry.
-/
import proofs.«408672_j49082886259209_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRange

open Idealize.ShloMosaic Idealize.ShloMosaic.ValueIdx Cert.Pre_finite_inputs

variable [Cert.Pre_finite_inputs.Facts]

/-- The result shape of an all-entries reduction has exactly one index. -/
instance : Subsingleton S_.Idx := ⟨fun a b => funext fun d => d.elim0⟩

/-- Under the precondition every relation index is inside `[0, 500)`. -/
theorem rel_range (a0 : FVec Ideal S100000x128 .f32) (a1 : FVec Ideal S500x128 .f32) (a2 : FVec Ideal S128x384 .f32)
    (a3 : FVec Ideal S128 .f32) (a4 : FVec Ideal S1x128 .f32) (a5 : FVec Ideal S1 .f32)
    (a6 a7 a8 : IVec S500000 32)
    (h : Cert.Pre_finite_inputs.fn (F := Ideal) a0 a1 a2 a3 a4 a5 a6 a7 a8 = fun _ => 1#1) (e : Fin 500000) :
    0 ≤ (a8 (ix1 e)).toInt ∧ (a8 (ix1 e)).toInt < 500 := by
  have h0 := congrFun h ValueIdx.ix0
  simp only [Cert.Pre_finite_inputs.fn, Cert.Pre_finite_inputs.fn_part1, Cert.Pre_finite_inputs.fn_part2] at h0
  -- the outermost conjunction: everything before, and "every index is below 500"
  obtain ⟨hX, hlt⟩ := IntOp.andi_eq_one.1 h0
  -- the next one: the six finiteness tests, and "every index is at least zero"
  obtain ⟨-, hge⟩ := IntOp.andi_eq_one.1 hX
  -- an all-entries conjunction that is one holds at the entry `e`
  have h1 := Host.reduce_andi_all _ _ _ _ _ hge (ix1 e)
  have h2 := Host.reduce_andi_all _ _ _ _ _ hlt (ix1 e)
  -- the compared array is the scalar constant at every entry
  have h1' : IntOp.cmpi .sge (a8 (ix1 e)) (0#32 : BitVec 32) = 1#1 := h1
  have h2' : IntOp.cmpi .slt (a8 (ix1 e)) (500#32 : BitVec 32) = 1#1 := h2
  rw [IntOp.cmpi_sge, show (0#32 : BitVec 32).toInt = 0 from by decide] at h1'
  rw [IntOp.cmpi_slt, show (500#32 : BitVec 32).toInt = 500 from by decide] at h2'
  exact ⟨h1', h2'⟩

end Cert.PreRange

end
-- ==== Proof.lean ====
/-
  Under the precondition — every float argument finite and every relation index inside `[0, 500)` — the kernel
  program and the reference compute the same two arrays over the extended reals.

  Both results are named once, as functions of the kernel's launch arguments: entry `(n, o)` of the first is
  `Spec.hEnt`, the unit of node `n`'s summed messages over its guarded summed attention weights; entry `(r, o)` of the
  second is `Spec.hRel`, the unit of relation `r`'s mean message. The kernel's run ends with its two result buffers at
  those functions (`KValue`: its two regions and the host operations around them, the relation-index range turning the
  one-hot selection of the projected relation table into the relation row's own contribution); the reference's run
  ends with its two result buffers at the same functions of its own arguments (`RefRun`, `RefValue`), which agree with
  the kernel's. Finiteness of the float arguments is not used: the two arrangements differ only by the order of sums
  and by products with exact zeros and ones. The three frames are the kernel programs' launch proofs and the
  reference's run with the results dropped; the idealization rewrote nothing, so `preserves` is trivial.
-/
import proofs.«408672_j49082886259209_3_alg».proof.Defs
import proofs.«408672_j49082886259209_3_alg».proof.Proof.Gen.Kernel
import proofs.«408672_j49082886259209_3_alg».proof.Proof.Gen.Kernel.Skeleton
import proofs.«408672_j49082886259209_3_alg».proof.Proof.Gen.Kernel.Launch
import proofs.«408672_j49082886259209_3_alg».proof.Proof.Gen.Kernel.Points
import proofs.«408672_j49082886259209_3_alg».proof.Proof.Gen.Kernel.Frame
import proofs.«408672_j49082886259209_3_alg».proof.Proof.Gen.KernelIdeal
import proofs.«408672_j49082886259209_3_alg».proof.Proof.Gen.KernelIdeal.Skeleton
import proofs.«408672_j49082886259209_3_alg».proof.Proof.Gen.KernelIdeal.Launch
import proofs.«408672_j49082886259209_3_alg».proof.Proof.Gen.KernelIdeal.Points
import proofs.«408672_j49082886259209_3_alg».proof.Proof.Gen.KernelIdeal.Frame
import proofs.«408672_j49082886259209_3_alg».proof.Proof.Gen.ReferenceIdeal
import proofs.«408672_j49082886259209_3_alg».proof.Proof.Gen.Pre_finite_inputs
import proofs.«408672_j49082886259209_3_alg».proof.Proof.KValue
import proofs.«408672_j49082886259209_3_alg».proof.Proof.RefRun
import proofs.«408672_j49082886259209_3_alg».proof.Proof.RefArgs
import proofs.«408672_j49082886259209_3_alg».proof.Proof.RefValue
import proofs.«408672_j49082886259209_3_alg».proof.Proof.PreRange
import Idealize.ShloMosaic.Adequacy
import Idealize.ShloMosaic.Init

set_option maxRecDepth 16384

noncomputable section

namespace Cert.Proof

open Idealize.ShloMosaic Idealize.SL.Sem Idealize.ShloMosaic.ValueIdx

/-- Two rank-2 arrays that agree at every pair of coordinates are equal. -/
theorem arr2_ext {n k : Nat} {α : Type} {f g : (⟨2, ![n, k]⟩ : Shape).Idx → α}
    (h : ∀ (a : Fin n) (b : Fin k), f (ix2 a b) = g (ix2 a b)) : f = g :=
  funext fun i => (congrArg f (eq_ix2 i)).trans ((h (i 0) (i 1)).trans (congrArg g (eq_ix2 i)).symm)

/-- The word-level kernel's frame: its launch proof. -/
theorem frame_k : Cert.frame_Kernel := fun m ρ _ => Cert.Kernel.Gen.frame m ρ

/-- The idealized kernel's frame: its launch proof. -/
theorem frame_ki : Cert.frame_KernelIdeal := fun m ρ _ => Cert.KernelIdeal.Gen.frame m ρ

/-- The reference's frame: its run, keeping only that no operation writes an argument. -/
theorem frame_ri : Cert.frame_ReferenceIdeal := fun m ρ _ =>
  (θ_run Cert.ReferenceIdeal.defs _ _).mono
    (fun r h c =>
      ⟨(h c _).trans (Cert.ReferenceIdeal.RunArgs.arg0_eq _), (h c _).trans (Cert.ReferenceIdeal.RunArgs.arg1_eq _),
       (h c _).trans (Cert.ReferenceIdeal.RunArgs.arg2_eq _), (h c _).trans (Cert.ReferenceIdeal.RunArgs.arg3_eq _),
       (h c _).trans (Cert.ReferenceIdeal.RunArgs.arg4_eq _), (h c _).trans (Cert.ReferenceIdeal.RunArgs.arg5_eq _),
       (h c _).trans (Cert.ReferenceIdeal.RunArgs.arg6_eq _), (h c _).trans (Cert.ReferenceIdeal.RunArgs.arg7_eq _),
       (h c _).trans (Cert.ReferenceIdeal.RunArgs.arg8_eq _)⟩)
    (Cert.ReferenceIdeal.Run.run (F := Ideal) m ρ)

/-- The two programs end with equal results. -/
theorem algebraic : Cert.algebraic_KernelIdeal_ReferenceIdeal := by
  intro m ρ m' ρ' hpre hagree
  -- every relation index is in range, from the precondition
  have Hrel : ∀ (c : Dev Cert.KernelIdeal.nD) (e : Fin 500000),
      0 ≤ (Cert.KernelIdeal.Value.argA8 m c (ix1 e)).toInt ∧ (Cert.KernelIdeal.Value.argA8 m c (ix1 e)).toInt < 500 :=
    fun c e => Cert.PreRange.rel_range _ _ _ _ _ _ _ _ _ (hpre c) e
  refine ⟨fun c => (fun i => Spec.hEnt (Cert.KernelIdeal.Value.argA0 m c) (Cert.KernelIdeal.Value.argA1 m c) (Cert.KernelIdeal.Value.argA2 m c) (Cert.KernelIdeal.Value.argA3 m c) (Cert.KernelIdeal.Value.argA4 m c) (Cert.KernelIdeal.Value.argA5 m c) (Cert.KernelIdeal.Value.argA6 m c) (Cert.KernelIdeal.Value.argA7 m c) (Cert.KernelIdeal.Value.argA8 m c) (i 0) (i 1) : Spec.Arr2 100000 128),
    fun c => (fun i => Spec.hRel (Cert.KernelIdeal.Value.argA0 m c) (Cert.KernelIdeal.Value.argA1 m c) (Cert.KernelIdeal.Value.argA2 m c) (Cert.KernelIdeal.Value.argA3 m c) (Cert.KernelIdeal.Value.argA4 m c) (Cert.KernelIdeal.Value.argA5 m c) (Cert.KernelIdeal.Value.argA6 m c) (Cert.KernelIdeal.Value.argA7 m c) (Cert.KernelIdeal.Value.argA8 m c) (i 0) (i 1) : Spec.Arr2 500 128), ?_, ?_⟩
  · -- the kernel's run, its two result buffers read index by index
    refine (θ_run Cert.KernelIdeal.defs _ _).mono (fun r h c => ?_) (Cert.KernelIdeal.RunResults.run_results (F := Ideal) m ρ)
    obtain ⟨h0, h1, hargs⟩ := h c
    refine ⟨h0.trans ?_, h1.trans ?_, hargs⟩
    · funext i
      rw [eq_ix2 i]
      exact Cert.KernelIdeal.Value.res0_apply m ρ c (Hrel c) (i 0) (i 1)
    · funext i
      rw [eq_ix2 i]
      exact Cert.KernelIdeal.Value.res1_apply m ρ c (Hrel c) (i 0) (i 1)
  · -- the reference's run from the agreeing memory
    refine (θ_run Cert.ReferenceIdeal.defs _ _).mono (fun r h c => ?_) (Cert.ReferenceIdeal.Run.run (F := Ideal) m' ρ')
    obtain ⟨a0, a1, a2, a3, a4, a5, a6, a7, a8⟩ := hagree c
    -- the reference's launch arguments, as its run reads them, are the kernel's
    have e0 : StableHlo.launchContents m' c (Proc.devRef .tc Cert.ReferenceIdeal.main_arg0) = Cert.KernelIdeal.Value.argA0 m c := a0
    have e1 : StableHlo.launchContents m' c (Proc.devRef .tc Cert.ReferenceIdeal.main_arg1) = Cert.KernelIdeal.Value.argA1 m c := a1
    have e2 : StableHlo.launchContents m' c (Proc.devRef .tc Cert.ReferenceIdeal.main_arg2) = Cert.KernelIdeal.Value.argA2 m c := a2
    have e3 : StableHlo.launchContents m' c (Proc.devRef .tc Cert.ReferenceIdeal.main_arg3) = Cert.KernelIdeal.Value.argA3 m c := a3
    have e4 : StableHlo.launchContents m' c (Proc.devRef .tc Cert.ReferenceIdeal.main_arg4) = Cert.KernelIdeal.Value.argA4 m c := a4
    have e5 : StableHlo.launchContents m' c (Proc.devRef .tc Cert.ReferenceIdeal.main_arg5) = Cert.KernelIdeal.Value.argA5 m c := a5
    have e6 : StableHlo.launchContents m' c (Proc.devRef .tc Cert.ReferenceIdeal.main_arg6) = Cert.KernelIdeal.Value.argA6 m c := a6
    have e7 : StableHlo.launchContents m' c (Proc.devRef .tc Cert.ReferenceIdeal.main_arg7) = Cert.KernelIdeal.Value.argA7 m c := a7
    have e8 : StableHlo.launchContents m' c (Proc.devRef .tc Cert.ReferenceIdeal.main_arg8) = Cert.KernelIdeal.Value.argA8 m c := a8
    refine ⟨(h c _).trans ?_, (h c _).trans ?_,
      (h c _).trans (Cert.ReferenceIdeal.RunArgs.arg0_eq _), (h c _).trans (Cert.ReferenceIdeal.RunArgs.arg1_eq _),
      (h c _).trans (Cert.ReferenceIdeal.RunArgs.arg2_eq _), (h c _).trans (Cert.ReferenceIdeal.RunArgs.arg3_eq _),
      (h c _).trans (Cert.ReferenceIdeal.RunArgs.arg4_eq _), (h c _).trans (Cert.ReferenceIdeal.RunArgs.arg5_eq _),
      (h c _).trans (Cert.ReferenceIdeal.RunArgs.arg6_eq _), (h c _).trans (Cert.ReferenceIdeal.RunArgs.arg7_eq _),
      (h c _).trans (Cert.ReferenceIdeal.RunArgs.arg8_eq _)⟩
    · rw [Cert.ReferenceIdeal.Run.res0_eq]
      refine arr2_ext (n := 100000) (k := 128) fun a b => ?_
      rw [Cert.ReferenceIdeal.Value.out0_apply, e0, e1, e2, e3, e4, e5, e6, e7, e8]
    · rw [Cert.ReferenceIdeal.Run.res1_eq]
      refine arr2_ext (n := 500) (k := 128) fun a b => ?_
      rw [Cert.ReferenceIdeal.Value.out1_apply, e0, e1, e2, e3, e4, e5, e6, e7, e8]

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
